-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![48, 48, 48]⟩ ⟨3, ![96, 96, 96]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![48, 48, 48]⟩ ⟨3, ![96, 96, 96]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S48x48x48 : Shape := ⟨3, ![48, 48, 48]⟩
abbrev S_ : Shape := ⟨0, ![]⟩

class Facts : Prop where
  bcast_S_S48x48x48 : S_.BroadcastsInDim S48x48x48 (![] : Fin 0 → Fin S48x48x48.rank)
  reducesTo_S48x48x48_S_d0_1_2 : S48x48x48.ReducesTo [0, 1, 2] S_
  h_S_ : 0 < S_.numel

variable [Facts]

def fn {F : FTy → Type} [FloatOps F] (main_arg0 : FVec F S48x48x48 .f32) : IVec S_ 1 :=
  let main_v0 : FVec F S48x48x48 .f32 := Host.absf main_arg0
  let main_cst : FVec F S_ .f32 := constant S_ .f32 0x7F800000#32
  let main_v1 : FVec F S48x48x48 .f32 := broadcastInDim S48x48x48 ![] bcast_S_S48x48x48 main_cst
  let main_v2 : IVec S48x48x48 1 := cmpf .olt main_v0 main_v1
  let main_c : IVec S_ 1 := constantI S_ 1 1#1
  let main_v3 : IVec S_ 1 := (fun x v => Host.reduce IntOp.andi x v reducesTo_S48x48x48_S_d0_1_2 h_S_) main_v2 main_c
  main_v3
-- ==== Pre_finite_inputs_ReferenceIdeal.lean ====
abbrev S96x96x96 : Shape := ⟨3, ![96, 96, 96]⟩
abbrev S_ : Shape := ⟨0, ![]⟩

class Facts : Prop where
  bcast_S_S96x96x96 : S_.BroadcastsInDim S96x96x96 (![] : Fin 0 → Fin S96x96x96.rank)
  reducesTo_S96x96x96_S_d0_1_2 : S96x96x96.ReducesTo [0, 1, 2] S_
  h_S_ : 0 < S_.numel

variable [Facts]

def fn {F : FTy → Type} [FloatOps F] (main_arg0 : FVec F S96x96x96 .f32) : IVec S_ 1 :=
  let main_v0 : FVec F S96x96x96 .f32 := Host.absf main_arg0
  let main_cst : FVec F S_ .f32 := constant S_ .f32 0x7F800000#32
  let main_v1 : FVec F S96x96x96 .f32 := broadcastInDim S96x96x96 ![] bcast_S_S96x96x96 main_cst
  let main_v2 : IVec S96x96x96 1 := cmpf .olt main_v0 main_v1
  let main_c : IVec S_ 1 := constantI S_ 1 1#1
  let main_v3 : IVec S_ 1 := (fun x v => Host.reduce IntOp.andi x v reducesTo_S96x96x96_S_d0_1_2 h_S_) main_v2 main_c
  main_v3
-- ==== Kernel.lean ====
abbrev S48x48x48 : Shape := ⟨3, ![48, 48, 48]⟩
abbrev S48x48 : Shape := ⟨2, ![48, 48]⟩
abbrev S3 : Shape := ⟨1, ![3]⟩
abbrev S_ : Shape := ⟨0, ![]⟩
abbrev S1x48x48 : Shape := ⟨3, ![1, 48, 48]⟩
abbrev S48x1x48 : Shape := ⟨3, ![48, 1, 48]⟩
abbrev S48x48x1 : Shape := ⟨3, ![48, 48, 1]⟩
abbrev S1 : Shape := ⟨1, ![1]⟩
abbrev S47x48x48 : Shape := ⟨3, ![47, 48, 48]⟩
abbrev S48x47x48 : Shape := ⟨3, ![48, 47, 48]⟩
abbrev S48x48x47 : Shape := ⟨3, ![48, 48, 47]⟩

abbrev nBuf : Space → Nat
  | .hbm => 2
  | .vmem => 8
  | .smem => 0
  | _ => 0

abbrev bufTy : (tb : Table) → Fin (tcTables nBuf tb) → BufTy
  | .hbm, ⟨0, _⟩ => ⟨S48x48x48, .f32⟩
  | .hbm, ⟨1, _⟩ => ⟨S48x48x48, .bf16⟩
  | .local _ .vmem, ⟨0, _⟩ => ⟨S48x48x48, .f32⟩
  | .local _ .vmem, ⟨1, _⟩ => ⟨S48x48x48, .bf16⟩
  | .local _ .vmem, ⟨2, _⟩ => ⟨S48x48, .bf16⟩
  | .local _ .vmem, ⟨3, _⟩ => ⟨S48x48, .bf16⟩
  | .local _ .vmem, ⟨4, _⟩ => ⟨S48x48, .bf16⟩
  | .local _ .vmem, ⟨5, _⟩ => ⟨S48x48, .bf16⟩
  | .local _ .vmem, ⟨6, _⟩ => ⟨S48x48, .bf16⟩
  | .local _ .vmem, ⟨7, _⟩ => ⟨S48x48, .bf16⟩
  | _, _ => ⟨S48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_dev4 (d0 : Dev nD) : Nat :=
  let c0_i32_48 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_47 : BitVec 32 := 4#32
  let v61 : BitVec 32 := Scalar.muli v9 c4_i32_47
  let v62 : BitVec 32 := Scalar.addi c0_i32_48 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v63 : BitVec 32 := Scalar.muli v5 c2_i32_49
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v65 : BitVec 32 := Scalar.muli v8 c1_i32_50
  let v66 : BitVec 32 := Scalar.addi v64 v65
  v66.toNat
def k0_dev5 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v71 : BitVec 32 := Scalar.muli v2 c4_i32_53
  let v72 : BitVec 32 := Scalar.addi c0_i32_54 v71
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_55 : BitVec 32 := 2#32
  let v73 : BitVec 32 := Scalar.muli v10 c2_i32_55
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v75 : BitVec 32 := Scalar.muli v8 c1_i32_56
  let v76 : BitVec 32 := Scalar.addi v74 v75
  v76.toNat
def k0_dev6 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v81 : BitVec 32 := Scalar.muli v2 c4_i32_59
  let v82 : BitVec 32 := Scalar.addi c0_i32_60 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v83 : BitVec 32 := Scalar.muli v5 c2_i32_61
  let v84 : BitVec 32 := Scalar.addi v82 v83
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_62 : BitVec 32 := 1#32
  let v85 : BitVec 32 := Scalar.muli v11 c1_i32_62
  let v86 : BitVec 32 := Scalar.addi v84 v85
  v86.toNat
def k0_off1 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_74 : BitVec 32 := 0#32
  let v121 : BitVec 1 := Scalar.cmpi .eq v2 c0_i32_74
  let c47_i32_75 : BitVec 32 := 47#32
  let c0_i32_76 : BitVec 32 := 0#32
  let v122 : BitVec 32 := Scalar.select v121 c47_i32_75 c0_i32_76
  let v243 : Index := Scalar.indexCast v122
  let c0_136 : Index := 0#32
  let c0_137 : Index := 0#32
  ![v243.toNat, 0, 0]
abbrev stage0_0 : Fin 1 → Memref sig .tc .vmem S48x48x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x48x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S48x48x48_S1x48x48_47_0_0 : ∀ a, (![47, 0, 0] : Fin 3 → Nat) a + S1x48x48.size a ≤ S48x48x48.size a
  h_S1x48x48 : 0 < S1x48x48.numel
  shapeCasts_S1x48x48_S48x48 : S1x48x48.ShapeCasts S48x48
  inb_S48x48x48_S1x48x48_0_0_0 : ∀ a, (![0, 0, 0] : Fin 3 → Nat) a + S1x48x48.size a ≤ S48x48x48.size a
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  shapeCasts_S48x48_S48x48 : S48x48.ShapeCasts S48x48
  packedbf16_S48x48_S48x48_0_0 : (Rect.unit (s := S48x48) ![0, 0] S48x48.size inb_S48x48_S48x48_0_0).PackedRows (EltTy.packing .bf16)
  inb_S48x48x48_S48x1x48_0_47_0 : ∀ a, (![0, 47, 0] : Fin 3 → Nat) a + S48x1x48.size a ≤ S48x48x48.size a
  h_S48x1x48 : 0 < S48x1x48.numel
  shapeCasts_S48x1x48_S48x48 : S48x1x48.ShapeCasts S48x48
  inb_S48x48x48_S48x1x48_0_0_0 : ∀ a, (![0, 0, 0] : Fin 3 → Nat) a + S48x1x48.size a ≤ S48x48x48.size a
  inb_S48x48x48_S48x48x1_0_0_47 : ∀ a, (![0, 0, 47] : Fin 3 → Nat) a + S48x48x1.size a ≤ S48x48x48.size a
  h_S48x48x1 : 0 < S48x48x1.numel
  shapeCasts_S48x48x1_S48x48 : S48x48x1.ShapeCasts S48x48
  inb_S48x48x48_S48x48x1_0_0_0 : ∀ a, (![0, 0, 0] : Fin 3 → Nat) a + S48x48x1.size a ≤ S48x48x48.size a
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  inb_S48x48x48_S48x48x48_0_0_0 : ∀ a, (![0, 0, 0] : Fin 3 → Nat) a + S48x48x48.size a ≤ S48x48x48.size a
  h_S48x48x48 : 0 < S48x48x48.numel
  shapeCasts_S48x48x48_S48x48x48 : S48x48x48.ShapeCasts S48x48x48
  slices_S48x48x48_o1_0_0_S47x48x48 : S48x48x48.Slices ![1, 0, 0] S47x48x48
  concatenates_S47x48x48_S1x48x48_S48x48x48_d0 : Shape.Concatenates [S47x48x48, S1x48x48] S48x48x48 0
  slices_S48x48x48_o0_0_0_S47x48x48 : S48x48x48.Slices ![0, 0, 0] S47x48x48
  concatenates_S1x48x48_S47x48x48_S48x48x48_d0 : Shape.Concatenates [S1x48x48, S47x48x48] S48x48x48 0
  slices_S48x48x48_o0_1_0_S48x47x48 : S48x48x48.Slices ![0, 1, 0] S48x47x48
  concatenates_S48x47x48_S48x1x48_S48x48x48_d1 : Shape.Concatenates [S48x47x48, S48x1x48] S48x48x48 1
  slices_S48x48x48_o0_0_0_S48x47x48 : S48x48x48.Slices ![0, 0, 0] S48x47x48
  concatenates_S48x1x48_S48x47x48_S48x48x48_d1 : Shape.Concatenates [S48x1x48, S48x47x48] S48x48x48 1
  slices_S48x48x48_o0_0_1_S48x48x47 : S48x48x48.Slices ![0, 0, 1] S48x48x47
  concatenates_S48x48x47_S48x48x1_S48x48x48_d2 : Shape.Concatenates [S48x48x47, S48x48x1] S48x48x48 2
  slices_S48x48x48_o0_0_0_S48x48x47 : S48x48x48.Slices ![0, 0, 0] S48x48x47
  concatenates_S48x48x1_S48x48x47_S48x48x48_d2 : Shape.Concatenates [S48x48x1, S48x48x47] S48x48x48 2
  iota_S48x48x48_d0_w32 : S48x48x48.Iotas .tc 32 [0]
  iota_S48x48x48_d1_w32 : S48x48x48.Iotas .tc 32 [1]
  iota_S48x48x48_d2_w32 : S48x48x48.Iotas .tc 32 [2]
  natLt_1_32 : 1 < 32
  iota_S48x48_d0_w32 : S48x48.Iotas .tc 32 [0]
  iota_S48x48_d1_w32 : S48x48.Iotas .tc 32 [1]
  shapeCasts_S48x48_S48x1x48 : S48x48.ShapeCasts S48x1x48
  broadcasts_S48x1x48_S48x48x48 : S48x1x48.Broadcasts S48x48x48
  shapeCasts_S48x48_S48x48x1 : S48x48.ShapeCasts S48x48x1
  broadcasts_S48x48x1_S48x48x48 : S48x48x1.Broadcasts S48x48x48
  packedbf16_S48x48x48_S48x48x48_0_0_0 : (Rect.unit (s := S48x48x48) ![0, 0, 0] S48x48x48.size inb_S48x48x48_S48x48x48_0_0_0).PackedRows (EltTy.packing .bf16)
  shapeCasts_S1x48x48_S1x48x48 : S1x48x48.ShapeCasts S1x48x48
  shapeCasts_S48x48_S1x48x48 : S48x48.ShapeCasts S1x48x48
  hcc0_scratch6 : 2 + S3.numel ≤ 8
  hcc0_scratch7 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ a, (k0_off1 d0) a + S1x48x48.size a ≤ S48x48x48.size a
  k0_off1_packedbf16 : ∀ d0 : Dev nD, (Rect.unit (s := S48x48x48) (k0_off1 d0) S1x48x48.size (k0_off1_inb d0)).PackedRows (EltTy.packing .bf16)
  hstage0_0 : ∀ j, (stage0_0 j).IsWhole
  hstage0_1 : ∀ j, (stage0_1 j).IsWhole

variable [Facts₀]

abbrev cc0_scratch6 : DmaSems sig S3 := SemArray.consecutive 2 S3 hcc0_scratch6
abbrev cc0_scratch7 : DmaSems sig S3 := SemArray.consecutive 5 S3 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S96x96x96 : Shape := ⟨3, ![96, 96, 96]⟩
abbrev S_ : Shape := ⟨0, ![]⟩
abbrev S94x94x94 : Shape := ⟨3, ![94, 94, 94]⟩
abbrev S1 : Shape := ⟨1, ![1]⟩
abbrev S3 : Shape := ⟨1, ![3]⟩

abbrev nBuf : Space → Nat
  | .hbm => 28
  | .vmem => 0
  | .smem => 0
  | _ => 0

abbrev bufTy : (tb : Table) → Fin (tcTables nBuf tb) → BufTy
  | .hbm, ⟨0, _⟩ => ⟨S96x96x96, .f32⟩
  | .hbm, ⟨1, _⟩ => ⟨S_, .f32⟩
  | .hbm, ⟨2, _⟩ => ⟨S96x96x96, .f32⟩
  | .hbm, ⟨3, _⟩ => ⟨S94x94x94, .f32⟩
  | .hbm, ⟨4, _⟩ => ⟨S94x94x94, .f32⟩
  | .hbm, ⟨5, _⟩ => ⟨S94x94x94, .f32⟩
  | .hbm, ⟨6, _⟩ => ⟨S94x94x94, .f32⟩
  | .hbm, ⟨7, _⟩ => ⟨S94x94x94, .f32⟩
  | .hbm, ⟨8, _⟩ => ⟨S94x94x94, .f32⟩
  | .hbm, ⟨9, _⟩ => ⟨S94x94x94, .f32⟩
  | .hbm, ⟨10, _⟩ => ⟨S94x94x94, .f32⟩
  | .hbm, ⟨11, _⟩ => ⟨S94x94x94, .f32⟩
  | .hbm, ⟨12, _⟩ => ⟨S94x94x94, .f32⟩
  | .hbm, ⟨13, _⟩ => ⟨S94x94x94, .f32⟩
  | .hbm, ⟨14, _⟩ => ⟨S94x94x94, .f32⟩
  | .hbm, ⟨15, _⟩ => ⟨S_, .f32⟩
  | .hbm, ⟨16, _⟩ => ⟨S94x94x94, .f32⟩
  | .hbm, ⟨17, _⟩ => ⟨S94x94x94, .f32⟩
  | .hbm, ⟨18, _⟩ => ⟨S94x94x94, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S96x96x96, .f32⟩
  | .hbm, ⟨27, _⟩ => ⟨S96x96x96, .bf16⟩
  | _, _ => ⟨S96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S_S96x96x96 : S_.BroadcastsInDim S96x96x96 (![] : Fin 0 → Fin S96x96x96.rank)
  slices_S96x96x96_S94x94x94_0_1_1 : S96x96x96.Slices ![0, 1, 1] S94x94x94
  slices_S96x96x96_S94x94x94_2_1_1 : S96x96x96.Slices ![2, 1, 1] S94x94x94
  slices_S96x96x96_S94x94x94_1_0_1 : S96x96x96.Slices ![1, 0, 1] S94x94x94
  slices_S96x96x96_S94x94x94_1_2_1 : S96x96x96.Slices ![1, 2, 1] S94x94x94
  slices_S96x96x96_S94x94x94_1_1_0 : S96x96x96.Slices ![1, 1, 0] S94x94x94
  slices_S96x96x96_S94x94x94_1_1_2 : S96x96x96.Slices ![1, 1, 2] S94x94x94
  slices_S96x96x96_S94x94x94_1_1_1 : S96x96x96.Slices ![1, 1, 1] S94x94x94
  bcast_S_S94x94x94 : S_.BroadcastsInDim S94x94x94 (![] : Fin 0 → Fin S94x94x94.rank)
  bcast_S_S1 : S_.BroadcastsInDim S1 (![] : Fin 0 → Fin S1.rank)
  concatenates_S1_S1_S1_S3_d0 : Shape.Concatenates [S1, S1, S1] S3 0
  bitsLt_bf16_f32 : FTy.bits .bf16 < FTy.bits .f32
  scatter_S96x96x96_S3_S94x94x94_012_n_012_0_wf : ScatterDims.WF S96x96x96 S3 S94x94x94 [0, 1, 2] [] [0, 1, 2] 0

variable [Facts₀]

def scatter_S96x96x96_S3_S94x94x94_012_n_012_0 : ScatterDims S96x96x96 S3 S94x94x94 where
  updateWindowDims := [0, 1, 2]
  insertedWindowDims := []
  scatterDimsToOperandDims := [0, 1, 2]
  indexVectorDim := 0
  wf := scatter_S96x96x96_S3_S94x94x94_012_n_012_0_wf

class Facts : Prop extends Facts₀ where

variable [Facts]
-- ==== Proof.Contents.lean ====
/-
  What each device's buffers hold during the halo exchange, as pure terms of the device's own block `u` of the
  array and of the three planes it receives, at any float instance.

  The eight devices form a 2 x 2 x 2 mesh; a device's neighbour along an axis is the device whose coordinate on
  that axis is the other one (`nbX`, `nbY`, `nbZ`: each its own inverse). Along each axis a device sends the
  plane of its block that faces the neighbour (`faceX`, `faceY`, `faceZ`: the last plane when its coordinate is
  0, the first when it is 1) and receives the neighbour's facing plane. From its block it forms the Laplacian
  with zeros beyond the block's own faces (`core`), adds the received y plane on the facing y plane
  (`withY`) and the received z plane on the facing z plane, zeroes the points on the cube's boundary
  (`out1`), and finally adds the received x plane, itself zeroed on the cube's boundary, to the facing x
  plane (`slabNew`, written back by `outFinal`).
-/
import proofs.«900535_g7700000000000536_dist_halo3d_v7x_xyz2x2x2_s48_bf16_1_alg».proof.Proof.Gen.KernelIdeal.Skeleton
import Idealize.ShloMosaic.Lib.Decide

noncomputable section

namespace Cert.KernelIdeal.Halo

open Cert.KernelIdeal Cert.KernelIdeal.Gen
open Idealize.ShloMosaic Idealize.ShloMosaic.TcCoe Idealize.SL.Sem

variable {F : FTy → Type} [FloatOps F]

/-! ## The mesh -/

/-- The neighbour across the x axis, the y axis, the z axis: as the body computes the addressed device. -/
def nbX (c : Dev nD) : Dev nD := ⟨k0_dev1 c, k0_dev1_lt c⟩
def nbY (c : Dev nD) : Dev nD := ⟨k0_dev2 c, k0_dev2_lt c⟩
def nbZ (c : Dev nD) : Dev nD := ⟨k0_dev3 c, k0_dev3_lt c⟩

theorem nbX_val (c : Dev nD) : (nbX c).val = (2 * ((c.val / 2) % 2) + (c.val % 2) + 4) - 4 * (c.val / 4) := k0_dev1_eq c
theorem nbY_val (c : Dev nD) : (nbY c).val = (4 * (c.val / 4) + (c.val % 2) + 2) - 2 * ((c.val / 2) % 2) := k0_dev2_eq c
theorem nbZ_val (c : Dev nD) : (nbZ c).val = (4 * (c.val / 4) + 2 * ((c.val / 2) % 2) + 1) - (c.val % 2) := k0_dev3_eq c

/-- The three signals and the three transfers address the same three neighbours. -/
theorem dev1_eq (c : Dev nD) : (⟨k0_dev1 c, k0_dev1_lt c⟩ : Dev nD) = nbX c := rfl
theorem dev2_eq (c : Dev nD) : (⟨k0_dev2 c, k0_dev2_lt c⟩ : Dev nD) = nbY c := rfl
theorem dev3_eq (c : Dev nD) : (⟨k0_dev3 c, k0_dev3_lt c⟩ : Dev nD) = nbZ c := rfl
theorem dev4_eq (c : Dev nD) : (⟨k0_dev4 c, k0_dev4_lt c⟩ : Dev nD) = nbX c := Fin.ext ((k0_dev4_eq c).trans (k0_dev1_eq c).symm)
theorem dev5_eq (c : Dev nD) : (⟨k0_dev5 c, k0_dev5_lt c⟩ : Dev nD) = nbY c := Fin.ext ((k0_dev5_eq c).trans (k0_dev2_eq c).symm)
theorem dev6_eq (c : Dev nD) : (⟨k0_dev6 c, k0_dev6_lt c⟩ : Dev nD) = nbZ c := Fin.ext ((k0_dev6_eq c).trans (k0_dev3_eq c).symm)

/-- Each neighbour map is its own inverse, and has no fixed point. -/
theorem nbX_nbX (c : Dev nD) : nbX (nbX c) = c := by
  apply Fin.ext; rw [nbX_val, nbX_val]; have := c.isLt; simp only [nD] at this; omega
theorem nbY_nbY (c : Dev nD) : nbY (nbY c) = c := by
  apply Fin.ext; rw [nbY_val, nbY_val]; have := c.isLt; simp only [nD] at this; omega
theorem nbZ_nbZ (c : Dev nD) : nbZ (nbZ c) = c := by
  apply Fin.ext; rw [nbZ_val, nbZ_val]; have := c.isLt; simp only [nD] at this; omega
theorem nbX_ne (c : Dev nD) : nbX c ≠ c := fun h => by
  have := congrArg Fin.val h; rw [nbX_val] at this; have := c.isLt; simp only [nD] at *; omega
theorem nbY_ne (c : Dev nD) : nbY c ≠ c := fun h => by
  have := congrArg Fin.val h; rw [nbY_val] at this; have := c.isLt; simp only [nD] at *; omega
theorem nbZ_ne (c : Dev nD) : nbZ c ≠ c := fun h => by
  have := congrArg Fin.val h; rw [nbZ_val] at this; have := c.isLt; simp only [nD] at *; omega

/-- A device's coordinate on each mesh axis, as the word the body computes from its device id. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32

/-! ## The buffers -/

abbrev uM : Memref sig .tc .vmem S48x48x48 .f32 := Memref.whole cc0_stg0_0
abbrev oM : Memref sig .tc .vmem S48x48x48 .bf16 := Memref.whole cc0_stg1_0
abbrev sxM : Memref sig .tc .vmem S48x48 .bf16 := Memref.whole cc0_scratch0
abbrev syM : Memref sig .tc .vmem S48x48 .bf16 := Memref.whole cc0_scratch1
abbrev szM : Memref sig .tc .vmem S48x48 .bf16 := Memref.whole cc0_scratch2
abbrev rxM : Memref sig .tc .vmem S48x48 .bf16 := Memref.whole cc0_scratch3
abbrev ryM : Memref sig .tc .vmem S48x48 .bf16 := Memref.whole cc0_scratch4
abbrev rzM : Memref sig .tc .vmem S48x48 .bf16 := Memref.whole cc0_scratch5

/-- A block's contents, a plane's contents. -/
abbrev UBlk (F : FTy → Type) : Type := (cc0_stg0_0 : Ref sig .tc).ty.Contents (Elt F)
abbrev OBlk (F : FTy → Type) : Type := (cc0_stg1_0 : Ref sig .tc).ty.Contents (Elt F)
abbrev Plane (F : FTy → Type) : Type := (cc0_scratch0 : Ref sig .tc).ty.Contents (Elt F)

/-! ## The rectangles the body loads and stores through -/

abbrev rX47 : Rect S48x48x48 := Rect.unit (s := S48x48x48) ![47, 0, 0] S1x48x48.size inb_S48x48x48_S1x48x48_47_0_0
abbrev rX0 : Rect S48x48x48 := Rect.unit (s := S48x48x48) ![0, 0, 0] S1x48x48.size inb_S48x48x48_S1x48x48_0_0_0
abbrev rY47 : Rect S48x48x48 := Rect.unit (s := S48x48x48) ![0, 47, 0] S48x1x48.size inb_S48x48x48_S48x1x48_0_47_0
abbrev rY0 : Rect S48x48x48 := Rect.unit (s := S48x48x48) ![0, 0, 0] S48x1x48.size inb_S48x48x48_S48x1x48_0_0_0
abbrev rZ47 : Rect S48x48x48 := Rect.unit (s := S48x48x48) ![0, 0, 47] S48x48x1.size inb_S48x48x48_S48x48x1_0_0_47
abbrev rZ0 : Rect S48x48x48 := Rect.unit (s := S48x48x48) ![0, 0, 0] S48x48x1.size inb_S48x48x48_S48x48x1_0_0_0
abbrev rAll : Rect S48x48x48 := Rect.unit (s := S48x48x48) ![0, 0, 0] S48x48x48.size inb_S48x48x48_S48x48x48_0_0_0
abbrev rPl : Rect S48x48 := Rect.unit (s := S48x48) ![0, 0] S48x48.size inb_S48x48_S48x48_0_0
/-- The x plane facing the neighbour: plane 47 on a device whose x coordinate is 0, plane 0 otherwise. -/
abbrev rOff (c : Dev nD) : Rect S48x48x48 := Rect.unit (s := S48x48x48) (k0_off1 c) S1x48x48.size (k0_off1_inb c)

/-! ## What is sent -/

/-- The plane of the block `u` that faces the x neighbour, the y neighbour, the z neighbour. -/
def faceX (c : Dev nD) (u : UBlk F) : Plane F :=
  k0_pay1 (wx c) 0#32 (uM.view.readAt (Elt F) rX47.toLoadRect u) (uM.view.readAt (Elt F) rX0.toLoadRect u)
def faceY (c : Dev nD) (u : UBlk F) : Plane F :=
  k0_pay2 (wy c) (uM.view.readAt (Elt F) rY47.toLoadRect u) (uM.view.readAt (Elt F) rY0.toLoadRect u)
def faceZ (c : Dev nD) (u : UBlk F) : Plane F :=
  k0_pay3 (wz c) (uM.view.readAt (Elt F) rZ47.toLoadRect u) (uM.view.readAt (Elt F) rZ0.toLoadRect u)

/-! ## What is computed -/

/-- The Laplacian of the block alone: neighbours beyond the block's own faces count as zero. -/
def core (u : UBlk F) : FVec F S48x48x48 .bf16 := k0_pay5 (k0_pay4 u) (Scalar.ofBits .bf16 0x0000#16)

/-- `core` with the received y plane `ry` added on the y plane that faces the neighbour. -/
def withY (c : Dev nD) (u : UBlk F) (ry : Plane F) : FVec F S48x48x48 .bf16 := k0_pay13 (core u) (k0_pay6 (wy c)) ry

/-- The points of the block that lie on the boundary of the whole cube. -/
def onBoundary (c : Dev nD) : IVec S48x48x48 1 :=
  k0_pay10 (wx c) (wy c) (wz c) (iota .tc S48x48x48 32 [0] iota_S48x48x48_d0_w32) (iota .tc S48x48x48 32 [1] iota_S48x48x48_d1_w32)
    (iota .tc S48x48x48 32 [2] iota_S48x48x48_d2_w32) k0_pay8 (k0_pay9 (wx c))

/-- The first version of the result: y and z planes added, the cube's boundary zeroed. -/
def out1 (c : Dev nD) (u : UBlk F) (ry rz : Plane F) : OBlk F :=
  k0_pay14 (k0_pay7 (wz c)) (onBoundary c) (withY c u ry) rz

/-- The points of an x plane that are NOT on the cube's y or z boundary. -/
def offEdge (c : Dev nD) : IVec S48x48 1 :=
  k0_pay12 (wz c) (iota .tc S48x48 32 [1] iota_S48x48_d1_w32) (k0_pay11 (wy c)) (Scalar.cmpi .eq (wz c) 0#32)

/-- The facing x plane after the received x plane `rx` is added to it. -/
def slabNew (c : Dev nD) (u : UBlk F) (rx ry rz : Plane F) : FVec F S1x48x48 .bf16 :=
  k0_pay15 (offEdge c) rx (oM.view.readAt (Elt F) (rOff c).toLoadRect (out1 c u ry rz))

/-- The result block on device `c`. -/
def outFinal (c : Dev nD) (u : UBlk F) (rx ry rz : Plane F) : OBlk F :=
  ((oM.access (rOff c) : View sig .tc _ _ _)).write (Elt F) (out1 c u ry rz) (slabNew c u rx ry rz) Finset.univ

end Cert.KernelIdeal.Halo

end
-- ==== Proof.Cells.lean ====
/-
  The halo exchange's protocol: which semaphore cells there are, what each round of each hands its owner, and the
  contents that travel.

  Every device has seven cells. Its BARRIER cell is paid one unit by each of its three neighbours (duty `a` by the
  neighbour across axis `a`), and the neighbour's unit brings the neighbour's receive buffer for that axis — the
  permission to copy into it — together with the fact that the neighbour's receive cell is at its first round. Its three
  SEND cells are each paid by its own copy and give back the plane sent. Its three RECEIVE cells are each paid by the
  neighbour's copy and give the receive buffer holding the neighbour's facing plane. Every cell has exactly one round.
-/
import proofs.«900535_g7700000000000536_dist_halo3d_v7x_xyz2x2x2_s48_bf16_1_alg».proof.Proof.Contents
import proofs.«900535_g7700000000000536_dist_halo3d_v7x_xyz2x2x2_s48_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by an axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The semaphores and cells -/

abbrev barS : Sem sig := (SemArray.scalar (sig.barrier 0 rfl) : Sems sig S_).sem
abbrev sSx : DmaSem sig := ((cc0_scratch6.slice (Rect.unit (s := S3) ![0] S1.size inb_S3_S1_0)).squeeze S_ squeezes_S1_S_ : DmaSems sig S_).sem
abbrev sSy : DmaSem sig := ((cc0_scratch6.slice (Rect.unit (s := S3) ![1] S1.size inb_S3_S1_1)).squeeze S_ squeezes_S1_S_ : DmaSems sig S_).sem
abbrev sSz : DmaSem sig := ((cc0_scratch6.slice (Rect.unit (s := S3) ![2] S1.size inb_S3_S1_2)).squeeze S_ squeezes_S1_S_ : DmaSems sig S_).sem
abbrev rSx : DmaSem sig := ((cc0_scratch7.slice (Rect.unit (s := S3) ![0] S1.size inb_S3_S1_0)).squeeze S_ squeezes_S1_S_ : DmaSems sig S_).sem
abbrev rSy : DmaSem sig := ((cc0_scratch7.slice (Rect.unit (s := S3) ![1] S1.size inb_S3_S1_1)).squeeze S_ squeezes_S1_S_ : DmaSems sig S_).sem
abbrev rSz : DmaSem sig := ((cc0_scratch7.slice (Rect.unit (s := S3) ![2] S1.size inb_S3_S1_2)).squeeze S_ squeezes_S1_S_ : DmaSems sig S_).sem

theorem sSx_val : sSx = (2 : DmaSem sig) := by decide
theorem sSy_val : sSy = (3 : DmaSem sig) := by decide
theorem sSz_val : sSz = (4 : DmaSem sig) := by decide
theorem rSx_val : rSx = (5 : DmaSem sig) := by decide
theorem rSy_val : rSy = (6 : DmaSem sig) := by decide
theorem rSz_val : rSz = (7 : DmaSem sig) := by decide

abbrev barCell (c : Dev nD) : GSem nD τ sig := ((c : Thread nD τ), .reg barS)
abbrev sxCell (c : Dev nD) : GSem nD τ sig := ((c : Thread nD τ), .dma sSx)
abbrev syCell (c : Dev nD) : GSem nD τ sig := ((c : Thread nD τ), .dma sSy)
abbrev szCell (c : Dev nD) : GSem nD τ sig := ((c : Thread nD τ), .dma sSz)
abbrev rxCell (c : Dev nD) : GSem nD τ sig := ((c : Thread nD τ), .dma rSx)
abbrev ryCell (c : Dev nD) : GSem nD τ sig := ((c : Thread nD τ), .dma rSy)
abbrev rzCell (c : Dev nD) : GSem nD τ sig := ((c : Thread nD τ), .dma rSz)

/-- The credit one plane's copy brings. -/
abbrev N : ℕ := (rxM : Memref sig .tc .vmem S48x48 .bf16).view.dmaCredit
theorem N_pos : 0 < N := View.dmaCredit_pos _ (by decide)

/-! ## Contents -/

/-- Device `c`'s block of the array, as staged. -/
def ublk (c : Dev nD) : UBlk F := (win0_0.blk (0 : Fin 1)).view.read (Elt F) (m ((c : Thread nD τ).loc main_arg0))

/-- What device `c` sends along each axis, and what lands in its receive buffers: the neighbour's facing plane. -/
def sentX (c : Dev nD) : Plane F := faceX c (ublk m c)
def sentY (c : Dev nD) : Plane F := faceY c (ublk m c)
def sentZ (c : Dev nD) : Plane F := faceZ c (ublk m c)
def landX (c : Dev nD) : Plane F := sentX m (nbX c)
def landY (c : Dev nD) : Plane F := sentY m (nbY c)
def landZ (c : Dev nD) : Plane F := sentZ m (nbZ c)

/-- The result block on device `c`. -/
def outAt (c : Dev nD) : OBlk F := outFinal c (ublk m c) (landX m c) (landY m c) (landZ m c)

/-! ## Buffers as assertions -/

section Pts
variable (c : Dev nD)

omit [FloatOps F] in
/-- A whole plane buffer held at full share, spelt through the location. -/
abbrev held (b : Ref sig .tc) (X : b.ty.Contents (Elt F)) : sProp 𝕄 := (((c : Thread nD τ).loc b) ↦{fullShare} X)

end Pts

/-! ## The schedule -/

/-- What the neighbour across axis `d` hands device `c` with its barrier unit: ITS receive buffer for that axis, with
    whatever it holds, and that its receive cell for that axis is at its first round. -/
def barPay (c : Dev nD) (d : Fin 3) : sProp 𝕄 :=
  if d = 0 then iprop((∃ f, held (F := F) (nbX c) cc0_scratch3 f) ∗ reached ER (rxCell (nbX c)) 0)
  else if d = 1 then iprop((∃ f, held (F := F) (nbY c) cc0_scratch4 f) ∗ reached ER (ryCell (nbY c)) 0)
  else iprop((∃ f, held (F := F) (nbZ c) cc0_scratch5 f) ∗ reached ER (rzCell (nbZ c)) 0)

abbrev IsBar (g : GSem nD τ sig) : Prop := g.1.2 = .tc ∧ g.2 = .reg barS
abbrev IsXfer (g : GSem nD τ sig) : Prop :=
  g.1.2 = .tc ∧ (g.2 = .dma sSx ∨ g.2 = .dma sSy ∨ g.2 = .dma sSz ∨ g.2 = .dma rSx ∨ g.2 = .dma rSy ∨ g.2 = .dma rSz)

/-- One round for every cell: a barrier cell has the three duties of one unit each; a send or receive cell the one
    duty `0` of a plane's credit. -/
def haloRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma rSx then held g.1.1 cc0_scratch3 (landX m g.1.1)
    else if g.2 = .dma rSy then held g.1.1 cc0_scratch4 (landY m g.1.1)
    else if g.2 = .dma rSz then held g.1.1 cc0_scratch5 (landZ m g.1.1)
    else if g.2 = .dma sSx then held g.1.1 cc0_scratch0 (sentX m g.1.1)
    else if g.2 = .dma sSy then held g.1.1 cc0_scratch1 (sentY m g.1.1)
    else if g.2 = .dma sSz then held g.1.1 cc0_scratch2 (sentZ m g.1.1)
    else iprop(emp)
  amount_pos g _ _ _ := by
    by_cases h : g.2 = .reg barS
    · rw [if_pos h]; exact Nat.one_pos
    · rw [if_neg h]; exact N_pos

instance barPay_storable (c : Dev nD) (d : Fin 3) : BI.Storable (upEmb : UEmb _ 𝕄) (barPay (F := F) c d) := by
  unfold barPay; (repeat' split) <;> infer_instance

instance haloRd_payload_storable (g : GSem nD τ sig) (r : ℕ) (d : Fin 3) :
    BI.Storable (upEmb : UEmb _ 𝕄) ((haloRd (F := F) m).payload g r d) := by
  show BI.Storable upEmb (if g.2 = .reg barS then barPay g.1.1 d
    else if g.2 = .dma rSx then held g.1.1 cc0_scratch3 (landX m g.1.1)
    else if g.2 = .dma rSy then held g.1.1 cc0_scratch4 (landY m g.1.1)
    else if g.2 = .dma rSz then held g.1.1 cc0_scratch5 (landZ m g.1.1)
    else if g.2 = .dma sSx then held g.1.1 cc0_scratch0 (sentX m g.1.1)
    else if g.2 = .dma sSy then held g.1.1 cc0_scratch1 (sentY m g.1.1)
    else if g.2 = .dma sSz then held g.1.1 cc0_scratch2 (sentZ m g.1.1)
    else iprop(emp))
  (repeat' split) <;> infer_instance

/-! ## The schedule's tables -/

section Sched
variable (c : Dev nD)

theorem dma_ne_bar (q : DmaSem sig) : (SemLoc.dma q : SemLoc sig) ≠ .reg barS := fun h => by cases h
theorem not_bar_dma (q : DmaSem sig) : ¬ IsBar (((c : Thread nD τ), SemLoc.dma q) : GSem nD τ sig) := fun h => dma_ne_bar q h.2

theorem duties_bar : (haloRd (F := F) m).duties (barCell c) 0 = Finset.univ := by dsimp only [haloRd]; exact if_pos ⟨rfl, rfl, rfl⟩
theorem duties_sx : (haloRd (F := F) m).duties (sxCell c) 0 = {0} := by
  dsimp only [haloRd]; rw [if_neg (fun h => not_bar_dma c _ h.2)]; exact if_pos ⟨rfl, rfl, .inl rfl⟩
theorem duties_sy : (haloRd (F := F) m).duties (syCell c) 0 = {0} := by
  dsimp only [haloRd]; rw [if_neg (fun h => not_bar_dma c _ h.2)]; exact if_pos ⟨rfl, rfl, .inr (.inl rfl)⟩
theorem duties_sz : (haloRd (F := F) m).duties (szCell c) 0 = {0} := by
  dsimp only [haloRd]; rw [if_neg (fun h => not_bar_dma c _ h.2)]; exact if_pos ⟨rfl, rfl, .inr (.inr (.inl rfl))⟩
theorem duties_rx : (haloRd (F := F) m).duties (rxCell c) 0 = {0} := by
  dsimp only [haloRd]; rw [if_neg (fun h => not_bar_dma c _ h.2)]; exact if_pos ⟨rfl, rfl, .inr (.inr (.inr (.inl rfl)))⟩
theorem duties_ry : (haloRd (F := F) m).duties (ryCell c) 0 = {0} := by
  dsimp only [haloRd]; rw [if_neg (fun h => not_bar_dma c _ h.2)]; exact if_pos ⟨rfl, rfl, .inr (.inr (.inr (.inr (.inl rfl))))⟩
theorem duties_rz : (haloRd (F := F) m).duties (rzCell c) 0 = {0} := by
  dsimp only [haloRd]; rw [if_neg (fun h => not_bar_dma c _ h.2)]; exact if_pos ⟨rfl, rfl, .inr (.inr (.inr (.inr (.inr rfl))))⟩
theorem duties_later (g : GSem nD τ sig) : ∀ r, 1 ≤ r → (haloRd (F := F) m).duties g r = ∅ :=
  fun r hr => by dsimp only [haloRd]; rw [if_neg fun h => by omega, if_neg fun h => by omega]

theorem amount_bar (d : Fin 3) : (haloRd (F := F) m).amount (barCell c) 0 d = 1 := by dsimp only [haloRd]; exact if_pos rfl
theorem amount_dma (q : DmaSem sig) (d : Fin 3) : (haloRd (F := F) m).amount (((c : Thread nD τ), SemLoc.dma q) : GSem nD τ sig) 0 d = N := by
  dsimp only [haloRd]; exact if_neg (dma_ne_bar q)

theorem expect_bar : (haloRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_sx : (haloRd (F := F) m).expect (sxCell c) 0 = N := by
  unfold Schedule.expect Schedule.amountOf; rw [duties_sx, Finset.sum_singleton, amount_dma]
theorem expect_sy : (haloRd (F := F) m).expect (syCell c) 0 = N := by
  unfold Schedule.expect Schedule.amountOf; rw [duties_sy, Finset.sum_singleton, amount_dma]
theorem expect_sz : (haloRd (F := F) m).expect (szCell c) 0 = N := by
  unfold Schedule.expect Schedule.amountOf; rw [duties_sz, Finset.sum_singleton, amount_dma]
theorem expect_rx : (haloRd (F := F) m).expect (rxCell c) 0 = N := by
  unfold Schedule.expect Schedule.amountOf; rw [duties_rx, Finset.sum_singleton, amount_dma]
theorem expect_ry : (haloRd (F := F) m).expect (ryCell c) 0 = N := by
  unfold Schedule.expect Schedule.amountOf; rw [duties_ry, Finset.sum_singleton, amount_dma]
theorem expect_rz : (haloRd (F := F) m).expect (rzCell c) 0 = N := by
  unfold Schedule.expect Schedule.amountOf; rw [duties_rz, Finset.sum_singleton, amount_dma]

theorem payload_bar (d : Fin 3) : (haloRd (F := F) m).payload (barCell c) 0 d = barPay c d := by dsimp only [haloRd]; rw [if_pos rfl]
theorem payload_bar0 : (haloRd (F := F) m).payload (barCell c) 0 0
    = iprop((∃ f, (((nbX c : Thread nD τ).loc cc0_scratch3) ↦{fullShare} f)) ∗ reached ER (rxCell (nbX c)) 0) := by
  rw [payload_bar]; unfold barPay; rw [if_pos rfl]
theorem payload_bar1 : (haloRd (F := F) m).payload (barCell c) 0 1
    = iprop((∃ f, (((nbY c : Thread nD τ).loc cc0_scratch4) ↦{fullShare} f)) ∗ reached ER (ryCell (nbY c)) 0) := by
  rw [payload_bar]; unfold barPay; rw [if_neg (by decide), if_pos rfl]
theorem payload_bar2 : (haloRd (F := F) m).payload (barCell c) 0 2
    = iprop((∃ f, (((nbZ c : Thread nD τ).loc cc0_scratch5) ↦{fullShare} f)) ∗ reached ER (rzCell (nbZ c)) 0) := by
  rw [payload_bar]; unfold barPay; rw [if_neg (by decide), if_neg (by decide)]
theorem payload_rx (d : Fin 3) : (haloRd (F := F) m).payload (rxCell c) 0 d = (((c : Thread nD τ).loc cc0_scratch3) ↦{fullShare} landX m c) := by
  dsimp only [haloRd]; rw [if_neg (dma_ne_bar _), if_pos rfl]
theorem payload_ry (d : Fin 3) : (haloRd (F := F) m).payload (ryCell c) 0 d = (((c : Thread nD τ).loc cc0_scratch4) ↦{fullShare} landY m c) := by
  dsimp only [haloRd]; rw [if_neg (dma_ne_bar _), if_neg (by decide), if_pos rfl]
theorem payload_rz (d : Fin 3) : (haloRd (F := F) m).payload (rzCell c) 0 d = (((c : Thread nD τ).loc cc0_scratch5) ↦{fullShare} landZ m c) := by
  dsimp only [haloRd]; rw [if_neg (dma_ne_bar _), if_neg (by decide), if_neg (by decide), if_pos rfl]
theorem payload_sx (d : Fin 3) : (haloRd (F := F) m).payload (sxCell c) 0 d = (((c : Thread nD τ).loc cc0_scratch0) ↦{fullShare} sentX m c) := by
  dsimp only [haloRd]; rw [if_neg (dma_ne_bar _), if_neg (by decide), if_neg (by decide), if_neg (by decide), if_pos rfl]
theorem payload_sy (d : Fin 3) : (haloRd (F := F) m).payload (syCell c) 0 d = (((c : Thread nD τ).loc cc0_scratch1) ↦{fullShare} sentY m c) := by
  dsimp only [haloRd]; rw [if_neg (dma_ne_bar _), if_neg (by decide), if_neg (by decide), if_neg (by decide), if_neg (by decide), if_pos rfl]
theorem payload_sz (d : Fin 3) : (haloRd (F := F) m).payload (szCell c) 0 d = (((c : Thread nD τ).loc cc0_scratch2) ↦{fullShare} sentZ m c) := by
  dsimp only [haloRd]; rw [if_neg (dma_ne_bar _), if_neg (by decide), if_neg (by decide), if_neg (by decide), if_neg (by decide), if_neg (by decide), if_pos rfl]

/-- The whole of the barrier cell's round, no duty taken: the three neighbours' receive buffers. -/
theorem rest_bar : bigSep ((haloRd (F := F) m).duties (barCell c) 0 \ ∅) (fun d => (haloRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_sx : bigSep ((haloRd (F := F) m).duties (sxCell c) 0 \ ∅) (fun d => (haloRd (F := F) m).payload (sxCell c) 0 d)
    = (((c : Thread nD τ).loc cc0_scratch0) ↦{fullShare} sentX m c) := by rw [Finset.sdiff_empty, duties_sx, bigSep_singleton, payload_sx]
theorem rest_sy : bigSep ((haloRd (F := F) m).duties (syCell c) 0 \ ∅) (fun d => (haloRd (F := F) m).payload (syCell c) 0 d)
    = (((c : Thread nD τ).loc cc0_scratch1) ↦{fullShare} sentY m c) := by rw [Finset.sdiff_empty, duties_sy, bigSep_singleton, payload_sy]
theorem rest_sz : bigSep ((haloRd (F := F) m).duties (szCell c) 0 \ ∅) (fun d => (haloRd (F := F) m).payload (szCell c) 0 d)
    = (((c : Thread nD τ).loc cc0_scratch2) ↦{fullShare} sentZ m c) := by rw [Finset.sdiff_empty, duties_sz, bigSep_singleton, payload_sz]
theorem rest_rx : bigSep ((haloRd (F := F) m).duties (rxCell c) 0 \ ∅) (fun d => (haloRd (F := F) m).payload (rxCell c) 0 d)
    = (((c : Thread nD τ).loc cc0_scratch3) ↦{fullShare} landX m c) := by rw [Finset.sdiff_empty, duties_rx, bigSep_singleton, payload_rx]
theorem rest_ry : bigSep ((haloRd (F := F) m).duties (ryCell c) 0 \ ∅) (fun d => (haloRd (F := F) m).payload (ryCell c) 0 d)
    = (((c : Thread nD τ).loc cc0_scratch4) ↦{fullShare} landY m c) := by rw [Finset.sdiff_empty, duties_ry, bigSep_singleton, payload_ry]
theorem rest_rz : bigSep ((haloRd (F := F) m).duties (rzCell c) 0 \ ∅) (fun d => (haloRd (F := F) m).payload (rzCell c) 0 d)
    = (((c : Thread nD τ).loc cc0_scratch5) ↦{fullShare} landZ m c) := by rw [Finset.sdiff_empty, duties_rz, bigSep_singleton, payload_rz]

end Sched

end Cert.KernelIdeal.Halo

end
-- ==== Proof.Owing.lean ====
/-
  What each device owes the others when the exchange starts, and why no wait can deadlock.

  A device owes each neighbour one barrier unit and one plane's credit on the neighbour's receive cell. Cells are
  ranked: barrier cells at level 1, receive cells at level 2, everything else (the staging transfers, the send
  cells) at level 0. A wait is allowed when everything the waiter still owes is ranked strictly above the cell it waits
  on: at its barrier wait a device owes only the three receive credits (level 2 above level 1); at every other wait of
  the exchange it owes nothing; the staging waits (level 0) lie below all six debts.
-/
import proofs.«900535_g7700000000000536_dist_halo3d_v7x_xyz2x2x2_s48_bf16_1_alg».proof.Proof.Cells

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The three receive credits device `c` owes its neighbours. -/
def Orecv (c : Dev nD) : CellTallies nD τ sig Unit :=
  tallyAt (rxCell (nbX c)) () N + tallyAt (ryCell (nbY c)) () N + tallyAt (rzCell (nbZ c)) () N
/-- Everything device `c` owes at launch: those, and one barrier unit to each neighbour. -/
def O₀ (c : Dev nD) : CellTallies nD τ sig Unit :=
  Orecv c + tallyAt (barCell (nbZ c)) () 1 + tallyAt (barCell (nbY c)) () 1 + tallyAt (barCell (nbX c)) () 1

def L (g : GSem nD τ sig) : Finset Unit := if g.1.2 = .tc then {()} else ∅
/-- barrier cells at 1, receive cells at 2, everything else at 0. -/
def lv (g : GSem nD τ sig) (_ : Unit) : ℕ :=
  if g.2 = .reg barS then 1 else if g.2 = .dma rSx ∨ g.2 = .dma rSy ∨ g.2 = .dma rSz then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rx (c : Dev nD) (u : Unit) : lv (rxCell c) u = 2 := by dsimp only [lv]; rw [if_neg (dma_ne_bar _), if_pos (.inl rfl)]
theorem lv_ry (c : Dev nD) (u : Unit) : lv (ryCell c) u = 2 := by dsimp only [lv]; rw [if_neg (dma_ne_bar _), if_pos (.inr (.inl rfl))]
theorem lv_rz (c : Dev nD) (u : Unit) : lv (rzCell c) u = 2 := by dsimp only [lv]; rw [if_neg (dma_ne_bar _), if_pos (.inr (.inr rfl))]

theorem Orecv_pos {c : Dev nD} {g : GSem nD τ sig} {u : Unit} (h : 0 < Orecv c g u) :
    g = rxCell (nbX c) ∨ g = ryCell (nbY c) ∨ g = rzCell (nbZ c) := by
  unfold Orecv at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (g = rxCell (nbX c) ∨ g = ryCell (nbY c) ∨ g = rzCell (nbZ c)) ∨ g = barCell (nbZ c) ∨ g = barCell (nbY c) ∨ g = barCell (nbX c) := by
  unfold O₀ at h
  rw [Pi.add_apply, Finsupp.add_apply, Pi.add_apply, Finsupp.add_apply, Pi.add_apply, Finsupp.add_apply, tallyAt_apply, tallyAt_apply, tallyAt_apply] at h
  by_contra hn
  obtain ⟨hA, hn⟩ := not_or.mp hn
  obtain ⟨hZ, hn⟩ := not_or.mp hn
  obtain ⟨hY, hX⟩ := not_or.mp hn
  rw [if_neg (fun h' => hZ h'.1), if_neg (fun h' => hY h'.1), if_neg (fun h' => hX h'.1)] at h
  simp only [Nat.add_zero] at h
  exact hA (Orecv_pos h)

/-- Every cell device `c` owes lies strictly above level 0. -/
theorem lv_pos_of_owed {c : Dev nD} {g : GSem nD τ sig} {u : Unit} (h : 0 < O₀ c g u) : 0 < lv g u := by
  rcases O₀_pos h with (rfl | rfl | rfl) | rfl | rfl | rfl
  · rw [lv_rx]; decide
  · rw [lv_ry]; decide
  · rw [lv_rz]; decide
  · rw [lv_bar]; decide
  · rw [lv_bar]; decide
  · rw [lv_bar]; decide

omit [FloatOps F] in
/-- A wait on a DMA cell that is no receive cell (a staging transfer's, a send cell's), owing everything or nothing. -/
theorem mayWait_low (c : Dev nD) (q : DmaSem sig) (hq : ¬ (SemLoc.dma q = .dma rSx ∨ SemLoc.dma q = .dma rSy ∨ SemLoc.dma q = .dma rSz))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with (rfl | rfl | rfl) | rfl | rfl | rfl <;> exact Finset.mem_singleton_self _)
      (fun p hp => by rw [Finset.mem_singleton.mp hp]; dsimp only [lv]; rw [if_neg (fun h => by cases h), if_neg hq])
      (fun g u hg => lv_pos_of_owed hg)
  · rw [MayWait_zero]; iintro -; iempintro

omit [FloatOps F] in
/-- At its barrier wait a device owes the three receive credits only: receive cells, above its barrier cell. -/
theorem mayWait_bar (c : Dev nD) :
    (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by
      rcases Orecv_pos hg with rfl | rfl | rfl <;> exact Finset.mem_singleton_self _)
    (fun p hp => by rw [Finset.mem_singleton.mp hp]; dsimp only [lv]; rw [if_pos rfl])
    (fun g u hg => by
      rcases Orecv_pos hg with rfl | rfl | rfl
      · rw [lv_rx]; decide
      · rw [lv_ry]; decide
      · rw [lv_rz]; decide)

end Cert.KernelIdeal.Halo

end
-- ==== Proof.Data.lean ====
/-
  The proof data of the one region: what each device's staging buffers hold after the body, the ghost state a device's
  body starts from, and the invariant before and after the one grid point.

  Before the point a device holds: the invariants of the cells it touches (its own seven, its three neighbours' barrier
  cells, and the one receive cell of each neighbour that its own copy pays); its positions at the first round of its
  own cells; the duty tokens it pays with (one barrier duty and one receive duty per neighbour, its own three send
  duties); the credit its own barrier and receive cells will receive; and its six plane buffers with whatever they
  hold. After the point it holds the six plane buffers again and its six transfer semaphores back at zero.
-/
import proofs.«900535_g7700000000000536_dist_halo3d_v7x_xyz2x2x2_s48_bf16_1_alg».proof.Proof.Owing

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed -/

/-- A device's seven cells: barrier; send x, y, z; receive x, y, z. -/
abbrev csem : Fin 7 → SemLoc sig := ![.reg barS, .dma sSx, .dma sSy, .dma sSz, .dma rSx, .dma rSy, .dma rSz]
abbrev kcell (ck : Dev nD × Fin 7) : GSem nD τ sig := ((ck.1 : Thread nD τ), csem ck.2)
/-- The kernel's OWN (scoped) semaphores, as the launch indexes them: the six transfer semaphores. -/
abbrev osem : Fin 6 → SemLoc sig := ![.dma sSx, .dma sSy, .dma sSz, .dma rSx, .dma rSy, .dma rSz]

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The ghost state -/

/-- The cells' invariants device `c`'s body opens, under the names `K` the launch allocated them at. -/
def invs (K : Dev nD × Fin 7 → ℕ) (c : Dev nD) : sProp 𝕄 :=
  iprop(cellInv ER (haloRd m) (K (c, 0)) (barCell c)
    ∗ cellInv ER (haloRd m) (K (c, 1)) (sxCell c) ∗ cellInv ER (haloRd m) (K (c, 2)) (syCell c) ∗ cellInv ER (haloRd m) (K (c, 3)) (szCell c)
    ∗ cellInv ER (haloRd m) (K (c, 4)) (rxCell c) ∗ cellInv ER (haloRd m) (K (c, 5)) (ryCell c) ∗ cellInv ER (haloRd m) (K (c, 6)) (rzCell c)
    ∗ cellInv ER (haloRd m) (K (nbX c, 0)) (barCell (nbX c)) ∗ cellInv ER (haloRd m) (K (nbY c, 0)) (barCell (nbY c)) ∗ cellInv ER (haloRd m) (K (nbZ c, 0)) (barCell (nbZ c))
    ∗ cellInv ER (haloRd m) (K (nbX c, 4)) (rxCell (nbX c)) ∗ cellInv ER (haloRd m) (K (nbY c, 5)) (ryCell (nbY c)) ∗ cellInv ER (haloRd m) (K (nbZ c, 6)) (rzCell (nbZ c)))

instance invs_persistent (K : Dev nD × Fin 7 → ℕ) (c : Dev nD) : BI.Persistent (invs m K c) := by unfold invs; infer_instance

/-- Device `c`'s positions at the first round of its own seven cells. -/
def positions (c : Dev nD) : sProp 𝕄 :=
  iprop(atPos ER (barCell c) 0 ∅ 0
    ∗ atPos ER (sxCell c) 0 ∅ 0 ∗ atPos ER (syCell c) 0 ∅ 0 ∗ atPos ER (szCell c) 0 ∅ 0
    ∗ atPos ER (rxCell c) 0 ∅ 0 ∗ atPos ER (ryCell c) 0 ∅ 0 ∗ atPos ER (rzCell c) 0 ∅ 0)

/-- The first round reached, of every cell device `c` pays or hands a fact about. -/
def marks (c : Dev nD) : sProp 𝕄 :=
  iprop(reached ER (barCell (nbX c)) 0 ∗ reached ER (barCell (nbY c)) 0 ∗ reached ER (barCell (nbZ c)) 0
    ∗ reached ER (rxCell (nbX c)) 0 ∗ reached ER (ryCell (nbY c)) 0 ∗ reached ER (rzCell (nbZ c)) 0
    ∗ reached ER (sxCell c) 0 ∗ reached ER (syCell c) 0 ∗ reached ER (szCell c) 0
    ∗ reached ER (rxCell c) 0 ∗ reached ER (ryCell c) 0 ∗ reached ER (rzCell c) 0)

instance marks_persistent (c : Dev nD) : BI.Persistent (marks (F := F) c) := by unfold marks; infer_instance

/-- The tokens of the duties device `c` pays: on each neighbour's barrier cell the duty named by their shared axis, on
    each neighbour's receive cell for that axis its one duty, on its own three send cells their one duty. -/
def payToks (c : Dev nD) : sProp 𝕄 :=
  iprop(dutyTok ER (barCell (nbX c)) 0 0 ∗ dutyTok ER (barCell (nbY c)) 0 1 ∗ dutyTok ER (barCell (nbZ c)) 0 2
    ∗ dutyTok ER (rxCell (nbX c)) 0 0 ∗ dutyTok ER (ryCell (nbY c)) 0 0 ∗ dutyTok ER (rzCell (nbZ c)) 0 0
    ∗ dutyTok ER (sxCell c) 0 0 ∗ dutyTok ER (syCell c) 0 0 ∗ dutyTok ER (szCell c) 0 0)

def ghost (K : Dev nD × Fin 7 → ℕ) (c : Dev nD) : sProp 𝕄 :=
  iprop(invs m K c ∗ positions c ∗ marks c ∗ payToks c)

/-- The credit that will arrive on device `c`'s barrier cell (three units) and on its three receive cells. -/
def credits (c : Dev nD) : sProp 𝕄 :=
  iprop(cred (tallyAt (barCell c) () 3) ∗ cred (tallyAt (rxCell c) () N) ∗ cred (tallyAt (ryCell c) () N) ∗ cred (tallyAt (rzCell c) () N))

/-- What device `c`'s body starts from, the plane buffers apart. -/
def start (c : Dev nD) : sProp 𝕄 :=
  iprop((∃ K, ghost m K c) ∗ credits c ∗ levAts L lv)

/-- The six plane buffers, each with whatever it holds. -/
def planes (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- The device's six transfer semaphores, each back at zero. -/
def zeros (c : Dev nD) : sProp 𝕄 :=
  iprop(semVal (sxCell c) 0 ∗ semVal (syCell c) 0 ∗ semVal (szCell c) 0 ∗ semVal (rxCell c) 0 ∗ semVal (ryCell c) 0 ∗ semVal (rzCell c) 0)

def Φ₀ (c : Dev nD) : sProp 𝕄 := iprop(start m c ∗ planes c)
def Φ₁ (c : Dev nD) : sProp 𝕄 := iprop(planes c ∗ zeros c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ublk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A whole buffer held at contents `X`, as the pipeline states a staging buffer. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body on device `c` starts from, with the ghost names `K` fixed. -/
def bodyPre (K : Dev nD × Fin 7 → ℕ) (c : Dev nD) : sProp 𝕄 :=
  iprop((ghost m K c ∗ credits c ∗ levAts L lv ∗ planes c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ c ∗ (dats m ρ 0 c).owesAt () t₀.succ ∗ stg c cc0_stg0_0 (ublk m c) ∗ stg c cc0_stg1_0 (outAt m c))

end Cert.KernelIdeal.Halo

end
-- ==== Proof.Body.lean ====
/-
  One device's body of the halo exchange, stepped from the ghost state of `Data.lean` to its post.

  In program order the device: pays one barrier unit to each neighbour, each unit carrying its own receive buffer for
  the shared axis; stores the three planes it will send; waits for its own three barrier units, which bring the three
  neighbours' receive buffers; starts the three copies, each paying the device's own send cell (the plane comes back
  at the wait) and the neighbour's receive cell (whose owner gets the buffer holding this device's plane); computes the
  first version of its result from its block and the y and z planes it waits for; and finally waits for the x plane and
  adds it to the facing x plane. A send buffer after its one store through the whole rectangle holds exactly the plane
  sent, and the result buffer after its two stores holds `outFinal`: those are the two equations about contents the
  run needs, stated below before it. At the end the six transfer cells are past their one round and close, giving
  their counters back at zero.
-/
import proofs.«900535_g7700000000000536_dist_halo3d_v7x_xyz2x2x2_s48_bf16_1_alg».proof.Proof.Data
import proofs.«900535_g7700000000000536_dist_halo3d_v7x_xyz2x2x2_s48_bf16_1_alg».proof.Proof.Gen.KernelIdeal.Points
import Idealize.ShloMosaic.Lib.Pipeline.FrameBody
import Idealize.ShloMosaic.Lib.Pipeline.Value

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device hands each neighbour with its barrier unit, with the neighbour's neighbour resolved -/

theorem payload_bar0_at (c c' : Dev nD) (h : nbX c = c') : (haloRd (F := F) m).payload (barCell c) 0 0
    = iprop((∃ f, (((c' : Thread nD τ).loc cc0_scratch3) ↦{fullShare} f)) ∗ reached ER (rxCell c') 0) := by subst h; exact payload_bar0 m c
theorem payload_bar1_at (c c' : Dev nD) (h : nbY c = c') : (haloRd (F := F) m).payload (barCell c) 0 1
    = iprop((∃ f, (((c' : Thread nD τ).loc cc0_scratch4) ↦{fullShare} f)) ∗ reached ER (ryCell c') 0) := by subst h; exact payload_bar1 m c
theorem payload_bar2_at (c c' : Dev nD) (h : nbZ c = c') : (haloRd (F := F) m).payload (barCell c) 0 2
    = iprop((∃ f, (((c' : Thread nD τ).loc cc0_scratch5) ↦{fullShare} f)) ∗ reached ER (rzCell c') 0) := by subst h; exact payload_bar2 m c

/-- The unit device `c` pays on its x neighbour's barrier cell brings `c`'s own x receive buffer; and so on. -/
theorem payload_toX (c : Dev nD) : (haloRd (F := F) m).payload (barCell (nbX c)) 0 0
    = iprop((∃ f, (((c : Thread nD τ).loc cc0_scratch3) ↦{fullShare} f)) ∗ reached ER (rxCell c) 0) := payload_bar0_at m (nbX c) c (nbX_nbX c)
theorem payload_toY (c : Dev nD) : (haloRd (F := F) m).payload (barCell (nbY c)) 0 1
    = iprop((∃ f, (((c : Thread nD τ).loc cc0_scratch4) ↦{fullShare} f)) ∗ reached ER (ryCell c) 0) := payload_bar1_at m (nbY c) c (nbY_nbY c)
theorem payload_toZ (c : Dev nD) : (haloRd (F := F) m).payload (barCell (nbZ c)) 0 2
    = iprop((∃ f, (((c : Thread nD τ).loc cc0_scratch5) ↦{fullShare} f)) ∗ reached ER (rzCell c) 0) := payload_bar2_at m (nbZ c) c (nbZ_nbZ c)

/-- A whole buffer held at full share, spelt through its view and through its location. -/
theorem held_view (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  rw [View.set_whole]

/-! ## The schedule's payloads with each buffer spelt through its view -/

abbrev vheld (c : Dev nD) (b : Ref sig .tc) (f : Buf (Elt F) ((c : Thread nD τ).loc b)) : sProp 𝕄 :=
  ((Memref.whole b).view.loc (c : Thread nD τ) ↦[(Memref.whole b).view.set]{fullShare} f)

theorem vpayload_toX (c : Dev nD) : (haloRd (F := F) m).payload (barCell (nbX c)) 0 0
    = iprop((∃ f, ((Memref.whole cc0_scratch3).view.loc (c : Thread nD τ) ↦[(Memref.whole cc0_scratch3).view.set]{fullShare} f)) ∗ reached ER (rxCell c) 0) := by rw [payload_toX]; simp only [View.set_whole]
theorem vpayload_toY (c : Dev nD) : (haloRd (F := F) m).payload (barCell (nbY c)) 0 1
    = iprop((∃ f, ((Memref.whole cc0_scratch4).view.loc (c : Thread nD τ) ↦[(Memref.whole cc0_scratch4).view.set]{fullShare} f)) ∗ reached ER (ryCell c) 0) := by rw [payload_toY]; simp only [View.set_whole]
theorem vpayload_toZ (c : Dev nD) : (haloRd (F := F) m).payload (barCell (nbZ c)) 0 2
    = iprop((∃ f, ((Memref.whole cc0_scratch5).view.loc (c : Thread nD τ) ↦[(Memref.whole cc0_scratch5).view.set]{fullShare} f)) ∗ reached ER (rzCell c) 0) := by rw [payload_toZ]; simp only [View.set_whole]

/-- A device's own barrier round: each neighbour's receive buffer for the shared axis. -/
theorem vpayload_bar0 (c : Dev nD) : (haloRd (F := F) m).payload (barCell c) 0 0
    = iprop((∃ f, ((Memref.whole cc0_scratch3).view.loc (nbX c : Thread nD τ) ↦[(Memref.whole cc0_scratch3).view.set]{fullShare} f)) ∗ reached ER (rxCell (nbX c)) 0) := by rw [payload_bar0]; simp only [View.set_whole]
theorem vpayload_bar1 (c : Dev nD) : (haloRd (F := F) m).payload (barCell c) 0 1
    = iprop((∃ f, ((Memref.whole cc0_scratch4).view.loc (nbY c : Thread nD τ) ↦[(Memref.whole cc0_scratch4).view.set]{fullShare} f)) ∗ reached ER (ryCell (nbY c)) 0) := by rw [payload_bar1]; simp only [View.set_whole]
theorem vpayload_bar2 (c : Dev nD) : (haloRd (F := F) m).payload (barCell c) 0 2
    = iprop((∃ f, ((Memref.whole cc0_scratch5).view.loc (nbZ c : Thread nD τ) ↦[(Memref.whole cc0_scratch5).view.set]{fullShare} f)) ∗ reached ER (rzCell (nbZ c)) 0) := by rw [payload_bar2]; simp only [View.set_whole]

/-- A send cell gives the plane back; a device's own receive cell gives the neighbour's plane. -/
theorem vpayload_sx (c : Dev nD) (d : Fin 3) : (haloRd (F := F) m).payload (sxCell c) 0 d = ((Memref.whole cc0_scratch0).view.loc (c : Thread nD τ) ↦[(Memref.whole cc0_scratch0).view.set]{fullShare} sentX m c) := by rw [payload_sx]; simp only [View.set_whole]
theorem vpayload_sy (c : Dev nD) (d : Fin 3) : (haloRd (F := F) m).payload (syCell c) 0 d = ((Memref.whole cc0_scratch1).view.loc (c : Thread nD τ) ↦[(Memref.whole cc0_scratch1).view.set]{fullShare} sentY m c) := by rw [payload_sy]; simp only [View.set_whole]
theorem vpayload_sz (c : Dev nD) (d : Fin 3) : (haloRd (F := F) m).payload (szCell c) 0 d = ((Memref.whole cc0_scratch2).view.loc (c : Thread nD τ) ↦[(Memref.whole cc0_scratch2).view.set]{fullShare} sentZ m c) := by rw [payload_sz]; simp only [View.set_whole]
theorem vpayload_rx (c : Dev nD) (d : Fin 3) : (haloRd (F := F) m).payload (rxCell c) 0 d = ((Memref.whole cc0_scratch3).view.loc (c : Thread nD τ) ↦[(Memref.whole cc0_scratch3).view.set]{fullShare} landX m c) := by rw [payload_rx]; simp only [View.set_whole]
theorem vpayload_ry (c : Dev nD) (d : Fin 3) : (haloRd (F := F) m).payload (ryCell c) 0 d = ((Memref.whole cc0_scratch4).view.loc (c : Thread nD τ) ↦[(Memref.whole cc0_scratch4).view.set]{fullShare} landY m c) := by rw [payload_ry]; simp only [View.set_whole]
theorem vpayload_rz (c : Dev nD) (d : Fin 3) : (haloRd (F := F) m).payload (rzCell c) 0 d = ((Memref.whole cc0_scratch5).view.loc (c : Thread nD τ) ↦[(Memref.whole cc0_scratch5).view.set]{fullShare} landZ m c) := by rw [payload_rz]; simp only [View.set_whole]

/-- What lands in a neighbour's receive buffer is the plane this device sends. -/
theorem landX_nb (c : Dev nD) : landX m (nbX c) = sentX m c := by unfold landX; rw [nbX_nbX]
theorem landY_nb (c : Dev nD) : landY m (nbY c) = sentY m c := by unfold landY; rw [nbY_nbY]
theorem landZ_nb (c : Dev nD) : landZ m (nbZ c) = sentZ m c := by unfold landZ; rw [nbZ_nbZ]
theorem vpayload_rx_to (c : Dev nD) (d : Fin 3) : (haloRd (F := F) m).payload (rxCell (nbX c)) 0 d = ((Memref.whole cc0_scratch3).view.loc (nbX c : Thread nD τ) ↦[(Memref.whole cc0_scratch3).view.set]{fullShare} sentX m c) := by rw [vpayload_rx, landX_nb]
theorem vpayload_ry_to (c : Dev nD) (d : Fin 3) : (haloRd (F := F) m).payload (ryCell (nbY c)) 0 d = ((Memref.whole cc0_scratch4).view.loc (nbY c : Thread nD τ) ↦[(Memref.whole cc0_scratch4).view.set]{fullShare} sentY m c) := by rw [vpayload_ry, landY_nb]
theorem vpayload_rz_to (c : Dev nD) (d : Fin 3) : (haloRd (F := F) m).payload (rzCell (nbZ c)) 0 d = ((Memref.whole cc0_scratch5).view.loc (nbZ c : Thread nD τ) ↦[(Memref.whole cc0_scratch5).view.set]{fullShare} sentZ m c) := by rw [vpayload_rz, landZ_nb]

/-- The barrier cell's three duties, listed. -/
theorem duties_bar_list (c : Dev nD) : (haloRd (F := F) m).duties (barCell c) 0 = {0, 1, 2} := by rw [duties_bar]; decide

omit [FloatOps F] in
/-- A chain of three, in the notation the proof mode destructs. -/
theorem sep3_eq (A B C : sProp 𝕄) : (BI.sep A (BI.sep B C) : sProp 𝕄) = iprop(A ∗ B ∗ C) := rfl

/-! ## One store through the whole rectangle leaves its payload; what a copy carries -/

theorem hzPl : (![0, 0] : Fin 2 → Nat) = fun _ => 0 := funext fun a => by fin_cases a <;> rfl

theorem writes_s0 (f : Plane F) (w : Plane F) : (Memref.whole cc0_scratch0 : Memref sig .tc .vmem S48x48 .bf16).view.writes (Elt F) f [⟨rPl, w⟩] = w := by
  have h := View.read_writes_eq_canon (Val := Elt F) (Memref.whole cc0_scratch0 : Memref sig .tc .vmem S48x48 .bf16).view f [⟨rPl, w⟩]
    (fun y => ⟨_, List.mem_singleton_self _, View.mem_set_unit_zero hzPl inb_S48x48_S48x48_0_0 y⟩)
  exact h.trans (View.canon_unit_zero (S := S48x48) hzPl inb_S48x48_S48x48_0_0 w)
theorem writes_s1 (f : Plane F) (w : Plane F) : (Memref.whole cc0_scratch1 : Memref sig .tc .vmem S48x48 .bf16).view.writes (Elt F) f [⟨rPl, w⟩] = w := by
  have h := View.read_writes_eq_canon (Val := Elt F) (Memref.whole cc0_scratch1 : Memref sig .tc .vmem S48x48 .bf16).view f [⟨rPl, w⟩]
    (fun y => ⟨_, List.mem_singleton_self _, View.mem_set_unit_zero hzPl inb_S48x48_S48x48_0_0 y⟩)
  exact h.trans (View.canon_unit_zero (S := S48x48) hzPl inb_S48x48_S48x48_0_0 w)
theorem writes_s2 (f : Plane F) (w : Plane F) : (Memref.whole cc0_scratch2 : Memref sig .tc .vmem S48x48 .bf16).view.writes (Elt F) f [⟨rPl, w⟩] = w := by
  have h := View.read_writes_eq_canon (Val := Elt F) (Memref.whole cc0_scratch2 : Memref sig .tc .vmem S48x48 .bf16).view f [⟨rPl, w⟩]
    (fun y => ⟨_, List.mem_singleton_self _, View.mem_set_unit_zero hzPl inb_S48x48_S48x48_0_0 y⟩)
  exact h.trans (View.canon_unit_zero (S := S48x48) hzPl inb_S48x48_S48x48_0_0 w)

/-- A send buffer after its one store holds the plane it sends. -/
theorem restate_s0 (c : Dev nD) (f w : Plane F) (hw : w = sentX m c) :
    (((Memref.whole cc0_scratch0 : Memref sig .tc .vmem S48x48 .bf16).view.loc (c : Thread nD τ) ↦[(Memref.whole cc0_scratch0 : Memref sig .tc .vmem S48x48 .bf16).view.set]{fullShare} (Memref.whole cc0_scratch0 : Memref sig .tc .vmem S48x48 .bf16).view.writes (Elt F) f [⟨rPl, w⟩] : sProp 𝕄))
      ⊢ ((Memref.whole cc0_scratch0 : Memref sig .tc .vmem S48x48 .bf16).view.loc (c : Thread nD τ) ↦[(Memref.whole cc0_scratch0 : Memref sig .tc .vmem S48x48 .bf16).view.set]{fullShare} sentX m c) := by subst hw; rw [writes_s0]
theorem restate_s1 (c : Dev nD) (f w : Plane F) (hw : w = sentY m c) :
    (((Memref.whole cc0_scratch1 : Memref sig .tc .vmem S48x48 .bf16).view.loc (c : Thread nD τ) ↦[(Memref.whole cc0_scratch1 : Memref sig .tc .vmem S48x48 .bf16).view.set]{fullShare} (Memref.whole cc0_scratch1 : Memref sig .tc .vmem S48x48 .bf16).view.writes (Elt F) f [⟨rPl, w⟩] : sProp 𝕄))
      ⊢ ((Memref.whole cc0_scratch1 : Memref sig .tc .vmem S48x48 .bf16).view.loc (c : Thread nD τ) ↦[(Memref.whole cc0_scratch1 : Memref sig .tc .vmem S48x48 .bf16).view.set]{fullShare} sentY m c) := by subst hw; rw [writes_s1]
theorem restate_s2 (c : Dev nD) (f w : Plane F) (hw : w = sentZ m c) :
    (((Memref.whole cc0_scratch2 : Memref sig .tc .vmem S48x48 .bf16).view.loc (c : Thread nD τ) ↦[(Memref.whole cc0_scratch2 : Memref sig .tc .vmem S48x48 .bf16).view.set]{fullShare} (Memref.whole cc0_scratch2 : Memref sig .tc .vmem S48x48 .bf16).view.writes (Elt F) f [⟨rPl, w⟩] : sProp 𝕄))
      ⊢ ((Memref.whole cc0_scratch2 : Memref sig .tc .vmem S48x48 .bf16).view.loc (c : Thread nD τ) ↦[(Memref.whole cc0_scratch2 : Memref sig .tc .vmem S48x48 .bf16).view.set]{fullShare} sentZ m c) := by subst hw; rw [writes_s2]

/-! ## What the result buffer holds after the body's two stores -/

theorem hz3 : (![0, 0, 0] : Fin 3 → Nat) = fun _ => 0 := funext fun a => by fin_cases a <;> rfl

/-- The result buffer after one store of `w` through its whole rectangle holds `w`. -/
theorem writes_out (f : OBlk F) (w : OBlk F) : (oM : Memref sig .tc .vmem S48x48x48 .bf16).view.writes (Elt F) f [⟨rAll, w⟩] = w := by
  have h := View.read_writes_eq_canon (Val := Elt F) (oM : Memref sig .tc .vmem S48x48x48 .bf16).view f [⟨rAll, w⟩]
    (fun y => ⟨_, List.mem_singleton_self _, View.mem_set_unit_zero hz3 inb_S48x48x48_S48x48x48_0_0_0 y⟩)
  exact h.trans (View.canon_unit_zero (S := S48x48x48) hz3 inb_S48x48x48_S48x48x48_0_0_0 w)

/-- The body's two stores into the result buffer — the first version whole, then the facing x plane rewritten from what
    is read back — leave `outFinal`: the loads through whole rectangles read the buffers' contents. -/
theorem out_contents_eq (c : Dev nD) (u : UBlk F) (rx ry rz : Plane F) (f : OBlk F) :
    (oM : Memref sig .tc .vmem S48x48x48 .bf16).view.writes (Elt F) f
      [⟨rOff c, k0_pay15 (offEdge c) (rxM.view.readAt (Elt F) rPl.toLoadRect rx)
          (oM.view.readAt (Elt F) (rOff c).toLoadRect ((oM : Memref sig .tc .vmem S48x48x48 .bf16).view.writes (Elt F) f
            [⟨rAll, k0_pay14 (k0_pay7 (wz c)) (onBoundary c)
              (k0_pay13 (k0_pay5 (k0_pay4 (uM.view.readAt (Elt F) rAll.toLoadRect u)) (FloatOps.ofBits .bf16 0#16)) (k0_pay6 (wy c))
                (ryM.view.readAt (Elt F) rPl.toLoadRect ry))
              (rzM.view.readAt (Elt F) rPl.toLoadRect rz)⟩]))⟩,
       ⟨rAll, k0_pay14 (k0_pay7 (wz c)) (onBoundary c)
          (k0_pay13 (k0_pay5 (k0_pay4 (uM.view.readAt (Elt F) rAll.toLoadRect u)) (FloatOps.ofBits .bf16 0#16)) (k0_pay6 (wy c))
            (ryM.view.readAt (Elt F) rPl.toLoadRect ry))
          (rzM.view.readAt (Elt F) rPl.toLoadRect rz)⟩]
      = outFinal c u rx ry rz := by
  have hu : uM.view.readAt (Elt F) rAll.toLoadRect u = u := Memref.readAt_unit_zero (Elt F) cc0_stg0_0 hz3 inb_S48x48x48_S48x48x48_0_0_0 u
  have hrx : rxM.view.readAt (Elt F) rPl.toLoadRect rx = rx := Memref.readAt_unit_zero (Elt F) cc0_scratch3 hzPl inb_S48x48_S48x48_0_0 rx
  have hry : ryM.view.readAt (Elt F) rPl.toLoadRect ry = ry := Memref.readAt_unit_zero (Elt F) cc0_scratch4 hzPl inb_S48x48_S48x48_0_0 ry
  have hrz : rzM.view.readAt (Elt F) rPl.toLoadRect rz = rz := Memref.readAt_unit_zero (Elt F) cc0_scratch5 hzPl inb_S48x48_S48x48_0_0 rz
  rw [hu, hrx, hry, hrz, View.writes_cons, writes_out]
  rfl

section Body

variable (K : Dev nD × Fin 7 → ℕ)

attribute [local sl_rounds] duties_bar_list duties_sx duties_sy duties_sz duties_rx duties_ry duties_rz amount_bar amount_dma
  expect_bar expect_sx expect_sy expect_sz expect_rx expect_ry expect_rz
  vpayload_bar0 vpayload_bar1 vpayload_bar2 vpayload_rx vpayload_ry vpayload_rz vpayload_sx vpayload_sy vpayload_sz

attribute [local sl_rounds 2000] vpayload_toX vpayload_toY vpayload_toZ vpayload_rx_to vpayload_ry_to vpayload_rz_to

attribute [local sl_canon] dev1_eq dev2_eq dev3_eq dev4_eq dev5_eq dev6_eq
attribute [local irreducible] nbX nbY nbZ

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _) cc0_scratch6 cc0_scratch7) Kt := by
  unfold bodyPre ghost invs positions marks payToks credits planes
  iintro ⟨⟨⟨⟨⟨#HIbar, #HIsx, #HIsy, #HIsz, #HIrx, #HIry, #HIrz, #HIbX, #HIbY, #HIbZ, #HIrX, #HIrY, #HIrZ⟩,
      ⟨HaB, HaSx, HaSy, HaSz, HaRx, HaRy, HaRz⟩,
      ⟨#HrBX, #HrBY, #HrBZ, #HrRX, #HrRY, #HrRZ, #HrSx, #HrSy, #HrSz, #HrRx, #HrRy, #HrRz⟩,
      ⟨HtBX, HtBY, HtBZ, HtRX, HtRY, HtRZ, HtSx, HtSy, HtSz⟩⟩,
      ⟨HcB, HcRx, HcRy, HcRz⟩, #Hlev,
      ⟨⟨%f0, Hs0⟩, ⟨%f1, Hs1⟩, ⟨%f2, Hs2⟩, ⟨%f3, Hr3⟩, ⟨%f4, Hr4⟩, ⟨%f5, Hr5⟩⟩⟩,
    Ho, ⟨%d0, %g0, %hg0, Hx⟩, ⟨%d1, %g1, %hg1, Hout⟩⟩, Hk⟩
  have hx : g0 = ublk m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  unfold O₀ Orecv
  ihave Bs0 := (Entails.of_eq (held_view c cc0_scratch0 f0).symm) $$ Hs0
  ihave Bs1 := (Entails.of_eq (held_view c cc0_scratch1 f1).symm) $$ Hs1
  ihave Bs2 := (Entails.of_eq (held_view c cc0_scratch2 f2).symm) $$ Hs2
  ihave Br3 := (Entails.of_eq (held_view c cc0_scratch3 f3).symm) $$ Hr3
  ihave Br4 := (Entails.of_eq (held_view c cc0_scratch4 f4).symm) $$ Hr4
  ihave Br5 := (Entails.of_eq (held_view c cc0_scratch5 f5).symm) $$ Hr5
  ihave Bx := (Entails.of_eq (held_view c cc0_stg0_0 (ublk m c)).symm) $$ Hx
  ihave Bout := (Entails.of_eq (held_view c cc0_stg1_0 g1).symm) $$ Hout
  have hmwBar : (levAts L lv : sProp 𝕄) ⊢ MayWait (c : Thread nD τ) (.reg barS) ()
      (tallyAt (rxCell (nbX c)) () N + tallyAt (ryCell (nbY c)) () N + tallyAt (rzCell (nbZ c)) () N) := mayWait_bar (F := F) c
  sl_unfold [cc0_body]
  sl_exec (disch := simp only [dev4_eq, dev5_eq, dev6_eq])
  ihave Hnb := (Entails.of_eq (sep3_eq _ _ _)) $$ HaB_pay1
  icases Hnb with ⟨⟨⟨%fX, HdX⟩, #HrX'⟩, ⟨⟨%fY, HdY⟩, #HrY'⟩, ⟨%fZ, HdZ⟩, #HrZ'⟩
  ihave Cs0 := (restate_s0 m c f0 (k0_pay1 (sound_body.sl.v2 c) 0#32 (uM.view.readAt (Elt F) rX47.toLoadRect (ublk m c)) (uM.view.readAt (Elt F) rX0.toLoadRect (ublk m c))) rfl) $$ Bs0
  ihave Cs1 := (restate_s1 m c f1 (k0_pay2 (sound_body.sl.v5 c) (uM.view.readAt (Elt F) rY47.toLoadRect (ublk m c)) (uM.view.readAt (Elt F) rY0.toLoadRect (ublk m c))) rfl) $$ Bs1
  ihave Cs2 := (restate_s2 m c f2 (k0_pay3 (sound_body.sl.v8 c) (uM.view.readAt (Elt F) rZ47.toLoadRect (ublk m c)) (uM.view.readAt (Elt F) rZ0.toLoadRect (ublk m c))) rfl) $$ Bs2
  sl_exec (disch := simp only [dev4_eq, dev5_eq, dev6_eq])
  -- the six transfer cells close: their counters at zero are the device's again
  imod (Rounds.cell_close ER (haloRd m) (Set.mem_univ (K (c, 1))) (fun h => h) (R := 0 + 1) (duties_later m (sxCell c))) $$ [HaSx] with HzSx
  · isplitr; · iexact HIsx
    iexact HaSx
  imod (Rounds.cell_close ER (haloRd m) (Set.mem_univ (K (c, 2))) (fun h => h) (R := 0 + 1) (duties_later m (syCell c))) $$ [HaSy] with HzSy
  · isplitr; · iexact HIsy
    iexact HaSy
  imod (Rounds.cell_close ER (haloRd m) (Set.mem_univ (K (c, 3))) (fun h => h) (R := 0 + 1) (duties_later m (szCell c))) $$ [HaSz] with HzSz
  · isplitr; · iexact HIsz
    iexact HaSz
  imod (Rounds.cell_close ER (haloRd m) (Set.mem_univ (K (c, 4))) (fun h => h) (R := 0 + 1) (duties_later m (rxCell c))) $$ [HaRx] with HzRx
  · isplitr; · iexact HIrx
    iexact HaRx
  imod (Rounds.cell_close ER (haloRd m) (Set.mem_univ (K (c, 5))) (fun h => h) (R := 0 + 1) (duties_later m (ryCell c))) $$ [HaRy] with HzRy
  · isplitr; · iexact HIry
    iexact HaRy
  imod (Rounds.cell_close ER (haloRd m) (Set.mem_univ (K (c, 6))) (fun h => h) (R := 0 + 1) (duties_later m (rzCell c))) $$ [HaRz] with HzRz
  · isplitr; · iexact HIrz
    iexact HaRz
  -- the buffers, spelt through their locations again
  ihave P0 := (Entails.of_eq (held_view c cc0_scratch0 (sentX m c))) $$ HaSx_pay1
  ihave P1 := (Entails.of_eq (held_view c cc0_scratch1 (sentY m c))) $$ HaSy_pay1
  ihave P2 := (Entails.of_eq (held_view c cc0_scratch2 (sentZ m c))) $$ HaSz_pay1
  ihave P3 := (Entails.of_eq (held_view c cc0_scratch3 (landX m c))) $$ HaRx_pay1
  ihave P4 := (Entails.of_eq (held_view c cc0_scratch4 (landY m c))) $$ HaRy_pay1
  ihave P5 := (Entails.of_eq (held_view c cc0_scratch5 (landZ m c))) $$ HaRz_pay1
  ihave Px := (Entails.of_eq (held_view c cc0_stg0_0 (ublk m c))) $$ Bx
  ihave Po := (Entails.of_eq (held_view c cc0_stg1_0 _)) $$ Bout
  rw [wp_ret]; imodintro
  iapply Hk
  unfold bodyPost Φ₁ planes zeros Dat.owesAt Pipeline.owesWithin
  rw [show (dats m ρ 0 c).owed t₀.succ = 0 from rfl]
  isplitl [P0 P1 P2 P3 P4 P5 HzSx HzSy HzSz HzRx HzRy HzRz]
  · isplitl [P0 P1 P2 P3 P4 P5]
    · isplitl [P0]; · iexists _; iexact P0
      isplitl [P1]; · iexists _; iexact P1
      isplitl [P2]; · iexists _; iexact P2
      isplitl [P3]; · iexists _; iexact P3
      isplitl [P4]; · iexists _; iexact P4
      iexists _; iexact P5
    · isplitl [HzSx]; · iexact HzSx
      isplitl [HzSy]; · iexact HzSy
      isplitl [HzSz]; · iexact HzSz
      isplitl [HzRx]; · iexact HzRx
      isplitl [HzRy]; · iexact HzRy
      iexact HzRz
  isplitl [HO]
  · iexists _
    isplitr
    rotate_left
    · iexact HO
    · ipureintro; exact fun _ _ => Or.inl trivial
  isplitl [Px]
  · iexists _; isplitr; · (ipureintro; rfl)
    iexact Px
  iexists _
  isplitr
  rotate_left
  · iexact Po
  · ipureintro
    exact out_contents_eq c (ublk m c) (landX m c) (landY m c) (landZ m c) _

omit [FloatOps F] in
/-- A whole staging buffer as the pipeline states it, opened. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the one point, before the ghost names are opened. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _) cc0_scratch6 cc0_scratch7)
    (fun _ => bodyPost m ρ c)
  unfold bodyPre' Φ₀ start
  iintro ⟨⟨⟨⟨%K, Hg⟩, Hcr, Hlev⟩, Hpl⟩, Ho, Hx, Hout⟩
  iapply (sound_body m ρ K c fun _ => bodyPost m ρ c)
  unfold bodyPre
  isplitr []
  · isplitl [Hg Hcr Hlev Hpl]
    · isplitl [Hg]; · iexact Hg
      isplitl [Hcr]; · iexact Hcr
      isplitl [Hlev]; · iexact Hlev
      iexact Hpl
    isplitl [Ho]; · iexact Ho
    isplitl [Hx] <;> iassumption
  · iintro H; iexact H

/-- info: 'Cert.KernelIdeal.Halo.body_obligation' depends on axioms: [propext, Classical.choice, Quot.sound] -/
#guard_msgs in #print axioms body_obligation

end Body

end Cert.KernelIdeal.Halo

end
-- ==== Proof.Launch.lean ====
/-
  The launch of the halo exchange on the mesh of eight devices: from the proof of one device's body to the run of the
  whole program, and the final contents of the arrays.

  The launch element pays for every cell's ghost state: per device its seven cells at round 0, its positions, and the
  duty tokens of its own cells. One update, taken over all devices at once because a barrier cell is touched by four
  devices, allocates the cells' invariants from the semaphore counters at zero; the duty tokens then travel to the
  devices that pay them: the token of a barrier cell's duty `a`, and the token of the receive cell of axis `a`, go to
  the neighbour across axis `a` (each neighbour map is an involution of the mesh, so this is a reindexing of the
  product over the devices). The credit dealt at launch is, per device, three units on its barrier cell (one from each
  neighbour) and a plane's credit on each receive cell (from the neighbour across that axis).
-/
import proofs.«900535_g7700000000000536_dist_halo3d_v7x_xyz2x2x2_s48_bf16_1_alg».proof.Proof.Body
import proofs.«900535_g7700000000000536_dist_halo3d_v7x_xyz2x2x2_s48_bf16_1_alg».proof.Proof.Gen.KernelIdeal.Points

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens, enumerated -/

theorem csem_injective : Function.Injective csem := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every cell of the exchange: seven a device. -/
def haloCells : Finset (GSem nD τ sig) := Finset.univ.map ⟨kcell, kcell_injective⟩

/-- A device's nine duty tokens: which of its cells (the barrier cell three times, then the receive cells, then the send
    cells) and which duty. -/
abbrev tcell : Fin 9 → Fin 7 := ![0, 0, 0, 4, 5, 6, 1, 2, 3]
abbrev tduty : Fin 9 → Fin 3 := ![0, 1, 2, 0, 0, 0, 0, 0, 0]
abbrev tokOf (cj : Dev nD × Fin 9) : GSem nD τ sig × ℕ × Fin 3 := (kcell (cj.1, tcell cj.2), 0, tduty cj.2)

theorem tokOf_injective : Function.Injective (tokOf : Dev nD × Fin 9 → GSem nD τ sig × ℕ × Fin 3) := by
  rintro ⟨c, j⟩ ⟨c', j'⟩ h
  have h1 : (c, tcell j) = (c', tcell j') := kcell_injective (congrArg (fun x : GSem nD τ sig × ℕ × Fin 3 => x.1) h)
  have h2 : tduty j = tduty j' := congrArg (fun x : GSem nD τ sig × ℕ × Fin 3 => x.2.2) h
  have hc : c = c' := (Prod.mk.inj h1).1
  have hk : tcell j = tcell j' := (Prod.mk.inj h1).2
  subst hc
  have key : ∀ a b : Fin 9, tcell a = tcell b → tduty a = tduty b → a = b := by decide
  have : j = j' := key j j' hk h2
  subst this; rfl

def haloToks : Finset (GSem nD τ sig × ℕ × Fin 3) := Finset.univ.map ⟨tokOf, tokOf_injective⟩

/-- The launch element: the pipeline's cells and tokens, and the exchange's. -/
def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (rxCell c) 0 0 ∗ dutyTok ER (ryCell c) 0 0 ∗ dutyTok ER (rzCell c) 0 0
    ∗ dutyTok ER (sxCell c) 0 0 ∗ dutyTok ER (syCell c) 0 0 ∗ dutyTok ER (szCell c) 0 0)

/-- What the launch element deals device `c`. -/
def G (c : Dev nD) : sProp 𝕄 :=
  iprop((bigSep Finset.univ fun k : Fin 7 => roundState ER (haloRd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants, allocated from the counters at zero -/

omit [FloatOps F] in
/-- The six transfer semaphores are the kernel's own; -/
theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold zeros
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The regrouping: every device gets the invariants it opens and the tokens it pays with -/

/-- All the invariants, under the names `K` they were allocated at, and every cell's first round reached. -/
def records (K : Dev nD × Fin 7 → ℕ) : sProp 𝕄 :=
  iprop((bigSep Finset.univ fun ck : Dev nD × Fin 7 => cellInv ER (haloRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem invs_intro (K : Dev nD × Fin 7 → ℕ) (c : Dev nD) : records m K ⊢ invs m K c := by
  unfold records invs
  iintro ⟨#HI, -⟩
  isplitr; · iapply (inv_at m K (c, 0)); iexact HI
  isplitr; · iapply (inv_at m K (c, 1)); iexact HI
  isplitr; · iapply (inv_at m K (c, 2)); iexact HI
  isplitr; · iapply (inv_at m K (c, 3)); iexact HI
  isplitr; · iapply (inv_at m K (c, 4)); iexact HI
  isplitr; · iapply (inv_at m K (c, 5)); iexact HI
  isplitr; · iapply (inv_at m K (c, 6)); iexact HI
  isplitr; · iapply (inv_at m K (nbX c, 0)); iexact HI
  isplitr; · iapply (inv_at m K (nbY c, 0)); iexact HI
  isplitr; · iapply (inv_at m K (nbZ c, 0)); iexact HI
  isplitr; · iapply (inv_at m K (nbX c, 4)); iexact HI
  isplitr; · iapply (inv_at m K (nbY c, 5)); iexact HI
  iapply (inv_at m K (nbZ c, 6)); iexact HI

theorem marks_intro (K : Dev nD × Fin 7 → ℕ) (c : Dev nD) : records m K ⊢ marks c := by
  unfold records marks
  iintro ⟨-, #HR⟩
  isplitr; · iapply (reached_at (F := F) (nbX c, 0)); iexact HR
  isplitr; · iapply (reached_at (F := F) (nbY c, 0)); iexact HR
  isplitr; · iapply (reached_at (F := F) (nbZ c, 0)); iexact HR
  isplitr; · iapply (reached_at (F := F) (nbX c, 4)); iexact HR
  isplitr; · iapply (reached_at (F := F) (nbY c, 5)); iexact HR
  isplitr; · iapply (reached_at (F := F) (nbZ c, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  iapply (reached_at (F := F) (c, 6)); iexact HR

/-- What stays with device `c`: its positions, and the tokens of the duties IT pays. -/
def linear (c : Dev nD) : sProp 𝕄 := iprop(positions c ∗ payToks c)

theorem ghost_intro (K : Dev nD × Fin 7 → ℕ) (c : Dev nD) : iprop(records m K ∗ linear c) ⊢ G' m c := by
  unfold linear G' ghost
  iintro ⟨#HR, Hpos, Htok⟩
  iexists K
  isplitr; · iapply (invs_intro m K c); iexact HR
  isplitl [Hpos]; · iexact Hpos
  isplitr; · iapply (marks_intro m K c); iexact HR
  iexact Htok

/-- The three neighbour maps as permutations of the mesh. -/
def eX : Dev nD ≃ Dev nD := ⟨nbX, nbX, nbX_nbX, nbX_nbX⟩
def eY : Dev nD ≃ Dev nD := ⟨nbY, nbY, nbY_nbY, nbY_nbY⟩
def eZ : Dev nD ≃ Dev nD := ⟨nbZ, nbZ, nbZ_nbZ, nbZ_nbZ⟩

omit [FloatOps F] in
/-- The tokens dealt across the mesh: a barrier cell's token of duty `a`, and the token of the receive cell of axis `a`,
    to the neighbour across axis `a`; the send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv eX (fun c : Dev nD => (dutyTok ER (barCell c) 0 0 : sProp 𝕄)),
    bigSep_univ_equiv eY (fun c : Dev nD => (dutyTok ER (barCell c) 0 1 : sProp 𝕄)),
    bigSep_univ_equiv eZ (fun c : Dev nD => (dutyTok ER (barCell c) 0 2 : sProp 𝕄)),
    bigSep_univ_equiv eX (fun c : Dev nD => (dutyTok ER (rxCell c) 0 0 : sProp 𝕄)),
    bigSep_univ_equiv eY (fun c : Dev nD => (dutyTok ER (ryCell c) 0 0 : sProp 𝕄)),
    bigSep_univ_equiv eZ (fun c : Dev nD => (dutyTok ER (rzCell c) 0 0 : sProp 𝕄))]
  iintro H; iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (haloRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear positions; rw [bigSep_fin7] <;> rfl)))
    isplitl [Hat]; · iexact Hat
    iexact Htk

/-- The global step: the own AND the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at launch, summand by summand. -/
theorem O₀_eq : (O₀ : Dev nD → CellTallies nD τ sig Unit) = fun d =>
    tallyAt (rxCell (nbX d)) () N + tallyAt (ryCell (nbY d)) () N + tallyAt (rzCell (nbZ d)) () N
      + tallyAt (barCell (nbZ d)) () 1 + tallyAt (barCell (nbY d)) () 1 + tallyAt (barCell (nbX d)) () 1 := rfl

omit [FloatOps F] in
/-- Each neighbour map being an involution, the unit (or the plane's credit) every device owes its neighbour across an
    axis arrives, at launch, as that much credit on the device's own cell: three units on its barrier cell, a plane's
    credit on each receive cell. -/
theorem creds (c : Dev nD) : (Pipeline.launchCred O₀ c : sProp 𝕄) ⊢ credits c := by
  rw [O₀_eq, Pipeline.launchCred_add, Pipeline.launchCred_add, Pipeline.launchCred_add, Pipeline.launchCred_add, Pipeline.launchCred_add]
  iintro ⟨⟨⟨⟨⟨Hrx, Hry⟩, Hrz⟩, HbZ⟩, HbY⟩, HbX⟩
  ihave Hrx' := (Pipeline.launchCred_tallyAt (SemLoc.dma rSx) nbX nbX nbX_nbX nbX_nbX () N c) $$ Hrx
  ihave Hry' := (Pipeline.launchCred_tallyAt (SemLoc.dma rSy) nbY nbY nbY_nbY nbY_nbY () N c) $$ Hry
  ihave Hrz' := (Pipeline.launchCred_tallyAt (SemLoc.dma rSz) nbZ nbZ nbZ_nbZ nbZ_nbZ () N c) $$ Hrz
  ihave HbX' := (Pipeline.launchCred_tallyAt (SemLoc.reg barS) nbX nbX nbX_nbX nbX_nbX () 1 c) $$ HbX
  ihave HbY' := (Pipeline.launchCred_tallyAt (SemLoc.reg barS) nbY nbY nbY_nbY nbY_nbY () 1 c) $$ HbY
  ihave HbZ' := (Pipeline.launchCred_tallyAt (SemLoc.reg barS) nbZ nbZ nbZ_nbZ nbZ_nbZ () 1 c) $$ HbZ
  unfold credits
  isplitl [HbX' HbY' HbZ']
  · rw [show (tallyAt (barCell c) () 3 : CellTallies nD τ sig Unit) = tallyAt (barCell c) () 1 + tallyAt (barCell c) () 1 + tallyAt (barCell c) () 1 from by
      rw [tallyAt_add, tallyAt_add]]
    iapply (cred_add _ _).2
    isplitl [HbX' HbY']
    · iapply (cred_add _ _).2
      isplitl [HbX'] <;> iassumption
    · iexact HbZ'
  isplitl [Hrx']; · iexact Hrx'
  isplitl [Hry']; · iexact Hry'
  iexact Hrz'

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

/-- What a device's body starts from, out of what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Before the one point: that and the six plane buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ planes
  iintro ⟨Hs, -, Hr⟩
  isplitl [Hs]; · iexact Hs
  iexact Hr

/-- After it: the six plane buffers and the six transfer semaphores, handed back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = (Φ₁ c : sProp 𝕄) from rfl, scopedRest0_eq, ownSems0_eq]
  unfold Φ₁ planes
  iintro ⟨Hr, Hz⟩
  isplitr; · iempintro
  isplitl [Hz]; · iexact Hz
  iexact Hr

/-- The staging transfers' waits: their cells are no receive cell, so they lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- The arrays after the run, as the proof data computes them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of eight devices, for any float values, from any memory with every semaphore counter at zero: every
    weakly fair execution of the program — the eight kernels meeting on the barrier semaphore, then exchanging their
    facing planes with their three neighbours — terminates, and every final state has each device's arrays at the
    contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is never written back: it ends as it was launched. -/
theorem finalA_in (c : Dev nD) : finalA m ρ c (0 : Fin 2) = m ((c : Thread nD τ).loc main_arg0) :=
  (dats (F := F) m ρ 0 c).arrAt_in (0 : Fin 2) rfl _

/-- The result window's one block is the whole array, written back at the one point: the array ends holding the
    block the body left. -/
theorem finalA_out (c : Dev nD) : finalA m ρ c (1 : Fin 2) = outAt m c := by
  have h := (dats (F := F) m ρ 0 c).arrAt_succ (1 : Fin 2) t₀
  rw [flush0_1 t₀, if_pos rfl] at h
  unfold finalA
  refine (congrArg ((dats (F := F) m ρ 0 c).arrAt (1 : Fin 2)) cfg0_N).trans (h.trans ?_)
  exact Memref.write_access_unit_zero_univ (Elt F) main_v1 (funext fun a => Nat.zero_mul _) _ _ _

/-- The run, with the values named: every device's result array ends as the block `outAt` computes from its own block
    and its three neighbours' facing planes, and its argument array as launched. -/
theorem run_values : θ_run defs (onTc (τ := τ) (main (F := F))) ⟨m, fun _ => 0, ρ⟩ (fun r => ∀ c : Dev nD,
      r.2.mem ((c.tc : Thread nD τ).loc main_v1) = outAt m c ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_in m ρ c)⟩) (run_main m ρ)

/-! ## What the launch's own steps rest on -/

/-- info: 'Cert.KernelIdeal.Halo.glob' depends on axioms: [propext, Classical.choice, Quot.sound] -/
#guard_msgs in #print axioms glob

/-- info: 'Cert.KernelIdeal.Halo.start_intro' depends on axioms: [propext, Classical.choice, Quot.sound] -/
#guard_msgs in #print axioms start_intro

/-- info: 'Cert.KernelIdeal.Halo.finalA_out' depends on axioms: [propext, Classical.choice, Quot.sound] -/
#guard_msgs in #print axioms finalA_out

/-- info: 'Cert.KernelIdeal.Halo.run_values' depends on axioms: [propext, Classical.choice, Quot.sound] -/
#guard_msgs in #print axioms run_values

end Cert.KernelIdeal.Halo

end
-- ==== Proof.Bits.Contents.lean ====
/-
  What each device's buffers hold during the halo exchange, as pure terms of the device's own block `u` of the
  array and of the three planes it receives, at any float instance.

  The eight devices form a 2 x 2 x 2 mesh; a device's neighbour along an axis is the device whose coordinate on
  that axis is the other one (`nbX`, `nbY`, `nbZ`: each its own inverse). Along each axis a device sends the
  plane of its block that faces the neighbour (`faceX`, `faceY`, `faceZ`: the last plane when its coordinate is
  0, the first when it is 1) and receives the neighbour's facing plane. From its block it forms the Laplacian
  with zeros beyond the block's own faces (`core`), adds the received y plane on the facing y plane
  (`withY`) and the received z plane on the facing z plane, zeroes the points on the cube's boundary
  (`out1`), and finally adds the received x plane, itself zeroed on the cube's boundary, to the facing x
  plane (`slabNew`, written back by `outFinal`).
-/
import proofs.«900535_g7700000000000536_dist_halo3d_v7x_xyz2x2x2_s48_bf16_1_alg».proof.Proof.Gen.Kernel.Skeleton
import Idealize.ShloMosaic.Lib.Decide

noncomputable section

namespace Cert.Kernel.Halo

open Cert.Kernel Cert.Kernel.Gen
open Idealize.ShloMosaic Idealize.ShloMosaic.TcCoe Idealize.SL.Sem

variable {F : FTy → Type} [FloatOps F]

/-! ## The mesh -/

/-- The neighbour across the x axis, the y axis, the z axis: as the body computes the addressed device. -/
def nbX (c : Dev nD) : Dev nD := ⟨k0_dev1 c, k0_dev1_lt c⟩
def nbY (c : Dev nD) : Dev nD := ⟨k0_dev2 c, k0_dev2_lt c⟩
def nbZ (c : Dev nD) : Dev nD := ⟨k0_dev3 c, k0_dev3_lt c⟩

theorem nbX_val (c : Dev nD) : (nbX c).val = (2 * ((c.val / 2) % 2) + (c.val % 2) + 4) - 4 * (c.val / 4) := k0_dev1_eq c
theorem nbY_val (c : Dev nD) : (nbY c).val = (4 * (c.val / 4) + (c.val % 2) + 2) - 2 * ((c.val / 2) % 2) := k0_dev2_eq c
theorem nbZ_val (c : Dev nD) : (nbZ c).val = (4 * (c.val / 4) + 2 * ((c.val / 2) % 2) + 1) - (c.val % 2) := k0_dev3_eq c

/-- The three signals and the three transfers address the same three neighbours. -/
theorem dev1_eq (c : Dev nD) : (⟨k0_dev1 c, k0_dev1_lt c⟩ : Dev nD) = nbX c := rfl
theorem dev2_eq (c : Dev nD) : (⟨k0_dev2 c, k0_dev2_lt c⟩ : Dev nD) = nbY c := rfl
theorem dev3_eq (c : Dev nD) : (⟨k0_dev3 c, k0_dev3_lt c⟩ : Dev nD) = nbZ c := rfl
theorem dev4_eq (c : Dev nD) : (⟨k0_dev4 c, k0_dev4_lt c⟩ : Dev nD) = nbX c := Fin.ext ((k0_dev4_eq c).trans (k0_dev1_eq c).symm)
theorem dev5_eq (c : Dev nD) : (⟨k0_dev5 c, k0_dev5_lt c⟩ : Dev nD) = nbY c := Fin.ext ((k0_dev5_eq c).trans (k0_dev2_eq c).symm)
theorem dev6_eq (c : Dev nD) : (⟨k0_dev6 c, k0_dev6_lt c⟩ : Dev nD) = nbZ c := Fin.ext ((k0_dev6_eq c).trans (k0_dev3_eq c).symm)

/-- Each neighbour map is its own inverse, and has no fixed point. -/
theorem nbX_nbX (c : Dev nD) : nbX (nbX c) = c := by
  apply Fin.ext; rw [nbX_val, nbX_val]; have := c.isLt; simp only [nD] at this; omega
theorem nbY_nbY (c : Dev nD) : nbY (nbY c) = c := by
  apply Fin.ext; rw [nbY_val, nbY_val]; have := c.isLt; simp only [nD] at this; omega
theorem nbZ_nbZ (c : Dev nD) : nbZ (nbZ c) = c := by
  apply Fin.ext; rw [nbZ_val, nbZ_val]; have := c.isLt; simp only [nD] at this; omega
theorem nbX_ne (c : Dev nD) : nbX c ≠ c := fun h => by
  have := congrArg Fin.val h; rw [nbX_val] at this; have := c.isLt; simp only [nD] at *; omega
theorem nbY_ne (c : Dev nD) : nbY c ≠ c := fun h => by
  have := congrArg Fin.val h; rw [nbY_val] at this; have := c.isLt; simp only [nD] at *; omega
theorem nbZ_ne (c : Dev nD) : nbZ c ≠ c := fun h => by
  have := congrArg Fin.val h; rw [nbZ_val] at this; have := c.isLt; simp only [nD] at *; omega

/-- A device's coordinate on each mesh axis, as the word the body computes from its device id. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32

/-! ## The buffers -/

abbrev uM : Memref sig .tc .vmem S48x48x48 .f32 := Memref.whole cc0_stg0_0
abbrev oM : Memref sig .tc .vmem S48x48x48 .bf16 := Memref.whole cc0_stg1_0
abbrev sxM : Memref sig .tc .vmem S48x48 .bf16 := Memref.whole cc0_scratch0
abbrev syM : Memref sig .tc .vmem S48x48 .bf16 := Memref.whole cc0_scratch1
abbrev szM : Memref sig .tc .vmem S48x48 .bf16 := Memref.whole cc0_scratch2
abbrev rxM : Memref sig .tc .vmem S48x48 .bf16 := Memref.whole cc0_scratch3
abbrev ryM : Memref sig .tc .vmem S48x48 .bf16 := Memref.whole cc0_scratch4
abbrev rzM : Memref sig .tc .vmem S48x48 .bf16 := Memref.whole cc0_scratch5

/-- A block's contents, a plane's contents. -/
abbrev UBlk (F : FTy → Type) : Type := (cc0_stg0_0 : Ref sig .tc).ty.Contents (Elt F)
abbrev OBlk (F : FTy → Type) : Type := (cc0_stg1_0 : Ref sig .tc).ty.Contents (Elt F)
abbrev Plane (F : FTy → Type) : Type := (cc0_scratch0 : Ref sig .tc).ty.Contents (Elt F)

/-! ## The rectangles the body loads and stores through -/

abbrev rX47 : Rect S48x48x48 := Rect.unit (s := S48x48x48) ![47, 0, 0] S1x48x48.size inb_S48x48x48_S1x48x48_47_0_0
abbrev rX0 : Rect S48x48x48 := Rect.unit (s := S48x48x48) ![0, 0, 0] S1x48x48.size inb_S48x48x48_S1x48x48_0_0_0
abbrev rY47 : Rect S48x48x48 := Rect.unit (s := S48x48x48) ![0, 47, 0] S48x1x48.size inb_S48x48x48_S48x1x48_0_47_0
abbrev rY0 : Rect S48x48x48 := Rect.unit (s := S48x48x48) ![0, 0, 0] S48x1x48.size inb_S48x48x48_S48x1x48_0_0_0
abbrev rZ47 : Rect S48x48x48 := Rect.unit (s := S48x48x48) ![0, 0, 47] S48x48x1.size inb_S48x48x48_S48x48x1_0_0_47
abbrev rZ0 : Rect S48x48x48 := Rect.unit (s := S48x48x48) ![0, 0, 0] S48x48x1.size inb_S48x48x48_S48x48x1_0_0_0
abbrev rAll : Rect S48x48x48 := Rect.unit (s := S48x48x48) ![0, 0, 0] S48x48x48.size inb_S48x48x48_S48x48x48_0_0_0
abbrev rPl : Rect S48x48 := Rect.unit (s := S48x48) ![0, 0] S48x48.size inb_S48x48_S48x48_0_0
/-- The x plane facing the neighbour: plane 47 on a device whose x coordinate is 0, plane 0 otherwise. -/
abbrev rOff (c : Dev nD) : Rect S48x48x48 := Rect.unit (s := S48x48x48) (k0_off1 c) S1x48x48.size (k0_off1_inb c)

/-! ## What is sent -/

/-- The plane of the block `u` that faces the x neighbour, the y neighbour, the z neighbour. -/
def faceX (c : Dev nD) (u : UBlk F) : Plane F :=
  k0_pay1 (wx c) 0#32 (uM.view.readAt (Elt F) rX47.toLoadRect u) (uM.view.readAt (Elt F) rX0.toLoadRect u)
def faceY (c : Dev nD) (u : UBlk F) : Plane F :=
  k0_pay2 (wy c) (uM.view.readAt (Elt F) rY47.toLoadRect u) (uM.view.readAt (Elt F) rY0.toLoadRect u)
def faceZ (c : Dev nD) (u : UBlk F) : Plane F :=
  k0_pay3 (wz c) (uM.view.readAt (Elt F) rZ47.toLoadRect u) (uM.view.readAt (Elt F) rZ0.toLoadRect u)

/-! ## What is computed -/

/-- The Laplacian of the block alone: neighbours beyond the block's own faces count as zero. -/
def core (u : UBlk F) : FVec F S48x48x48 .bf16 := k0_pay5 (k0_pay4 u) (Scalar.ofBits .bf16 0x0000#16)

/-- `core` with the received y plane `ry` added on the y plane that faces the neighbour. -/
def withY (c : Dev nD) (u : UBlk F) (ry : Plane F) : FVec F S48x48x48 .bf16 := k0_pay13 (core u) (k0_pay6 (wy c)) ry

/-- The points of the block that lie on the boundary of the whole cube. -/
def onBoundary (c : Dev nD) : IVec S48x48x48 1 :=
  k0_pay10 (wx c) (wy c) (wz c) (iota .tc S48x48x48 32 [0] iota_S48x48x48_d0_w32) (iota .tc S48x48x48 32 [1] iota_S48x48x48_d1_w32)
    (iota .tc S48x48x48 32 [2] iota_S48x48x48_d2_w32) k0_pay8 (k0_pay9 (wx c))

/-- The first version of the result: y and z planes added, the cube's boundary zeroed. -/
def out1 (c : Dev nD) (u : UBlk F) (ry rz : Plane F) : OBlk F :=
  k0_pay14 (k0_pay7 (wz c)) (onBoundary c) (withY c u ry) rz

/-- The points of an x plane that are NOT on the cube's y or z boundary. -/
def offEdge (c : Dev nD) : IVec S48x48 1 :=
  k0_pay12 (wz c) (iota .tc S48x48 32 [1] iota_S48x48_d1_w32) (k0_pay11 (wy c)) (Scalar.cmpi .eq (wz c) 0#32)

/-- The facing x plane after the received x plane `rx` is added to it. -/
def slabNew (c : Dev nD) (u : UBlk F) (rx ry rz : Plane F) : FVec F S1x48x48 .bf16 :=
  k0_pay15 (offEdge c) rx (oM.view.readAt (Elt F) (rOff c).toLoadRect (out1 c u ry rz))

/-- The result block on device `c`. -/
def outFinal (c : Dev nD) (u : UBlk F) (rx ry rz : Plane F) : OBlk F :=
  ((oM.access (rOff c) : View sig .tc _ _ _)).write (Elt F) (out1 c u ry rz) (slabNew c u rx ry rz) Finset.univ

end Cert.Kernel.Halo

end
-- ==== Proof.Bits.Cells.lean ====
/-
  The halo exchange's protocol: which semaphore cells there are, what each round of each hands its owner, and the
  contents that travel.

  Every device has seven cells. Its BARRIER cell is paid one unit by each of its three neighbours (duty `a` by the
  neighbour across axis `a`), and the neighbour's unit brings the neighbour's receive buffer for that axis — the
  permission to copy into it — together with the fact that the neighbour's receive cell is at its first round. Its three
  SEND cells are each paid by its own copy and give back the plane sent. Its three RECEIVE cells are each paid by the
  neighbour's copy and give the receive buffer holding the neighbour's facing plane. Every cell has exactly one round.
-/
import proofs.«900535_g7700000000000536_dist_halo3d_v7x_xyz2x2x2_s48_bf16_1_alg».proof.Proof.Bits.Contents
import proofs.«900535_g7700000000000536_dist_halo3d_v7x_xyz2x2x2_s48_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by an axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The semaphores and cells -/

abbrev barS : Sem sig := (SemArray.scalar (sig.barrier 0 rfl) : Sems sig S_).sem
abbrev sSx : DmaSem sig := ((cc0_scratch6.slice (Rect.unit (s := S3) ![0] S1.size inb_S3_S1_0)).squeeze S_ squeezes_S1_S_ : DmaSems sig S_).sem
abbrev sSy : DmaSem sig := ((cc0_scratch6.slice (Rect.unit (s := S3) ![1] S1.size inb_S3_S1_1)).squeeze S_ squeezes_S1_S_ : DmaSems sig S_).sem
abbrev sSz : DmaSem sig := ((cc0_scratch6.slice (Rect.unit (s := S3) ![2] S1.size inb_S3_S1_2)).squeeze S_ squeezes_S1_S_ : DmaSems sig S_).sem
abbrev rSx : DmaSem sig := ((cc0_scratch7.slice (Rect.unit (s := S3) ![0] S1.size inb_S3_S1_0)).squeeze S_ squeezes_S1_S_ : DmaSems sig S_).sem
abbrev rSy : DmaSem sig := ((cc0_scratch7.slice (Rect.unit (s := S3) ![1] S1.size inb_S3_S1_1)).squeeze S_ squeezes_S1_S_ : DmaSems sig S_).sem
abbrev rSz : DmaSem sig := ((cc0_scratch7.slice (Rect.unit (s := S3) ![2] S1.size inb_S3_S1_2)).squeeze S_ squeezes_S1_S_ : DmaSems sig S_).sem

theorem sSx_val : sSx = (2 : DmaSem sig) := by decide
theorem sSy_val : sSy = (3 : DmaSem sig) := by decide
theorem sSz_val : sSz = (4 : DmaSem sig) := by decide
theorem rSx_val : rSx = (5 : DmaSem sig) := by decide
theorem rSy_val : rSy = (6 : DmaSem sig) := by decide
theorem rSz_val : rSz = (7 : DmaSem sig) := by decide

abbrev barCell (c : Dev nD) : GSem nD τ sig := ((c : Thread nD τ), .reg barS)
abbrev sxCell (c : Dev nD) : GSem nD τ sig := ((c : Thread nD τ), .dma sSx)
abbrev syCell (c : Dev nD) : GSem nD τ sig := ((c : Thread nD τ), .dma sSy)
abbrev szCell (c : Dev nD) : GSem nD τ sig := ((c : Thread nD τ), .dma sSz)
abbrev rxCell (c : Dev nD) : GSem nD τ sig := ((c : Thread nD τ), .dma rSx)
abbrev ryCell (c : Dev nD) : GSem nD τ sig := ((c : Thread nD τ), .dma rSy)
abbrev rzCell (c : Dev nD) : GSem nD τ sig := ((c : Thread nD τ), .dma rSz)

/-- The credit one plane's copy brings. -/
abbrev N : ℕ := (rxM : Memref sig .tc .vmem S48x48 .bf16).view.dmaCredit
theorem N_pos : 0 < N := View.dmaCredit_pos _ (by decide)

/-! ## Contents -/

/-- Device `c`'s block of the array, as staged. -/
def ublk (c : Dev nD) : UBlk F := (win0_0.blk (0 : Fin 1)).view.read (Elt F) (m ((c : Thread nD τ).loc main_arg0))

/-- What device `c` sends along each axis, and what lands in its receive buffers: the neighbour's facing plane. -/
def sentX (c : Dev nD) : Plane F := faceX c (ublk m c)
def sentY (c : Dev nD) : Plane F := faceY c (ublk m c)
def sentZ (c : Dev nD) : Plane F := faceZ c (ublk m c)
def landX (c : Dev nD) : Plane F := sentX m (nbX c)
def landY (c : Dev nD) : Plane F := sentY m (nbY c)
def landZ (c : Dev nD) : Plane F := sentZ m (nbZ c)

/-- The result block on device `c`. -/
def outAt (c : Dev nD) : OBlk F := outFinal c (ublk m c) (landX m c) (landY m c) (landZ m c)

/-! ## Buffers as assertions -/

section Pts
variable (c : Dev nD)

omit [FloatOps F] in
/-- A whole plane buffer held at full share, spelt through the location. -/
abbrev held (b : Ref sig .tc) (X : b.ty.Contents (Elt F)) : sProp 𝕄 := (((c : Thread nD τ).loc b) ↦{fullShare} X)

end Pts

/-! ## The schedule -/

/-- What the neighbour across axis `d` hands device `c` with its barrier unit: ITS receive buffer for that axis, with
    whatever it holds, and that its receive cell for that axis is at its first round. -/
def barPay (c : Dev nD) (d : Fin 3) : sProp 𝕄 :=
  if d = 0 then iprop((∃ f, held (F := F) (nbX c) cc0_scratch3 f) ∗ reached ER (rxCell (nbX c)) 0)
  else if d = 1 then iprop((∃ f, held (F := F) (nbY c) cc0_scratch4 f) ∗ reached ER (ryCell (nbY c)) 0)
  else iprop((∃ f, held (F := F) (nbZ c) cc0_scratch5 f) ∗ reached ER (rzCell (nbZ c)) 0)

abbrev IsBar (g : GSem nD τ sig) : Prop := g.1.2 = .tc ∧ g.2 = .reg barS
abbrev IsXfer (g : GSem nD τ sig) : Prop :=
  g.1.2 = .tc ∧ (g.2 = .dma sSx ∨ g.2 = .dma sSy ∨ g.2 = .dma sSz ∨ g.2 = .dma rSx ∨ g.2 = .dma rSy ∨ g.2 = .dma rSz)

/-- One round for every cell: a barrier cell has the three duties of one unit each; a send or receive cell the one
    duty `0` of a plane's credit. -/
def haloRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma rSx then held g.1.1 cc0_scratch3 (landX m g.1.1)
    else if g.2 = .dma rSy then held g.1.1 cc0_scratch4 (landY m g.1.1)
    else if g.2 = .dma rSz then held g.1.1 cc0_scratch5 (landZ m g.1.1)
    else if g.2 = .dma sSx then held g.1.1 cc0_scratch0 (sentX m g.1.1)
    else if g.2 = .dma sSy then held g.1.1 cc0_scratch1 (sentY m g.1.1)
    else if g.2 = .dma sSz then held g.1.1 cc0_scratch2 (sentZ m g.1.1)
    else iprop(emp)
  amount_pos g _ _ _ := by
    by_cases h : g.2 = .reg barS
    · rw [if_pos h]; exact Nat.one_pos
    · rw [if_neg h]; exact N_pos

instance barPay_storable (c : Dev nD) (d : Fin 3) : BI.Storable (upEmb : UEmb _ 𝕄) (barPay (F := F) c d) := by
  unfold barPay; (repeat' split) <;> infer_instance

instance haloRd_payload_storable (g : GSem nD τ sig) (r : ℕ) (d : Fin 3) :
    BI.Storable (upEmb : UEmb _ 𝕄) ((haloRd (F := F) m).payload g r d) := by
  show BI.Storable upEmb (if g.2 = .reg barS then barPay g.1.1 d
    else if g.2 = .dma rSx then held g.1.1 cc0_scratch3 (landX m g.1.1)
    else if g.2 = .dma rSy then held g.1.1 cc0_scratch4 (landY m g.1.1)
    else if g.2 = .dma rSz then held g.1.1 cc0_scratch5 (landZ m g.1.1)
    else if g.2 = .dma sSx then held g.1.1 cc0_scratch0 (sentX m g.1.1)
    else if g.2 = .dma sSy then held g.1.1 cc0_scratch1 (sentY m g.1.1)
    else if g.2 = .dma sSz then held g.1.1 cc0_scratch2 (sentZ m g.1.1)
    else iprop(emp))
  (repeat' split) <;> infer_instance

/-! ## The schedule's tables -/

section Sched
variable (c : Dev nD)

theorem dma_ne_bar (q : DmaSem sig) : (SemLoc.dma q : SemLoc sig) ≠ .reg barS := fun h => by cases h
theorem not_bar_dma (q : DmaSem sig) : ¬ IsBar (((c : Thread nD τ), SemLoc.dma q) : GSem nD τ sig) := fun h => dma_ne_bar q h.2

theorem duties_bar : (haloRd (F := F) m).duties (barCell c) 0 = Finset.univ := by dsimp only [haloRd]; exact if_pos ⟨rfl, rfl, rfl⟩
theorem duties_sx : (haloRd (F := F) m).duties (sxCell c) 0 = {0} := by
  dsimp only [haloRd]; rw [if_neg (fun h => not_bar_dma c _ h.2)]; exact if_pos ⟨rfl, rfl, .inl rfl⟩
theorem duties_sy : (haloRd (F := F) m).duties (syCell c) 0 = {0} := by
  dsimp only [haloRd]; rw [if_neg (fun h => not_bar_dma c _ h.2)]; exact if_pos ⟨rfl, rfl, .inr (.inl rfl)⟩
theorem duties_sz : (haloRd (F := F) m).duties (szCell c) 0 = {0} := by
  dsimp only [haloRd]; rw [if_neg (fun h => not_bar_dma c _ h.2)]; exact if_pos ⟨rfl, rfl, .inr (.inr (.inl rfl))⟩
theorem duties_rx : (haloRd (F := F) m).duties (rxCell c) 0 = {0} := by
  dsimp only [haloRd]; rw [if_neg (fun h => not_bar_dma c _ h.2)]; exact if_pos ⟨rfl, rfl, .inr (.inr (.inr (.inl rfl)))⟩
theorem duties_ry : (haloRd (F := F) m).duties (ryCell c) 0 = {0} := by
  dsimp only [haloRd]; rw [if_neg (fun h => not_bar_dma c _ h.2)]; exact if_pos ⟨rfl, rfl, .inr (.inr (.inr (.inr (.inl rfl))))⟩
theorem duties_rz : (haloRd (F := F) m).duties (rzCell c) 0 = {0} := by
  dsimp only [haloRd]; rw [if_neg (fun h => not_bar_dma c _ h.2)]; exact if_pos ⟨rfl, rfl, .inr (.inr (.inr (.inr (.inr rfl))))⟩
theorem duties_later (g : GSem nD τ sig) : ∀ r, 1 ≤ r → (haloRd (F := F) m).duties g r = ∅ :=
  fun r hr => by dsimp only [haloRd]; rw [if_neg fun h => by omega, if_neg fun h => by omega]

theorem amount_bar (d : Fin 3) : (haloRd (F := F) m).amount (barCell c) 0 d = 1 := by dsimp only [haloRd]; exact if_pos rfl
theorem amount_dma (q : DmaSem sig) (d : Fin 3) : (haloRd (F := F) m).amount (((c : Thread nD τ), SemLoc.dma q) : GSem nD τ sig) 0 d = N := by
  dsimp only [haloRd]; exact if_neg (dma_ne_bar q)

theorem expect_bar : (haloRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_sx : (haloRd (F := F) m).expect (sxCell c) 0 = N := by
  unfold Schedule.expect Schedule.amountOf; rw [duties_sx, Finset.sum_singleton, amount_dma]
theorem expect_sy : (haloRd (F := F) m).expect (syCell c) 0 = N := by
  unfold Schedule.expect Schedule.amountOf; rw [duties_sy, Finset.sum_singleton, amount_dma]
theorem expect_sz : (haloRd (F := F) m).expect (szCell c) 0 = N := by
  unfold Schedule.expect Schedule.amountOf; rw [duties_sz, Finset.sum_singleton, amount_dma]
theorem expect_rx : (haloRd (F := F) m).expect (rxCell c) 0 = N := by
  unfold Schedule.expect Schedule.amountOf; rw [duties_rx, Finset.sum_singleton, amount_dma]
theorem expect_ry : (haloRd (F := F) m).expect (ryCell c) 0 = N := by
  unfold Schedule.expect Schedule.amountOf; rw [duties_ry, Finset.sum_singleton, amount_dma]
theorem expect_rz : (haloRd (F := F) m).expect (rzCell c) 0 = N := by
  unfold Schedule.expect Schedule.amountOf; rw [duties_rz, Finset.sum_singleton, amount_dma]

theorem payload_bar (d : Fin 3) : (haloRd (F := F) m).payload (barCell c) 0 d = barPay c d := by dsimp only [haloRd]; rw [if_pos rfl]
theorem payload_bar0 : (haloRd (F := F) m).payload (barCell c) 0 0
    = iprop((∃ f, (((nbX c : Thread nD τ).loc cc0_scratch3) ↦{fullShare} f)) ∗ reached ER (rxCell (nbX c)) 0) := by
  rw [payload_bar]; unfold barPay; rw [if_pos rfl]
theorem payload_bar1 : (haloRd (F := F) m).payload (barCell c) 0 1
    = iprop((∃ f, (((nbY c : Thread nD τ).loc cc0_scratch4) ↦{fullShare} f)) ∗ reached ER (ryCell (nbY c)) 0) := by
  rw [payload_bar]; unfold barPay; rw [if_neg (by decide), if_pos rfl]
theorem payload_bar2 : (haloRd (F := F) m).payload (barCell c) 0 2
    = iprop((∃ f, (((nbZ c : Thread nD τ).loc cc0_scratch5) ↦{fullShare} f)) ∗ reached ER (rzCell (nbZ c)) 0) := by
  rw [payload_bar]; unfold barPay; rw [if_neg (by decide), if_neg (by decide)]
theorem payload_rx (d : Fin 3) : (haloRd (F := F) m).payload (rxCell c) 0 d = (((c : Thread nD τ).loc cc0_scratch3) ↦{fullShare} landX m c) := by
  dsimp only [haloRd]; rw [if_neg (dma_ne_bar _), if_pos rfl]
theorem payload_ry (d : Fin 3) : (haloRd (F := F) m).payload (ryCell c) 0 d = (((c : Thread nD τ).loc cc0_scratch4) ↦{fullShare} landY m c) := by
  dsimp only [haloRd]; rw [if_neg (dma_ne_bar _), if_neg (by decide), if_pos rfl]
theorem payload_rz (d : Fin 3) : (haloRd (F := F) m).payload (rzCell c) 0 d = (((c : Thread nD τ).loc cc0_scratch5) ↦{fullShare} landZ m c) := by
  dsimp only [haloRd]; rw [if_neg (dma_ne_bar _), if_neg (by decide), if_neg (by decide), if_pos rfl]
theorem payload_sx (d : Fin 3) : (haloRd (F := F) m).payload (sxCell c) 0 d = (((c : Thread nD τ).loc cc0_scratch0) ↦{fullShare} sentX m c) := by
  dsimp only [haloRd]; rw [if_neg (dma_ne_bar _), if_neg (by decide), if_neg (by decide), if_neg (by decide), if_pos rfl]
theorem payload_sy (d : Fin 3) : (haloRd (F := F) m).payload (syCell c) 0 d = (((c : Thread nD τ).loc cc0_scratch1) ↦{fullShare} sentY m c) := by
  dsimp only [haloRd]; rw [if_neg (dma_ne_bar _), if_neg (by decide), if_neg (by decide), if_neg (by decide), if_neg (by decide), if_pos rfl]
theorem payload_sz (d : Fin 3) : (haloRd (F := F) m).payload (szCell c) 0 d = (((c : Thread nD τ).loc cc0_scratch2) ↦{fullShare} sentZ m c) := by
  dsimp only [haloRd]; rw [if_neg (dma_ne_bar _), if_neg (by decide), if_neg (by decide), if_neg (by decide), if_neg (by decide), if_neg (by decide), if_pos rfl]

/-- The whole of the barrier cell's round, no duty taken: the three neighbours' receive buffers. -/
theorem rest_bar : bigSep ((haloRd (F := F) m).duties (barCell c) 0 \ ∅) (fun d => (haloRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_sx : bigSep ((haloRd (F := F) m).duties (sxCell c) 0 \ ∅) (fun d => (haloRd (F := F) m).payload (sxCell c) 0 d)
    = (((c : Thread nD τ).loc cc0_scratch0) ↦{fullShare} sentX m c) := by rw [Finset.sdiff_empty, duties_sx, bigSep_singleton, payload_sx]
theorem rest_sy : bigSep ((haloRd (F := F) m).duties (syCell c) 0 \ ∅) (fun d => (haloRd (F := F) m).payload (syCell c) 0 d)
    = (((c : Thread nD τ).loc cc0_scratch1) ↦{fullShare} sentY m c) := by rw [Finset.sdiff_empty, duties_sy, bigSep_singleton, payload_sy]
theorem rest_sz : bigSep ((haloRd (F := F) m).duties (szCell c) 0 \ ∅) (fun d => (haloRd (F := F) m).payload (szCell c) 0 d)
    = (((c : Thread nD τ).loc cc0_scratch2) ↦{fullShare} sentZ m c) := by rw [Finset.sdiff_empty, duties_sz, bigSep_singleton, payload_sz]
theorem rest_rx : bigSep ((haloRd (F := F) m).duties (rxCell c) 0 \ ∅) (fun d => (haloRd (F := F) m).payload (rxCell c) 0 d)
    = (((c : Thread nD τ).loc cc0_scratch3) ↦{fullShare} landX m c) := by rw [Finset.sdiff_empty, duties_rx, bigSep_singleton, payload_rx]
theorem rest_ry : bigSep ((haloRd (F := F) m).duties (ryCell c) 0 \ ∅) (fun d => (haloRd (F := F) m).payload (ryCell c) 0 d)
    = (((c : Thread nD τ).loc cc0_scratch4) ↦{fullShare} landY m c) := by rw [Finset.sdiff_empty, duties_ry, bigSep_singleton, payload_ry]
theorem rest_rz : bigSep ((haloRd (F := F) m).duties (rzCell c) 0 \ ∅) (fun d => (haloRd (F := F) m).payload (rzCell c) 0 d)
    = (((c : Thread nD τ).loc cc0_scratch5) ↦{fullShare} landZ m c) := by rw [Finset.sdiff_empty, duties_rz, bigSep_singleton, payload_rz]

end Sched

end Cert.Kernel.Halo

end
-- ==== Proof.Bits.Owing.lean ====
/-
  What each device owes the others when the exchange starts, and why no wait can deadlock.

  A device owes each neighbour one barrier unit and one plane's credit on the neighbour's receive cell. Cells are
  ranked: barrier cells at level 1, receive cells at level 2, everything else (the staging transfers, the send
  cells) at level 0. A wait is allowed when everything the waiter still owes is ranked strictly above the cell it waits
  on: at its barrier wait a device owes only the three receive credits (level 2 above level 1); at every other wait of
  the exchange it owes nothing; the staging waits (level 0) lie below all six debts.
-/
import proofs.«900535_g7700000000000536_dist_halo3d_v7x_xyz2x2x2_s48_bf16_1_alg».proof.Proof.Bits.Cells

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The three receive credits device `c` owes its neighbours. -/
def Orecv (c : Dev nD) : CellTallies nD τ sig Unit :=
  tallyAt (rxCell (nbX c)) () N + tallyAt (ryCell (nbY c)) () N + tallyAt (rzCell (nbZ c)) () N
/-- Everything device `c` owes at launch: those, and one barrier unit to each neighbour. -/
def O₀ (c : Dev nD) : CellTallies nD τ sig Unit :=
  Orecv c + tallyAt (barCell (nbZ c)) () 1 + tallyAt (barCell (nbY c)) () 1 + tallyAt (barCell (nbX c)) () 1

def L (g : GSem nD τ sig) : Finset Unit := if g.1.2 = .tc then {()} else ∅
/-- barrier cells at 1, receive cells at 2, everything else at 0. -/
def lv (g : GSem nD τ sig) (_ : Unit) : ℕ :=
  if g.2 = .reg barS then 1 else if g.2 = .dma rSx ∨ g.2 = .dma rSy ∨ g.2 = .dma rSz then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rx (c : Dev nD) (u : Unit) : lv (rxCell c) u = 2 := by dsimp only [lv]; rw [if_neg (dma_ne_bar _), if_pos (.inl rfl)]
theorem lv_ry (c : Dev nD) (u : Unit) : lv (ryCell c) u = 2 := by dsimp only [lv]; rw [if_neg (dma_ne_bar _), if_pos (.inr (.inl rfl))]
theorem lv_rz (c : Dev nD) (u : Unit) : lv (rzCell c) u = 2 := by dsimp only [lv]; rw [if_neg (dma_ne_bar _), if_pos (.inr (.inr rfl))]

theorem Orecv_pos {c : Dev nD} {g : GSem nD τ sig} {u : Unit} (h : 0 < Orecv c g u) :
    g = rxCell (nbX c) ∨ g = ryCell (nbY c) ∨ g = rzCell (nbZ c) := by
  unfold Orecv at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (g = rxCell (nbX c) ∨ g = ryCell (nbY c) ∨ g = rzCell (nbZ c)) ∨ g = barCell (nbZ c) ∨ g = barCell (nbY c) ∨ g = barCell (nbX c) := by
  unfold O₀ at h
  rw [Pi.add_apply, Finsupp.add_apply, Pi.add_apply, Finsupp.add_apply, Pi.add_apply, Finsupp.add_apply, tallyAt_apply, tallyAt_apply, tallyAt_apply] at h
  by_contra hn
  obtain ⟨hA, hn⟩ := not_or.mp hn
  obtain ⟨hZ, hn⟩ := not_or.mp hn
  obtain ⟨hY, hX⟩ := not_or.mp hn
  rw [if_neg (fun h' => hZ h'.1), if_neg (fun h' => hY h'.1), if_neg (fun h' => hX h'.1)] at h
  simp only [Nat.add_zero] at h
  exact hA (Orecv_pos h)

/-- Every cell device `c` owes lies strictly above level 0. -/
theorem lv_pos_of_owed {c : Dev nD} {g : GSem nD τ sig} {u : Unit} (h : 0 < O₀ c g u) : 0 < lv g u := by
  rcases O₀_pos h with (rfl | rfl | rfl) | rfl | rfl | rfl
  · rw [lv_rx]; decide
  · rw [lv_ry]; decide
  · rw [lv_rz]; decide
  · rw [lv_bar]; decide
  · rw [lv_bar]; decide
  · rw [lv_bar]; decide

omit [FloatOps F] in
/-- A wait on a DMA cell that is no receive cell (a staging transfer's, a send cell's), owing everything or nothing. -/
theorem mayWait_low (c : Dev nD) (q : DmaSem sig) (hq : ¬ (SemLoc.dma q = .dma rSx ∨ SemLoc.dma q = .dma rSy ∨ SemLoc.dma q = .dma rSz))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with (rfl | rfl | rfl) | rfl | rfl | rfl <;> exact Finset.mem_singleton_self _)
      (fun p hp => by rw [Finset.mem_singleton.mp hp]; dsimp only [lv]; rw [if_neg (fun h => by cases h), if_neg hq])
      (fun g u hg => lv_pos_of_owed hg)
  · rw [MayWait_zero]; iintro -; iempintro

omit [FloatOps F] in
/-- At its barrier wait a device owes the three receive credits only: receive cells, above its barrier cell. -/
theorem mayWait_bar (c : Dev nD) :
    (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by
      rcases Orecv_pos hg with rfl | rfl | rfl <;> exact Finset.mem_singleton_self _)
    (fun p hp => by rw [Finset.mem_singleton.mp hp]; dsimp only [lv]; rw [if_pos rfl])
    (fun g u hg => by
      rcases Orecv_pos hg with rfl | rfl | rfl
      · rw [lv_rx]; decide
      · rw [lv_ry]; decide
      · rw [lv_rz]; decide)

end Cert.Kernel.Halo

end
-- ==== Proof.Bits.Data.lean ====
/-
  The proof data of the one region: what each device's staging buffers hold after the body, the ghost state a device's
  body starts from, and the invariant before and after the one grid point.

  Before the point a device holds: the invariants of the cells it touches (its own seven, its three neighbours' barrier
  cells, and the one receive cell of each neighbour that its own copy pays); its positions at the first round of its
  own cells; the duty tokens it pays with (one barrier duty and one receive duty per neighbour, its own three send
  duties); the credit its own barrier and receive cells will receive; and its six plane buffers with whatever they
  hold. After the point it holds the six plane buffers again and its six transfer semaphores back at zero.
-/
import proofs.«900535_g7700000000000536_dist_halo3d_v7x_xyz2x2x2_s48_bf16_1_alg».proof.Proof.Bits.Owing

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed -/

/-- A device's seven cells: barrier; send x, y, z; receive x, y, z. -/
abbrev csem : Fin 7 → SemLoc sig := ![.reg barS, .dma sSx, .dma sSy, .dma sSz, .dma rSx, .dma rSy, .dma rSz]
abbrev kcell (ck : Dev nD × Fin 7) : GSem nD τ sig := ((ck.1 : Thread nD τ), csem ck.2)
/-- The kernel's OWN (scoped) semaphores, as the launch indexes them: the six transfer semaphores. -/
abbrev osem : Fin 6 → SemLoc sig := ![.dma sSx, .dma sSy, .dma sSz, .dma rSx, .dma rSy, .dma rSz]

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The ghost state -/

/-- The cells' invariants device `c`'s body opens, under the names `K` the launch allocated them at. -/
def invs (K : Dev nD × Fin 7 → ℕ) (c : Dev nD) : sProp 𝕄 :=
  iprop(cellInv ER (haloRd m) (K (c, 0)) (barCell c)
    ∗ cellInv ER (haloRd m) (K (c, 1)) (sxCell c) ∗ cellInv ER (haloRd m) (K (c, 2)) (syCell c) ∗ cellInv ER (haloRd m) (K (c, 3)) (szCell c)
    ∗ cellInv ER (haloRd m) (K (c, 4)) (rxCell c) ∗ cellInv ER (haloRd m) (K (c, 5)) (ryCell c) ∗ cellInv ER (haloRd m) (K (c, 6)) (rzCell c)
    ∗ cellInv ER (haloRd m) (K (nbX c, 0)) (barCell (nbX c)) ∗ cellInv ER (haloRd m) (K (nbY c, 0)) (barCell (nbY c)) ∗ cellInv ER (haloRd m) (K (nbZ c, 0)) (barCell (nbZ c))
    ∗ cellInv ER (haloRd m) (K (nbX c, 4)) (rxCell (nbX c)) ∗ cellInv ER (haloRd m) (K (nbY c, 5)) (ryCell (nbY c)) ∗ cellInv ER (haloRd m) (K (nbZ c, 6)) (rzCell (nbZ c)))

instance invs_persistent (K : Dev nD × Fin 7 → ℕ) (c : Dev nD) : BI.Persistent (invs m K c) := by unfold invs; infer_instance

/-- Device `c`'s positions at the first round of its own seven cells. -/
def positions (c : Dev nD) : sProp 𝕄 :=
  iprop(atPos ER (barCell c) 0 ∅ 0
    ∗ atPos ER (sxCell c) 0 ∅ 0 ∗ atPos ER (syCell c) 0 ∅ 0 ∗ atPos ER (szCell c) 0 ∅ 0
    ∗ atPos ER (rxCell c) 0 ∅ 0 ∗ atPos ER (ryCell c) 0 ∅ 0 ∗ atPos ER (rzCell c) 0 ∅ 0)

/-- The first round reached, of every cell device `c` pays or hands a fact about. -/
def marks (c : Dev nD) : sProp 𝕄 :=
  iprop(reached ER (barCell (nbX c)) 0 ∗ reached ER (barCell (nbY c)) 0 ∗ reached ER (barCell (nbZ c)) 0
    ∗ reached ER (rxCell (nbX c)) 0 ∗ reached ER (ryCell (nbY c)) 0 ∗ reached ER (rzCell (nbZ c)) 0
    ∗ reached ER (sxCell c) 0 ∗ reached ER (syCell c) 0 ∗ reached ER (szCell c) 0
    ∗ reached ER (rxCell c) 0 ∗ reached ER (ryCell c) 0 ∗ reached ER (rzCell c) 0)

instance marks_persistent (c : Dev nD) : BI.Persistent (marks (F := F) c) := by unfold marks; infer_instance

/-- The tokens of the duties device `c` pays: on each neighbour's barrier cell the duty named by their shared axis, on
    each neighbour's receive cell for that axis its one duty, on its own three send cells their one duty. -/
def payToks (c : Dev nD) : sProp 𝕄 :=
  iprop(dutyTok ER (barCell (nbX c)) 0 0 ∗ dutyTok ER (barCell (nbY c)) 0 1 ∗ dutyTok ER (barCell (nbZ c)) 0 2
    ∗ dutyTok ER (rxCell (nbX c)) 0 0 ∗ dutyTok ER (ryCell (nbY c)) 0 0 ∗ dutyTok ER (rzCell (nbZ c)) 0 0
    ∗ dutyTok ER (sxCell c) 0 0 ∗ dutyTok ER (syCell c) 0 0 ∗ dutyTok ER (szCell c) 0 0)

def ghost (K : Dev nD × Fin 7 → ℕ) (c : Dev nD) : sProp 𝕄 :=
  iprop(invs m K c ∗ positions c ∗ marks c ∗ payToks c)

/-- The credit that will arrive on device `c`'s barrier cell (three units) and on its three receive cells. -/
def credits (c : Dev nD) : sProp 𝕄 :=
  iprop(cred (tallyAt (barCell c) () 3) ∗ cred (tallyAt (rxCell c) () N) ∗ cred (tallyAt (ryCell c) () N) ∗ cred (tallyAt (rzCell c) () N))

/-- What device `c`'s body starts from, the plane buffers apart. -/
def start (c : Dev nD) : sProp 𝕄 :=
  iprop((∃ K, ghost m K c) ∗ credits c ∗ levAts L lv)

/-- The six plane buffers, each with whatever it holds. -/
def planes (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- The device's six transfer semaphores, each back at zero. -/
def zeros (c : Dev nD) : sProp 𝕄 :=
  iprop(semVal (sxCell c) 0 ∗ semVal (syCell c) 0 ∗ semVal (szCell c) 0 ∗ semVal (rxCell c) 0 ∗ semVal (ryCell c) 0 ∗ semVal (rzCell c) 0)

def Φ₀ (c : Dev nD) : sProp 𝕄 := iprop(start m c ∗ planes c)
def Φ₁ (c : Dev nD) : sProp 𝕄 := iprop(planes c ∗ zeros c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ublk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A whole buffer held at contents `X`, as the pipeline states a staging buffer. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body on device `c` starts from, with the ghost names `K` fixed. -/
def bodyPre (K : Dev nD × Fin 7 → ℕ) (c : Dev nD) : sProp 𝕄 :=
  iprop((ghost m K c ∗ credits c ∗ levAts L lv ∗ planes c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ c ∗ (dats m ρ 0 c).owesAt () t₀.succ ∗ stg c cc0_stg0_0 (ublk m c) ∗ stg c cc0_stg1_0 (outAt m c))

end Cert.Kernel.Halo

end
-- ==== Proof.Bits.Body.lean ====
/-
  One device's body of the halo exchange, stepped from the ghost state of `Data.lean` to its post.

  In program order the device: pays one barrier unit to each neighbour, each unit carrying its own receive buffer for
  the shared axis; stores the three planes it will send; waits for its own three barrier units, which bring the three
  neighbours' receive buffers; starts the three copies, each paying the device's own send cell (the plane comes back
  at the wait) and the neighbour's receive cell (whose owner gets the buffer holding this device's plane); computes the
  first version of its result from its block and the y and z planes it waits for; and finally waits for the x plane and
  adds it to the facing x plane. A send buffer after its one store through the whole rectangle holds exactly the plane
  sent, and the result buffer after its two stores holds `outFinal`: those are the two equations about contents the
  run needs, stated below before it. At the end the six transfer cells are past their one round and close, giving
  their counters back at zero.
-/
import proofs.«900535_g7700000000000536_dist_halo3d_v7x_xyz2x2x2_s48_bf16_1_alg».proof.Proof.Bits.Data
import proofs.«900535_g7700000000000536_dist_halo3d_v7x_xyz2x2x2_s48_bf16_1_alg».proof.Proof.Gen.Kernel.Points
import Idealize.ShloMosaic.Lib.Pipeline.FrameBody
import Idealize.ShloMosaic.Lib.Pipeline.Value

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device hands each neighbour with its barrier unit, with the neighbour's neighbour resolved -/

theorem payload_bar0_at (c c' : Dev nD) (h : nbX c = c') : (haloRd (F := F) m).payload (barCell c) 0 0
    = iprop((∃ f, (((c' : Thread nD τ).loc cc0_scratch3) ↦{fullShare} f)) ∗ reached ER (rxCell c') 0) := by subst h; exact payload_bar0 m c
theorem payload_bar1_at (c c' : Dev nD) (h : nbY c = c') : (haloRd (F := F) m).payload (barCell c) 0 1
    = iprop((∃ f, (((c' : Thread nD τ).loc cc0_scratch4) ↦{fullShare} f)) ∗ reached ER (ryCell c') 0) := by subst h; exact payload_bar1 m c
theorem payload_bar2_at (c c' : Dev nD) (h : nbZ c = c') : (haloRd (F := F) m).payload (barCell c) 0 2
    = iprop((∃ f, (((c' : Thread nD τ).loc cc0_scratch5) ↦{fullShare} f)) ∗ reached ER (rzCell c') 0) := by subst h; exact payload_bar2 m c

/-- The unit device `c` pays on its x neighbour's barrier cell brings `c`'s own x receive buffer; and so on. -/
theorem payload_toX (c : Dev nD) : (haloRd (F := F) m).payload (barCell (nbX c)) 0 0
    = iprop((∃ f, (((c : Thread nD τ).loc cc0_scratch3) ↦{fullShare} f)) ∗ reached ER (rxCell c) 0) := payload_bar0_at m (nbX c) c (nbX_nbX c)
theorem payload_toY (c : Dev nD) : (haloRd (F := F) m).payload (barCell (nbY c)) 0 1
    = iprop((∃ f, (((c : Thread nD τ).loc cc0_scratch4) ↦{fullShare} f)) ∗ reached ER (ryCell c) 0) := payload_bar1_at m (nbY c) c (nbY_nbY c)
theorem payload_toZ (c : Dev nD) : (haloRd (F := F) m).payload (barCell (nbZ c)) 0 2
    = iprop((∃ f, (((c : Thread nD τ).loc cc0_scratch5) ↦{fullShare} f)) ∗ reached ER (rzCell c) 0) := payload_bar2_at m (nbZ c) c (nbZ_nbZ c)

/-- A whole buffer held at full share, spelt through its view and through its location. -/
theorem held_view (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  rw [View.set_whole]

/-! ## The schedule's payloads with each buffer spelt through its view -/

abbrev vheld (c : Dev nD) (b : Ref sig .tc) (f : Buf (Elt F) ((c : Thread nD τ).loc b)) : sProp 𝕄 :=
  ((Memref.whole b).view.loc (c : Thread nD τ) ↦[(Memref.whole b).view.set]{fullShare} f)

theorem vpayload_toX (c : Dev nD) : (haloRd (F := F) m).payload (barCell (nbX c)) 0 0
    = iprop((∃ f, ((Memref.whole cc0_scratch3).view.loc (c : Thread nD τ) ↦[(Memref.whole cc0_scratch3).view.set]{fullShare} f)) ∗ reached ER (rxCell c) 0) := by rw [payload_toX]; simp only [View.set_whole]
theorem vpayload_toY (c : Dev nD) : (haloRd (F := F) m).payload (barCell (nbY c)) 0 1
    = iprop((∃ f, ((Memref.whole cc0_scratch4).view.loc (c : Thread nD τ) ↦[(Memref.whole cc0_scratch4).view.set]{fullShare} f)) ∗ reached ER (ryCell c) 0) := by rw [payload_toY]; simp only [View.set_whole]
theorem vpayload_toZ (c : Dev nD) : (haloRd (F := F) m).payload (barCell (nbZ c)) 0 2
    = iprop((∃ f, ((Memref.whole cc0_scratch5).view.loc (c : Thread nD τ) ↦[(Memref.whole cc0_scratch5).view.set]{fullShare} f)) ∗ reached ER (rzCell c) 0) := by rw [payload_toZ]; simp only [View.set_whole]

/-- A device's own barrier round: each neighbour's receive buffer for the shared axis. -/
theorem vpayload_bar0 (c : Dev nD) : (haloRd (F := F) m).payload (barCell c) 0 0
    = iprop((∃ f, ((Memref.whole cc0_scratch3).view.loc (nbX c : Thread nD τ) ↦[(Memref.whole cc0_scratch3).view.set]{fullShare} f)) ∗ reached ER (rxCell (nbX c)) 0) := by rw [payload_bar0]; simp only [View.set_whole]
theorem vpayload_bar1 (c : Dev nD) : (haloRd (F := F) m).payload (barCell c) 0 1
    = iprop((∃ f, ((Memref.whole cc0_scratch4).view.loc (nbY c : Thread nD τ) ↦[(Memref.whole cc0_scratch4).view.set]{fullShare} f)) ∗ reached ER (ryCell (nbY c)) 0) := by rw [payload_bar1]; simp only [View.set_whole]
theorem vpayload_bar2 (c : Dev nD) : (haloRd (F := F) m).payload (barCell c) 0 2
    = iprop((∃ f, ((Memref.whole cc0_scratch5).view.loc (nbZ c : Thread nD τ) ↦[(Memref.whole cc0_scratch5).view.set]{fullShare} f)) ∗ reached ER (rzCell (nbZ c)) 0) := by rw [payload_bar2]; simp only [View.set_whole]

/-- A send cell gives the plane back; a device's own receive cell gives the neighbour's plane. -/
theorem vpayload_sx (c : Dev nD) (d : Fin 3) : (haloRd (F := F) m).payload (sxCell c) 0 d = ((Memref.whole cc0_scratch0).view.loc (c : Thread nD τ) ↦[(Memref.whole cc0_scratch0).view.set]{fullShare} sentX m c) := by rw [payload_sx]; simp only [View.set_whole]
theorem vpayload_sy (c : Dev nD) (d : Fin 3) : (haloRd (F := F) m).payload (syCell c) 0 d = ((Memref.whole cc0_scratch1).view.loc (c : Thread nD τ) ↦[(Memref.whole cc0_scratch1).view.set]{fullShare} sentY m c) := by rw [payload_sy]; simp only [View.set_whole]
theorem vpayload_sz (c : Dev nD) (d : Fin 3) : (haloRd (F := F) m).payload (szCell c) 0 d = ((Memref.whole cc0_scratch2).view.loc (c : Thread nD τ) ↦[(Memref.whole cc0_scratch2).view.set]{fullShare} sentZ m c) := by rw [payload_sz]; simp only [View.set_whole]
theorem vpayload_rx (c : Dev nD) (d : Fin 3) : (haloRd (F := F) m).payload (rxCell c) 0 d = ((Memref.whole cc0_scratch3).view.loc (c : Thread nD τ) ↦[(Memref.whole cc0_scratch3).view.set]{fullShare} landX m c) := by rw [payload_rx]; simp only [View.set_whole]
theorem vpayload_ry (c : Dev nD) (d : Fin 3) : (haloRd (F := F) m).payload (ryCell c) 0 d = ((Memref.whole cc0_scratch4).view.loc (c : Thread nD τ) ↦[(Memref.whole cc0_scratch4).view.set]{fullShare} landY m c) := by rw [payload_ry]; simp only [View.set_whole]
theorem vpayload_rz (c : Dev nD) (d : Fin 3) : (haloRd (F := F) m).payload (rzCell c) 0 d = ((Memref.whole cc0_scratch5).view.loc (c : Thread nD τ) ↦[(Memref.whole cc0_scratch5).view.set]{fullShare} landZ m c) := by rw [payload_rz]; simp only [View.set_whole]

/-- What lands in a neighbour's receive buffer is the plane this device sends. -/
theorem landX_nb (c : Dev nD) : landX m (nbX c) = sentX m c := by unfold landX; rw [nbX_nbX]
theorem landY_nb (c : Dev nD) : landY m (nbY c) = sentY m c := by unfold landY; rw [nbY_nbY]
theorem landZ_nb (c : Dev nD) : landZ m (nbZ c) = sentZ m c := by unfold landZ; rw [nbZ_nbZ]
theorem vpayload_rx_to (c : Dev nD) (d : Fin 3) : (haloRd (F := F) m).payload (rxCell (nbX c)) 0 d = ((Memref.whole cc0_scratch3).view.loc (nbX c : Thread nD τ) ↦[(Memref.whole cc0_scratch3).view.set]{fullShare} sentX m c) := by rw [vpayload_rx, landX_nb]
theorem vpayload_ry_to (c : Dev nD) (d : Fin 3) : (haloRd (F := F) m).payload (ryCell (nbY c)) 0 d = ((Memref.whole cc0_scratch4).view.loc (nbY c : Thread nD τ) ↦[(Memref.whole cc0_scratch4).view.set]{fullShare} sentY m c) := by rw [vpayload_ry, landY_nb]
theorem vpayload_rz_to (c : Dev nD) (d : Fin 3) : (haloRd (F := F) m).payload (rzCell (nbZ c)) 0 d = ((Memref.whole cc0_scratch5).view.loc (nbZ c : Thread nD τ) ↦[(Memref.whole cc0_scratch5).view.set]{fullShare} sentZ m c) := by rw [vpayload_rz, landZ_nb]

/-- The barrier cell's three duties, listed. -/
theorem duties_bar_list (c : Dev nD) : (haloRd (F := F) m).duties (barCell c) 0 = {0, 1, 2} := by rw [duties_bar]; decide

omit [FloatOps F] in
/-- A chain of three, in the notation the proof mode destructs. -/
theorem sep3_eq (A B C : sProp 𝕄) : (BI.sep A (BI.sep B C) : sProp 𝕄) = iprop(A ∗ B ∗ C) := rfl

/-! ## One store through the whole rectangle leaves its payload; what a copy carries -/

theorem hzPl : (![0, 0] : Fin 2 → Nat) = fun _ => 0 := funext fun a => by fin_cases a <;> rfl

theorem writes_s0 (f : Plane F) (w : Plane F) : (Memref.whole cc0_scratch0 : Memref sig .tc .vmem S48x48 .bf16).view.writes (Elt F) f [⟨rPl, w⟩] = w := by
  have h := View.read_writes_eq_canon (Val := Elt F) (Memref.whole cc0_scratch0 : Memref sig .tc .vmem S48x48 .bf16).view f [⟨rPl, w⟩]
    (fun y => ⟨_, List.mem_singleton_self _, View.mem_set_unit_zero hzPl inb_S48x48_S48x48_0_0 y⟩)
  exact h.trans (View.canon_unit_zero (S := S48x48) hzPl inb_S48x48_S48x48_0_0 w)
theorem writes_s1 (f : Plane F) (w : Plane F) : (Memref.whole cc0_scratch1 : Memref sig .tc .vmem S48x48 .bf16).view.writes (Elt F) f [⟨rPl, w⟩] = w := by
  have h := View.read_writes_eq_canon (Val := Elt F) (Memref.whole cc0_scratch1 : Memref sig .tc .vmem S48x48 .bf16).view f [⟨rPl, w⟩]
    (fun y => ⟨_, List.mem_singleton_self _, View.mem_set_unit_zero hzPl inb_S48x48_S48x48_0_0 y⟩)
  exact h.trans (View.canon_unit_zero (S := S48x48) hzPl inb_S48x48_S48x48_0_0 w)
theorem writes_s2 (f : Plane F) (w : Plane F) : (Memref.whole cc0_scratch2 : Memref sig .tc .vmem S48x48 .bf16).view.writes (Elt F) f [⟨rPl, w⟩] = w := by
  have h := View.read_writes_eq_canon (Val := Elt F) (Memref.whole cc0_scratch2 : Memref sig .tc .vmem S48x48 .bf16).view f [⟨rPl, w⟩]
    (fun y => ⟨_, List.mem_singleton_self _, View.mem_set_unit_zero hzPl inb_S48x48_S48x48_0_0 y⟩)
  exact h.trans (View.canon_unit_zero (S := S48x48) hzPl inb_S48x48_S48x48_0_0 w)

/-- A send buffer after its one store holds the plane it sends. -/
theorem restate_s0 (c : Dev nD) (f w : Plane F) (hw : w = sentX m c) :
    (((Memref.whole cc0_scratch0 : Memref sig .tc .vmem S48x48 .bf16).view.loc (c : Thread nD τ) ↦[(Memref.whole cc0_scratch0 : Memref sig .tc .vmem S48x48 .bf16).view.set]{fullShare} (Memref.whole cc0_scratch0 : Memref sig .tc .vmem S48x48 .bf16).view.writes (Elt F) f [⟨rPl, w⟩] : sProp 𝕄))
      ⊢ ((Memref.whole cc0_scratch0 : Memref sig .tc .vmem S48x48 .bf16).view.loc (c : Thread nD τ) ↦[(Memref.whole cc0_scratch0 : Memref sig .tc .vmem S48x48 .bf16).view.set]{fullShare} sentX m c) := by subst hw; rw [writes_s0]
theorem restate_s1 (c : Dev nD) (f w : Plane F) (hw : w = sentY m c) :
    (((Memref.whole cc0_scratch1 : Memref sig .tc .vmem S48x48 .bf16).view.loc (c : Thread nD τ) ↦[(Memref.whole cc0_scratch1 : Memref sig .tc .vmem S48x48 .bf16).view.set]{fullShare} (Memref.whole cc0_scratch1 : Memref sig .tc .vmem S48x48 .bf16).view.writes (Elt F) f [⟨rPl, w⟩] : sProp 𝕄))
      ⊢ ((Memref.whole cc0_scratch1 : Memref sig .tc .vmem S48x48 .bf16).view.loc (c : Thread nD τ) ↦[(Memref.whole cc0_scratch1 : Memref sig .tc .vmem S48x48 .bf16).view.set]{fullShare} sentY m c) := by subst hw; rw [writes_s1]
theorem restate_s2 (c : Dev nD) (f w : Plane F) (hw : w = sentZ m c) :
    (((Memref.whole cc0_scratch2 : Memref sig .tc .vmem S48x48 .bf16).view.loc (c : Thread nD τ) ↦[(Memref.whole cc0_scratch2 : Memref sig .tc .vmem S48x48 .bf16).view.set]{fullShare} (Memref.whole cc0_scratch2 : Memref sig .tc .vmem S48x48 .bf16).view.writes (Elt F) f [⟨rPl, w⟩] : sProp 𝕄))
      ⊢ ((Memref.whole cc0_scratch2 : Memref sig .tc .vmem S48x48 .bf16).view.loc (c : Thread nD τ) ↦[(Memref.whole cc0_scratch2 : Memref sig .tc .vmem S48x48 .bf16).view.set]{fullShare} sentZ m c) := by subst hw; rw [writes_s2]

/-! ## What the result buffer holds after the body's two stores -/

theorem hz3 : (![0, 0, 0] : Fin 3 → Nat) = fun _ => 0 := funext fun a => by fin_cases a <;> rfl

/-- The result buffer after one store of `w` through its whole rectangle holds `w`. -/
theorem writes_out (f : OBlk F) (w : OBlk F) : (oM : Memref sig .tc .vmem S48x48x48 .bf16).view.writes (Elt F) f [⟨rAll, w⟩] = w := by
  have h := View.read_writes_eq_canon (Val := Elt F) (oM : Memref sig .tc .vmem S48x48x48 .bf16).view f [⟨rAll, w⟩]
    (fun y => ⟨_, List.mem_singleton_self _, View.mem_set_unit_zero hz3 inb_S48x48x48_S48x48x48_0_0_0 y⟩)
  exact h.trans (View.canon_unit_zero (S := S48x48x48) hz3 inb_S48x48x48_S48x48x48_0_0_0 w)

/-- The body's two stores into the result buffer — the first version whole, then the facing x plane rewritten from what
    is read back — leave `outFinal`: the loads through whole rectangles read the buffers' contents. -/
theorem out_contents_eq (c : Dev nD) (u : UBlk F) (rx ry rz : Plane F) (f : OBlk F) :
    (oM : Memref sig .tc .vmem S48x48x48 .bf16).view.writes (Elt F) f
      [⟨rOff c, k0_pay15 (offEdge c) (rxM.view.readAt (Elt F) rPl.toLoadRect rx)
          (oM.view.readAt (Elt F) (rOff c).toLoadRect ((oM : Memref sig .tc .vmem S48x48x48 .bf16).view.writes (Elt F) f
            [⟨rAll, k0_pay14 (k0_pay7 (wz c)) (onBoundary c)
              (k0_pay13 (k0_pay5 (k0_pay4 (uM.view.readAt (Elt F) rAll.toLoadRect u)) (FloatOps.ofBits .bf16 0#16)) (k0_pay6 (wy c))
                (ryM.view.readAt (Elt F) rPl.toLoadRect ry))
              (rzM.view.readAt (Elt F) rPl.toLoadRect rz)⟩]))⟩,
       ⟨rAll, k0_pay14 (k0_pay7 (wz c)) (onBoundary c)
          (k0_pay13 (k0_pay5 (k0_pay4 (uM.view.readAt (Elt F) rAll.toLoadRect u)) (FloatOps.ofBits .bf16 0#16)) (k0_pay6 (wy c))
            (ryM.view.readAt (Elt F) rPl.toLoadRect ry))
          (rzM.view.readAt (Elt F) rPl.toLoadRect rz)⟩]
      = outFinal c u rx ry rz := by
  have hu : uM.view.readAt (Elt F) rAll.toLoadRect u = u := Memref.readAt_unit_zero (Elt F) cc0_stg0_0 hz3 inb_S48x48x48_S48x48x48_0_0_0 u
  have hrx : rxM.view.readAt (Elt F) rPl.toLoadRect rx = rx := Memref.readAt_unit_zero (Elt F) cc0_scratch3 hzPl inb_S48x48_S48x48_0_0 rx
  have hry : ryM.view.readAt (Elt F) rPl.toLoadRect ry = ry := Memref.readAt_unit_zero (Elt F) cc0_scratch4 hzPl inb_S48x48_S48x48_0_0 ry
  have hrz : rzM.view.readAt (Elt F) rPl.toLoadRect rz = rz := Memref.readAt_unit_zero (Elt F) cc0_scratch5 hzPl inb_S48x48_S48x48_0_0 rz
  rw [hu, hrx, hry, hrz, View.writes_cons, writes_out]
  rfl

section Body

variable (K : Dev nD × Fin 7 → ℕ)

attribute [local sl_rounds] duties_bar_list duties_sx duties_sy duties_sz duties_rx duties_ry duties_rz amount_bar amount_dma
  expect_bar expect_sx expect_sy expect_sz expect_rx expect_ry expect_rz
  vpayload_bar0 vpayload_bar1 vpayload_bar2 vpayload_rx vpayload_ry vpayload_rz vpayload_sx vpayload_sy vpayload_sz

attribute [local sl_rounds 2000] vpayload_toX vpayload_toY vpayload_toZ vpayload_rx_to vpayload_ry_to vpayload_rz_to

attribute [local sl_canon] dev1_eq dev2_eq dev3_eq dev4_eq dev5_eq dev6_eq
attribute [local irreducible] nbX nbY nbZ

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _) cc0_scratch6 cc0_scratch7) Kt := by
  unfold bodyPre ghost invs positions marks payToks credits planes
  iintro ⟨⟨⟨⟨⟨#HIbar, #HIsx, #HIsy, #HIsz, #HIrx, #HIry, #HIrz, #HIbX, #HIbY, #HIbZ, #HIrX, #HIrY, #HIrZ⟩,
      ⟨HaB, HaSx, HaSy, HaSz, HaRx, HaRy, HaRz⟩,
      ⟨#HrBX, #HrBY, #HrBZ, #HrRX, #HrRY, #HrRZ, #HrSx, #HrSy, #HrSz, #HrRx, #HrRy, #HrRz⟩,
      ⟨HtBX, HtBY, HtBZ, HtRX, HtRY, HtRZ, HtSx, HtSy, HtSz⟩⟩,
      ⟨HcB, HcRx, HcRy, HcRz⟩, #Hlev,
      ⟨⟨%f0, Hs0⟩, ⟨%f1, Hs1⟩, ⟨%f2, Hs2⟩, ⟨%f3, Hr3⟩, ⟨%f4, Hr4⟩, ⟨%f5, Hr5⟩⟩⟩,
    Ho, ⟨%d0, %g0, %hg0, Hx⟩, ⟨%d1, %g1, %hg1, Hout⟩⟩, Hk⟩
  have hx : g0 = ublk m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  unfold O₀ Orecv
  ihave Bs0 := (Entails.of_eq (held_view c cc0_scratch0 f0).symm) $$ Hs0
  ihave Bs1 := (Entails.of_eq (held_view c cc0_scratch1 f1).symm) $$ Hs1
  ihave Bs2 := (Entails.of_eq (held_view c cc0_scratch2 f2).symm) $$ Hs2
  ihave Br3 := (Entails.of_eq (held_view c cc0_scratch3 f3).symm) $$ Hr3
  ihave Br4 := (Entails.of_eq (held_view c cc0_scratch4 f4).symm) $$ Hr4
  ihave Br5 := (Entails.of_eq (held_view c cc0_scratch5 f5).symm) $$ Hr5
  ihave Bx := (Entails.of_eq (held_view c cc0_stg0_0 (ublk m c)).symm) $$ Hx
  ihave Bout := (Entails.of_eq (held_view c cc0_stg1_0 g1).symm) $$ Hout
  have hmwBar : (levAts L lv : sProp 𝕄) ⊢ MayWait (c : Thread nD τ) (.reg barS) ()
      (tallyAt (rxCell (nbX c)) () N + tallyAt (ryCell (nbY c)) () N + tallyAt (rzCell (nbZ c)) () N) := mayWait_bar (F := F) c
  sl_unfold [cc0_body]
  sl_exec (disch := simp only [dev4_eq, dev5_eq, dev6_eq])
  ihave Hnb := (Entails.of_eq (sep3_eq _ _ _)) $$ HaB_pay1
  icases Hnb with ⟨⟨⟨%fX, HdX⟩, #HrX'⟩, ⟨⟨%fY, HdY⟩, #HrY'⟩, ⟨%fZ, HdZ⟩, #HrZ'⟩
  ihave Cs0 := (restate_s0 m c f0 (k0_pay1 (sound_body.sl.v2 c) 0#32 (uM.view.readAt (Elt F) rX47.toLoadRect (ublk m c)) (uM.view.readAt (Elt F) rX0.toLoadRect (ublk m c))) rfl) $$ Bs0
  ihave Cs1 := (restate_s1 m c f1 (k0_pay2 (sound_body.sl.v5 c) (uM.view.readAt (Elt F) rY47.toLoadRect (ublk m c)) (uM.view.readAt (Elt F) rY0.toLoadRect (ublk m c))) rfl) $$ Bs1
  ihave Cs2 := (restate_s2 m c f2 (k0_pay3 (sound_body.sl.v8 c) (uM.view.readAt (Elt F) rZ47.toLoadRect (ublk m c)) (uM.view.readAt (Elt F) rZ0.toLoadRect (ublk m c))) rfl) $$ Bs2
  sl_exec (disch := simp only [dev4_eq, dev5_eq, dev6_eq])
  -- the six transfer cells close: their counters at zero are the device's again
  imod (Rounds.cell_close ER (haloRd m) (Set.mem_univ (K (c, 1))) (fun h => h) (R := 0 + 1) (duties_later m (sxCell c))) $$ [HaSx] with HzSx
  · isplitr; · iexact HIsx
    iexact HaSx
  imod (Rounds.cell_close ER (haloRd m) (Set.mem_univ (K (c, 2))) (fun h => h) (R := 0 + 1) (duties_later m (syCell c))) $$ [HaSy] with HzSy
  · isplitr; · iexact HIsy
    iexact HaSy
  imod (Rounds.cell_close ER (haloRd m) (Set.mem_univ (K (c, 3))) (fun h => h) (R := 0 + 1) (duties_later m (szCell c))) $$ [HaSz] with HzSz
  · isplitr; · iexact HIsz
    iexact HaSz
  imod (Rounds.cell_close ER (haloRd m) (Set.mem_univ (K (c, 4))) (fun h => h) (R := 0 + 1) (duties_later m (rxCell c))) $$ [HaRx] with HzRx
  · isplitr; · iexact HIrx
    iexact HaRx
  imod (Rounds.cell_close ER (haloRd m) (Set.mem_univ (K (c, 5))) (fun h => h) (R := 0 + 1) (duties_later m (ryCell c))) $$ [HaRy] with HzRy
  · isplitr; · iexact HIry
    iexact HaRy
  imod (Rounds.cell_close ER (haloRd m) (Set.mem_univ (K (c, 6))) (fun h => h) (R := 0 + 1) (duties_later m (rzCell c))) $$ [HaRz] with HzRz
  · isplitr; · iexact HIrz
    iexact HaRz
  -- the buffers, spelt through their locations again
  ihave P0 := (Entails.of_eq (held_view c cc0_scratch0 (sentX m c))) $$ HaSx_pay1
  ihave P1 := (Entails.of_eq (held_view c cc0_scratch1 (sentY m c))) $$ HaSy_pay1
  ihave P2 := (Entails.of_eq (held_view c cc0_scratch2 (sentZ m c))) $$ HaSz_pay1
  ihave P3 := (Entails.of_eq (held_view c cc0_scratch3 (landX m c))) $$ HaRx_pay1
  ihave P4 := (Entails.of_eq (held_view c cc0_scratch4 (landY m c))) $$ HaRy_pay1
  ihave P5 := (Entails.of_eq (held_view c cc0_scratch5 (landZ m c))) $$ HaRz_pay1
  ihave Px := (Entails.of_eq (held_view c cc0_stg0_0 (ublk m c))) $$ Bx
  ihave Po := (Entails.of_eq (held_view c cc0_stg1_0 _)) $$ Bout
  rw [wp_ret]; imodintro
  iapply Hk
  unfold bodyPost Φ₁ planes zeros Dat.owesAt Pipeline.owesWithin
  rw [show (dats m ρ 0 c).owed t₀.succ = 0 from rfl]
  isplitl [P0 P1 P2 P3 P4 P5 HzSx HzSy HzSz HzRx HzRy HzRz]
  · isplitl [P0 P1 P2 P3 P4 P5]
    · isplitl [P0]; · iexists _; iexact P0
      isplitl [P1]; · iexists _; iexact P1
      isplitl [P2]; · iexists _; iexact P2
      isplitl [P3]; · iexists _; iexact P3
      isplitl [P4]; · iexists _; iexact P4
      iexists _; iexact P5
    · isplitl [HzSx]; · iexact HzSx
      isplitl [HzSy]; · iexact HzSy
      isplitl [HzSz]; · iexact HzSz
      isplitl [HzRx]; · iexact HzRx
      isplitl [HzRy]; · iexact HzRy
      iexact HzRz
  isplitl [HO]
  · iexists _
    isplitr
    rotate_left
    · iexact HO
    · ipureintro; exact fun _ _ => Or.inl trivial
  isplitl [Px]
  · iexists _; isplitr; · (ipureintro; rfl)
    iexact Px
  iexists _
  isplitr
  rotate_left
  · iexact Po
  · ipureintro
    exact out_contents_eq c (ublk m c) (landX m c) (landY m c) (landZ m c) _

omit [FloatOps F] in
/-- A whole staging buffer as the pipeline states it, opened. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the one point, before the ghost names are opened. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _) cc0_scratch6 cc0_scratch7)
    (fun _ => bodyPost m ρ c)
  unfold bodyPre' Φ₀ start
  iintro ⟨⟨⟨⟨%K, Hg⟩, Hcr, Hlev⟩, Hpl⟩, Ho, Hx, Hout⟩
  iapply (sound_body m ρ K c fun _ => bodyPost m ρ c)
  unfold bodyPre
  isplitr []
  · isplitl [Hg Hcr Hlev Hpl]
    · isplitl [Hg]; · iexact Hg
      isplitl [Hcr]; · iexact Hcr
      isplitl [Hlev]; · iexact Hlev
      iexact Hpl
    isplitl [Ho]; · iexact Ho
    isplitl [Hx] <;> iassumption
  · iintro H; iexact H

/-- info: 'Cert.Kernel.Halo.body_obligation' depends on axioms: [propext, Classical.choice, Quot.sound] -/
#guard_msgs in #print axioms body_obligation

end Body

end Cert.Kernel.Halo

end
-- ==== Proof.Bits.Launch.lean ====
/-
  The launch of the halo exchange on the mesh of eight devices: from the proof of one device's body to the run of the
  whole program, and the final contents of the arrays.

  The launch element pays for every cell's ghost state: per device its seven cells at round 0, its positions, and the
  duty tokens of its own cells. One update, taken over all devices at once because a barrier cell is touched by four
  devices, allocates the cells' invariants from the semaphore counters at zero; the duty tokens then travel to the
  devices that pay them: the token of a barrier cell's duty `a`, and the token of the receive cell of axis `a`, go to
  the neighbour across axis `a` (each neighbour map is an involution of the mesh, so this is a reindexing of the
  product over the devices). The credit dealt at launch is, per device, three units on its barrier cell (one from each
  neighbour) and a plane's credit on each receive cell (from the neighbour across that axis).
-/
import proofs.«900535_g7700000000000536_dist_halo3d_v7x_xyz2x2x2_s48_bf16_1_alg».proof.Proof.Bits.Body
import proofs.«900535_g7700000000000536_dist_halo3d_v7x_xyz2x2x2_s48_bf16_1_alg».proof.Proof.Gen.Kernel.Points

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens, enumerated -/

theorem csem_injective : Function.Injective csem := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every cell of the exchange: seven a device. -/
def haloCells : Finset (GSem nD τ sig) := Finset.univ.map ⟨kcell, kcell_injective⟩

/-- A device's nine duty tokens: which of its cells (the barrier cell three times, then the receive cells, then the send
    cells) and which duty. -/
abbrev tcell : Fin 9 → Fin 7 := ![0, 0, 0, 4, 5, 6, 1, 2, 3]
abbrev tduty : Fin 9 → Fin 3 := ![0, 1, 2, 0, 0, 0, 0, 0, 0]
abbrev tokOf (cj : Dev nD × Fin 9) : GSem nD τ sig × ℕ × Fin 3 := (kcell (cj.1, tcell cj.2), 0, tduty cj.2)

theorem tokOf_injective : Function.Injective (tokOf : Dev nD × Fin 9 → GSem nD τ sig × ℕ × Fin 3) := by
  rintro ⟨c, j⟩ ⟨c', j'⟩ h
  have h1 : (c, tcell j) = (c', tcell j') := kcell_injective (congrArg (fun x : GSem nD τ sig × ℕ × Fin 3 => x.1) h)
  have h2 : tduty j = tduty j' := congrArg (fun x : GSem nD τ sig × ℕ × Fin 3 => x.2.2) h
  have hc : c = c' := (Prod.mk.inj h1).1
  have hk : tcell j = tcell j' := (Prod.mk.inj h1).2
  subst hc
  have key : ∀ a b : Fin 9, tcell a = tcell b → tduty a = tduty b → a = b := by decide
  have : j = j' := key j j' hk h2
  subst this; rfl

def haloToks : Finset (GSem nD τ sig × ℕ × Fin 3) := Finset.univ.map ⟨tokOf, tokOf_injective⟩

/-- The launch element: the pipeline's cells and tokens, and the exchange's. -/
def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (rxCell c) 0 0 ∗ dutyTok ER (ryCell c) 0 0 ∗ dutyTok ER (rzCell c) 0 0
    ∗ dutyTok ER (sxCell c) 0 0 ∗ dutyTok ER (syCell c) 0 0 ∗ dutyTok ER (szCell c) 0 0)

/-- What the launch element deals device `c`. -/
def G (c : Dev nD) : sProp 𝕄 :=
  iprop((bigSep Finset.univ fun k : Fin 7 => roundState ER (haloRd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants, allocated from the counters at zero -/

omit [FloatOps F] in
/-- The six transfer semaphores are the kernel's own; -/
theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold zeros
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The regrouping: every device gets the invariants it opens and the tokens it pays with -/

/-- All the invariants, under the names `K` they were allocated at, and every cell's first round reached. -/
def records (K : Dev nD × Fin 7 → ℕ) : sProp 𝕄 :=
  iprop((bigSep Finset.univ fun ck : Dev nD × Fin 7 => cellInv ER (haloRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem invs_intro (K : Dev nD × Fin 7 → ℕ) (c : Dev nD) : records m K ⊢ invs m K c := by
  unfold records invs
  iintro ⟨#HI, -⟩
  isplitr; · iapply (inv_at m K (c, 0)); iexact HI
  isplitr; · iapply (inv_at m K (c, 1)); iexact HI
  isplitr; · iapply (inv_at m K (c, 2)); iexact HI
  isplitr; · iapply (inv_at m K (c, 3)); iexact HI
  isplitr; · iapply (inv_at m K (c, 4)); iexact HI
  isplitr; · iapply (inv_at m K (c, 5)); iexact HI
  isplitr; · iapply (inv_at m K (c, 6)); iexact HI
  isplitr; · iapply (inv_at m K (nbX c, 0)); iexact HI
  isplitr; · iapply (inv_at m K (nbY c, 0)); iexact HI
  isplitr; · iapply (inv_at m K (nbZ c, 0)); iexact HI
  isplitr; · iapply (inv_at m K (nbX c, 4)); iexact HI
  isplitr; · iapply (inv_at m K (nbY c, 5)); iexact HI
  iapply (inv_at m K (nbZ c, 6)); iexact HI

theorem marks_intro (K : Dev nD × Fin 7 → ℕ) (c : Dev nD) : records m K ⊢ marks c := by
  unfold records marks
  iintro ⟨-, #HR⟩
  isplitr; · iapply (reached_at (F := F) (nbX c, 0)); iexact HR
  isplitr; · iapply (reached_at (F := F) (nbY c, 0)); iexact HR
  isplitr; · iapply (reached_at (F := F) (nbZ c, 0)); iexact HR
  isplitr; · iapply (reached_at (F := F) (nbX c, 4)); iexact HR
  isplitr; · iapply (reached_at (F := F) (nbY c, 5)); iexact HR
  isplitr; · iapply (reached_at (F := F) (nbZ c, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  iapply (reached_at (F := F) (c, 6)); iexact HR

/-- What stays with device `c`: its positions, and the tokens of the duties IT pays. -/
def linear (c : Dev nD) : sProp 𝕄 := iprop(positions c ∗ payToks c)

theorem ghost_intro (K : Dev nD × Fin 7 → ℕ) (c : Dev nD) : iprop(records m K ∗ linear c) ⊢ G' m c := by
  unfold linear G' ghost
  iintro ⟨#HR, Hpos, Htok⟩
  iexists K
  isplitr; · iapply (invs_intro m K c); iexact HR
  isplitl [Hpos]; · iexact Hpos
  isplitr; · iapply (marks_intro m K c); iexact HR
  iexact Htok

/-- The three neighbour maps as permutations of the mesh. -/
def eX : Dev nD ≃ Dev nD := ⟨nbX, nbX, nbX_nbX, nbX_nbX⟩
def eY : Dev nD ≃ Dev nD := ⟨nbY, nbY, nbY_nbY, nbY_nbY⟩
def eZ : Dev nD ≃ Dev nD := ⟨nbZ, nbZ, nbZ_nbZ, nbZ_nbZ⟩

omit [FloatOps F] in
/-- The tokens dealt across the mesh: a barrier cell's token of duty `a`, and the token of the receive cell of axis `a`,
    to the neighbour across axis `a`; the send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv eX (fun c : Dev nD => (dutyTok ER (barCell c) 0 0 : sProp 𝕄)),
    bigSep_univ_equiv eY (fun c : Dev nD => (dutyTok ER (barCell c) 0 1 : sProp 𝕄)),
    bigSep_univ_equiv eZ (fun c : Dev nD => (dutyTok ER (barCell c) 0 2 : sProp 𝕄)),
    bigSep_univ_equiv eX (fun c : Dev nD => (dutyTok ER (rxCell c) 0 0 : sProp 𝕄)),
    bigSep_univ_equiv eY (fun c : Dev nD => (dutyTok ER (ryCell c) 0 0 : sProp 𝕄)),
    bigSep_univ_equiv eZ (fun c : Dev nD => (dutyTok ER (rzCell c) 0 0 : sProp 𝕄))]
  iintro H; iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (haloRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear positions; rw [bigSep_fin7] <;> rfl)))
    isplitl [Hat]; · iexact Hat
    iexact Htk

/-- The global step: the own AND the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at launch, summand by summand. -/
theorem O₀_eq : (O₀ : Dev nD → CellTallies nD τ sig Unit) = fun d =>
    tallyAt (rxCell (nbX d)) () N + tallyAt (ryCell (nbY d)) () N + tallyAt (rzCell (nbZ d)) () N
      + tallyAt (barCell (nbZ d)) () 1 + tallyAt (barCell (nbY d)) () 1 + tallyAt (barCell (nbX d)) () 1 := rfl

omit [FloatOps F] in
/-- Each neighbour map being an involution, the unit (or the plane's credit) every device owes its neighbour across an
    axis arrives, at launch, as that much credit on the device's own cell: three units on its barrier cell, a plane's
    credit on each receive cell. -/
theorem creds (c : Dev nD) : (Pipeline.launchCred O₀ c : sProp 𝕄) ⊢ credits c := by
  rw [O₀_eq, Pipeline.launchCred_add, Pipeline.launchCred_add, Pipeline.launchCred_add, Pipeline.launchCred_add, Pipeline.launchCred_add]
  iintro ⟨⟨⟨⟨⟨Hrx, Hry⟩, Hrz⟩, HbZ⟩, HbY⟩, HbX⟩
  ihave Hrx' := (Pipeline.launchCred_tallyAt (SemLoc.dma rSx) nbX nbX nbX_nbX nbX_nbX () N c) $$ Hrx
  ihave Hry' := (Pipeline.launchCred_tallyAt (SemLoc.dma rSy) nbY nbY nbY_nbY nbY_nbY () N c) $$ Hry
  ihave Hrz' := (Pipeline.launchCred_tallyAt (SemLoc.dma rSz) nbZ nbZ nbZ_nbZ nbZ_nbZ () N c) $$ Hrz
  ihave HbX' := (Pipeline.launchCred_tallyAt (SemLoc.reg barS) nbX nbX nbX_nbX nbX_nbX () 1 c) $$ HbX
  ihave HbY' := (Pipeline.launchCred_tallyAt (SemLoc.reg barS) nbY nbY nbY_nbY nbY_nbY () 1 c) $$ HbY
  ihave HbZ' := (Pipeline.launchCred_tallyAt (SemLoc.reg barS) nbZ nbZ nbZ_nbZ nbZ_nbZ () 1 c) $$ HbZ
  unfold credits
  isplitl [HbX' HbY' HbZ']
  · rw [show (tallyAt (barCell c) () 3 : CellTallies nD τ sig Unit) = tallyAt (barCell c) () 1 + tallyAt (barCell c) () 1 + tallyAt (barCell c) () 1 from by
      rw [tallyAt_add, tallyAt_add]]
    iapply (cred_add _ _).2
    isplitl [HbX' HbY']
    · iapply (cred_add _ _).2
      isplitl [HbX'] <;> iassumption
    · iexact HbZ'
  isplitl [Hrx']; · iexact Hrx'
  isplitl [Hry']; · iexact Hry'
  iexact Hrz'

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

/-- What a device's body starts from, out of what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Before the one point: that and the six plane buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ planes
  iintro ⟨Hs, -, Hr⟩
  isplitl [Hs]; · iexact Hs
  iexact Hr

/-- After it: the six plane buffers and the six transfer semaphores, handed back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = (Φ₁ c : sProp 𝕄) from rfl, scopedRest0_eq, ownSems0_eq]
  unfold Φ₁ planes
  iintro ⟨Hr, Hz⟩
  isplitr; · iempintro
  isplitl [Hz]; · iexact Hz
  iexact Hr

/-- The staging transfers' waits: their cells are no receive cell, so they lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- The arrays after the run, as the proof data computes them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of eight devices, for any float values, from any memory with every semaphore counter at zero: every
    weakly fair execution of the program — the eight kernels meeting on the barrier semaphore, then exchanging their
    facing planes with their three neighbours — terminates, and every final state has each device's arrays at the
    contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is never written back: it ends as it was launched. -/
theorem finalA_in (c : Dev nD) : finalA m ρ c (0 : Fin 2) = m ((c : Thread nD τ).loc main_arg0) :=
  (dats (F := F) m ρ 0 c).arrAt_in (0 : Fin 2) rfl _

/-- The result window's one block is the whole array, written back at the one point: the array ends holding the
    block the body left. -/
theorem finalA_out (c : Dev nD) : finalA m ρ c (1 : Fin 2) = outAt m c := by
  have h := (dats (F := F) m ρ 0 c).arrAt_succ (1 : Fin 2) t₀
  rw [flush0_1 t₀, if_pos rfl] at h
  unfold finalA
  refine (congrArg ((dats (F := F) m ρ 0 c).arrAt (1 : Fin 2)) cfg0_N).trans (h.trans ?_)
  exact Memref.write_access_unit_zero_univ (Elt F) main_v1 (funext fun a => Nat.zero_mul _) _ _ _

/-- The run, with the values named: every device's result array ends as the block `outAt` computes from its own block
    and its three neighbours' facing planes, and its argument array as launched. -/
theorem run_values : θ_run defs (onTc (τ := τ) (main (F := F))) ⟨m, fun _ => 0, ρ⟩ (fun r => ∀ c : Dev nD,
      r.2.mem ((c.tc : Thread nD τ).loc main_v1) = outAt m c ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_in m ρ c)⟩) (run_main m ρ)

/-! ## What the launch's own steps rest on -/

/-- info: 'Cert.Kernel.Halo.glob' depends on axioms: [propext, Classical.choice, Quot.sound] -/
#guard_msgs in #print axioms glob

/-- info: 'Cert.Kernel.Halo.start_intro' depends on axioms: [propext, Classical.choice, Quot.sound] -/
#guard_msgs in #print axioms start_intro

/-- info: 'Cert.Kernel.Halo.finalA_out' depends on axioms: [propext, Classical.choice, Quot.sound] -/
#guard_msgs in #print axioms finalA_out

/-- info: 'Cert.Kernel.Halo.run_values' depends on axioms: [propext, Classical.choice, Quot.sound] -/
#guard_msgs in #print axioms run_values

end Cert.Kernel.Halo

end
-- ==== Proof.Spec.lean ====
/-
  The stencil this certificate is about, as ONE function of the whole 96 x 96 x 96 array, index by index.

  At an interior point (every coordinate between 1 and 94) the result is the sum of the six axis neighbours
  minus six times the centre; on the boundary of the cube (some coordinate 0 or 95) it is zero. The array is
  read at natural-number coordinates through `at3`, which is zero outside the cube, so that a neighbour's
  coordinate can be written `x - 1` or `x + 1` without a side condition; at an interior point all six
  neighbours are inside the cube. The sum is grouped as the one-device program groups it:
  `(((((u[x-1] + u[x+1]) + u[y-1]) + u[y+1]) + u[z-1]) + u[z+1]) - 6 * u`.
-/
import Idealize.ShloMosaic.PureOps.Ideal
import Idealize.ShloMosaic.Lib.ValueIdx

noncomputable section

namespace Cert.HaloSpec

open Idealize.ShloMosaic

/-- The whole array's shape. -/
abbrev W : Shape := ⟨3, ![96, 96, 96]⟩
/-- One device's block: the cube is cut in two along each axis. -/
abbrev B : Shape := ⟨3, ![48, 48, 48]⟩

/-- The whole array at natural coordinates; zero outside the cube. -/
def at3 (u : W.Idx → EReal) (x y z : ℕ) : EReal :=
  if h : x < 96 ∧ y < 96 ∧ z < 96 then u (ValueIdx.ix3 (⟨x, h.1⟩ : Fin 96) (⟨y, h.2.1⟩ : Fin 96) (⟨z, h.2.2⟩ : Fin 96)) else 0

/-- A point all of whose six axis neighbours are inside the cube. -/
def Interior (x y z : ℕ) : Prop := 1 ≤ x ∧ x ≤ 94 ∧ 1 ≤ y ∧ y ≤ 94 ∧ 1 ≤ z ∧ z ≤ 94

instance (x y z : ℕ) : Decidable (Interior x y z) := by unfold Interior; infer_instance

/-- The seven-point Laplacian at natural coordinates. -/
def lap (u : W.Idx → EReal) (x y z : ℕ) : EReal :=
  at3 u (x - 1) y z + at3 u (x + 1) y z + at3 u x (y - 1) z + at3 u x (y + 1) z + at3 u x y (z - 1) + at3 u x y (z + 1)
    - 6 * at3 u x y z

/-- The result array: the Laplacian at interior points, zero on the cube's boundary. -/
def G (u : W.Idx → EReal) : W.Idx → EReal := fun i =>
  if Interior (i 0).val (i 1).val (i 2).val then lap u (i 0).val (i 1).val (i 2).val else 0

/-- Every entry of the array is a real number (neither infinity). -/
def Finite (u : W.Idx → EReal) : Prop := ∀ i, ∃ r : ℝ, u i = (r : EReal)

end Cert.HaloSpec

end
-- ==== Proof.KValueA.lean ====
/-
  The Laplacian of one block, with zeros beyond the block's own faces, read at a point.

  The value `core u` is a sum of six shifted copies of the block `u` less six times `u`. Each shifted copy is a
  concatenation, along one axis, of a slice of `u` that leaves out one face plane with one plane of zeros: read at
  the point (i, j, k) it is the neighbour of (i, j, k) along that axis when the neighbour lies inside the block, and
  zero when it lies beyond the face. The six lemmas `up0_at` … `down2_at` say this for one copy each, for any block
  `v` and any filling value `z`; `core_at` adds them up in the order the sum is grouped, with the two constants
  read as the extended reals 0 and 6.
-/
import proofs.«900535_g7700000000000536_dist_halo3d_v7x_xyz2x2x2_s48_bf16_1_alg».proof.Proof.Contents
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.HaloValue

open Cert.KernelIdeal Cert.KernelIdeal.Gen Cert.KernelIdeal.Halo
open Idealize.ShloMosaic Idealize.ShloMosaic.ValueIdx

/-- The pattern 0x40C0 of the 16-bit format denotes six: sign 0, exponent 129, fraction 64, so
    (128 + 64) · 2 ^ (129 - 127 - 7) = 192 / 32. -/
theorem six_eq : (Scalar.ofBits (F := Ideal) .bf16 0x40C0#16 : Ideal .bf16) = (6 : EReal) := by
  show Ideal.ofBits .bf16 0x40C0#16 = 6
  simp [Ideal.ofBits, Ideal.ieee, -EReal.coe_mul]; norm_num; rfl

/-- The all-zero pattern denotes zero. -/
theorem zero_eq : (Scalar.ofBits (F := Ideal) .bf16 0x0000#16 : Ideal .bf16) = (0 : EReal) := Ideal.ofBits_zero_bf16

/-- The copy shifted towards lower first coordinates: at (i, j, k) it reads (i + 1, j, k), or the filling value on
    the last plane. -/
theorem up0_at (v : S48x48x48.Idx → EReal) (z : EReal) (i j k : Fin 48) :
    concatenate S48x48x48 0 [⟨S47x48x48, extractStridedSlice S47x48x48 ![1, 0, 0] v slices_S48x48x48_o1_0_0_S47x48x48⟩,
        ⟨S1x48x48, broadcast S1x48x48 z⟩] concatenates_S47x48x48_S1x48x48_S48x48x48_d0 (ix3 i j k)
      = (if h : i.val + 1 < 48 then v (ix3 (⟨i.val + 1, h⟩ : Fin 48) j k) else z) := by
  by_cases h : i.val + 1 < 48
  · rw [dif_pos h]
    refine (concatenate_pair_apply_left (t := S48x48x48) (s₁ := S47x48x48) (s₂ := S1x48x48) 0 _ _
      concatenates_S47x48x48_S1x48x48_S48x48x48_d0 (ix3 i j k) rfl
      (ix3 (⟨i.val, by omega⟩ : Fin 47) j k) (fun b => ?_)).trans ?_
    · match b with
      | ⟨0, _⟩ => rfl
      | ⟨1, _⟩ => rfl
      | ⟨2, _⟩ => rfl
    · refine extractStridedSlice_apply _ v _ _ _ (fun a => ?_)
      match a with
      | ⟨0, _⟩ => show i.val + 1 = 1 + i.val; omega
      | ⟨1, _⟩ => show j.val = 0 + j.val; omega
      | ⟨2, _⟩ => show k.val = 0 + k.val; omega
  · rw [dif_neg h]
    refine (concatenate_pair_apply_right (t := S48x48x48) (s₁ := S47x48x48) (s₂ := S1x48x48) 0 _ _
      concatenates_S47x48x48_S1x48x48_S48x48x48_d0 (ix3 i j k) rfl rfl
      (ix3 (0 : Fin 1) j k) (fun b hb => ?_) ?_).trans ?_
    · match b with
      | ⟨0, _⟩ => exact absurd rfl hb
      | ⟨1, _⟩ => rfl
      | ⟨2, _⟩ => rfl
    · show 0 + 47 = i.val; omega
    · rfl

/-- The copy shifted towards higher first coordinates: at (i, j, k) it reads (i - 1, j, k), or the filling value on
    the first plane. -/
theorem down0_at (v : S48x48x48.Idx → EReal) (z : EReal) (i j k : Fin 48) :
    concatenate S48x48x48 0 [⟨S1x48x48, broadcast S1x48x48 z⟩,
        ⟨S47x48x48, extractStridedSlice S47x48x48 ![0, 0, 0] v slices_S48x48x48_o0_0_0_S47x48x48⟩]
        concatenates_S1x48x48_S47x48x48_S48x48x48_d0 (ix3 i j k)
      = (if h : 0 < i.val then v (ix3 (⟨i.val - 1, by omega⟩ : Fin 48) j k) else z) := by
  by_cases h : 0 < i.val
  · rw [dif_pos h]
    refine (concatenate_pair_apply_right (t := S48x48x48) (s₁ := S1x48x48) (s₂ := S47x48x48) 0 _ _
      concatenates_S1x48x48_S47x48x48_S48x48x48_d0 (ix3 i j k) rfl rfl
      (ix3 (⟨i.val - 1, by omega⟩ : Fin 47) j k) (fun b hb => ?_) ?_).trans ?_
    · match b with
      | ⟨0, _⟩ => exact absurd rfl hb
      | ⟨1, _⟩ => rfl
      | ⟨2, _⟩ => rfl
    · show (i.val - 1) + 1 = i.val; omega
    · refine extractStridedSlice_apply _ v _ _ _ (fun a => ?_)
      match a with
      | ⟨0, _⟩ => show i.val - 1 = 0 + (i.val - 1); omega
      | ⟨1, _⟩ => show j.val = 0 + j.val; omega
      | ⟨2, _⟩ => show k.val = 0 + k.val; omega
  · rw [dif_neg h]
    refine (concatenate_pair_apply_left (t := S48x48x48) (s₁ := S1x48x48) (s₂ := S47x48x48) 0 _ _
      concatenates_S1x48x48_S47x48x48_S48x48x48_d0 (ix3 i j k) rfl
      (ix3 (0 : Fin 1) j k) (fun b => ?_)).trans ?_
    · match b with
      | ⟨0, _⟩ => show 0 = i.val; omega
      | ⟨1, _⟩ => rfl
      | ⟨2, _⟩ => rfl
    · rfl

/-- The copy shifted towards lower second coordinates: at (i, j, k) it reads (i, j + 1, k), or the filling value on
    the last plane. -/
theorem up1_at (v : S48x48x48.Idx → EReal) (z : EReal) (i j k : Fin 48) :
    concatenate S48x48x48 1 [⟨S48x47x48, extractStridedSlice S48x47x48 ![0, 1, 0] v slices_S48x48x48_o0_1_0_S48x47x48⟩,
        ⟨S48x1x48, broadcast S48x1x48 z⟩] concatenates_S48x47x48_S48x1x48_S48x48x48_d1 (ix3 i j k)
      = (if h : j.val + 1 < 48 then v (ix3 i (⟨j.val + 1, h⟩ : Fin 48) k) else z) := by
  by_cases h : j.val + 1 < 48
  · rw [dif_pos h]
    refine (concatenate_pair_apply_left (t := S48x48x48) (s₁ := S48x47x48) (s₂ := S48x1x48) 1 _ _
      concatenates_S48x47x48_S48x1x48_S48x48x48_d1 (ix3 i j k) rfl
      (ix3 i (⟨j.val, by omega⟩ : Fin 47) k) (fun b => ?_)).trans ?_
    · match b with
      | ⟨0, _⟩ => rfl
      | ⟨1, _⟩ => rfl
      | ⟨2, _⟩ => rfl
    · refine extractStridedSlice_apply _ v _ _ _ (fun a => ?_)
      match a with
      | ⟨0, _⟩ => show i.val = 0 + i.val; omega
      | ⟨1, _⟩ => show j.val + 1 = 1 + j.val; omega
      | ⟨2, _⟩ => show k.val = 0 + k.val; omega
  · rw [dif_neg h]
    refine (concatenate_pair_apply_right (t := S48x48x48) (s₁ := S48x47x48) (s₂ := S48x1x48) 1 _ _
      concatenates_S48x47x48_S48x1x48_S48x48x48_d1 (ix3 i j k) rfl rfl
      (ix3 i (0 : Fin 1) k) (fun b hb => ?_) ?_).trans ?_
    · match b with
      | ⟨0, _⟩ => rfl
      | ⟨1, _⟩ => exact absurd rfl hb
      | ⟨2, _⟩ => rfl
    · show 0 + 47 = j.val; omega
    · rfl

/-- The copy shifted towards higher second coordinates: at (i, j, k) it reads (i, j - 1, k), or the filling value on
    the first plane. -/
theorem down1_at (v : S48x48x48.Idx → EReal) (z : EReal) (i j k : Fin 48) :
    concatenate S48x48x48 1 [⟨S48x1x48, broadcast S48x1x48 z⟩,
        ⟨S48x47x48, extractStridedSlice S48x47x48 ![0, 0, 0] v slices_S48x48x48_o0_0_0_S48x47x48⟩]
        concatenates_S48x1x48_S48x47x48_S48x48x48_d1 (ix3 i j k)
      = (if h : 0 < j.val then v (ix3 i (⟨j.val - 1, by omega⟩ : Fin 48) k) else z) := by
  by_cases h : 0 < j.val
  · rw [dif_pos h]
    refine (concatenate_pair_apply_right (t := S48x48x48) (s₁ := S48x1x48) (s₂ := S48x47x48) 1 _ _
      concatenates_S48x1x48_S48x47x48_S48x48x48_d1 (ix3 i j k) rfl rfl
      (ix3 i (⟨j.val - 1, by omega⟩ : Fin 47) k) (fun b hb => ?_) ?_).trans ?_
    · match b with
      | ⟨0, _⟩ => rfl
      | ⟨1, _⟩ => exact absurd rfl hb
      | ⟨2, _⟩ => rfl
    · show (j.val - 1) + 1 = j.val; omega
    · refine extractStridedSlice_apply _ v _ _ _ (fun a => ?_)
      match a with
      | ⟨0, _⟩ => show i.val = 0 + i.val; omega
      | ⟨1, _⟩ => show j.val - 1 = 0 + (j.val - 1); omega
      | ⟨2, _⟩ => show k.val = 0 + k.val; omega
  · rw [dif_neg h]
    refine (concatenate_pair_apply_left (t := S48x48x48) (s₁ := S48x1x48) (s₂ := S48x47x48) 1 _ _
      concatenates_S48x1x48_S48x47x48_S48x48x48_d1 (ix3 i j k) rfl
      (ix3 i (0 : Fin 1) k) (fun b => ?_)).trans ?_
    · match b with
      | ⟨0, _⟩ => rfl
      | ⟨1, _⟩ => show 0 = j.val; omega
      | ⟨2, _⟩ => rfl
    · rfl

/-- The copy shifted towards lower third coordinates: at (i, j, k) it reads (i, j, k + 1), or the filling value on
    the last plane. -/
theorem up2_at (v : S48x48x48.Idx → EReal) (z : EReal) (i j k : Fin 48) :
    concatenate S48x48x48 2 [⟨S48x48x47, extractStridedSlice S48x48x47 ![0, 0, 1] v slices_S48x48x48_o0_0_1_S48x48x47⟩,
        ⟨S48x48x1, broadcast S48x48x1 z⟩] concatenates_S48x48x47_S48x48x1_S48x48x48_d2 (ix3 i j k)
      = (if h : k.val + 1 < 48 then v (ix3 i j (⟨k.val + 1, h⟩ : Fin 48)) else z) := by
  by_cases h : k.val + 1 < 48
  · rw [dif_pos h]
    refine (concatenate_pair_apply_left (t := S48x48x48) (s₁ := S48x48x47) (s₂ := S48x48x1) 2 _ _
      concatenates_S48x48x47_S48x48x1_S48x48x48_d2 (ix3 i j k) rfl
      (ix3 i j (⟨k.val, by omega⟩ : Fin 47)) (fun b => ?_)).trans ?_
    · match b with
      | ⟨0, _⟩ => rfl
      | ⟨1, _⟩ => rfl
      | ⟨2, _⟩ => rfl
    · refine extractStridedSlice_apply _ v _ _ _ (fun a => ?_)
      match a with
      | ⟨0, _⟩ => show i.val = 0 + i.val; omega
      | ⟨1, _⟩ => show j.val = 0 + j.val; omega
      | ⟨2, _⟩ => show k.val + 1 = 1 + k.val; omega
  · rw [dif_neg h]
    refine (concatenate_pair_apply_right (t := S48x48x48) (s₁ := S48x48x47) (s₂ := S48x48x1) 2 _ _
      concatenates_S48x48x47_S48x48x1_S48x48x48_d2 (ix3 i j k) rfl rfl
      (ix3 i j (0 : Fin 1)) (fun b hb => ?_) ?_).trans ?_
    · match b with
      | ⟨0, _⟩ => rfl
      | ⟨1, _⟩ => rfl
      | ⟨2, _⟩ => exact absurd rfl hb
    · show 0 + 47 = k.val; omega
    · rfl

/-- The copy shifted towards higher third coordinates: at (i, j, k) it reads (i, j, k - 1), or the filling value on
    the first plane. -/
theorem down2_at (v : S48x48x48.Idx → EReal) (z : EReal) (i j k : Fin 48) :
    concatenate S48x48x48 2 [⟨S48x48x1, broadcast S48x48x1 z⟩,
        ⟨S48x48x47, extractStridedSlice S48x48x47 ![0, 0, 0] v slices_S48x48x48_o0_0_0_S48x48x47⟩]
        concatenates_S48x48x1_S48x48x47_S48x48x48_d2 (ix3 i j k)
      = (if h : 0 < k.val then v (ix3 i j (⟨k.val - 1, by omega⟩ : Fin 48)) else z) := by
  by_cases h : 0 < k.val
  · rw [dif_pos h]
    refine (concatenate_pair_apply_right (t := S48x48x48) (s₁ := S48x48x1) (s₂ := S48x48x47) 2 _ _
      concatenates_S48x48x1_S48x48x47_S48x48x48_d2 (ix3 i j k) rfl rfl
      (ix3 i j (⟨k.val - 1, by omega⟩ : Fin 47)) (fun b hb => ?_) ?_).trans ?_
    · match b with
      | ⟨0, _⟩ => rfl
      | ⟨1, _⟩ => rfl
      | ⟨2, _⟩ => exact absurd rfl hb
    · show (k.val - 1) + 1 = k.val; omega
    · refine extractStridedSlice_apply _ v _ _ _ (fun a => ?_)
      match a with
      | ⟨0, _⟩ => show i.val = 0 + i.val; omega
      | ⟨1, _⟩ => show j.val = 0 + j.val; omega
      | ⟨2, _⟩ => show k.val - 1 = 0 + (k.val - 1); omega
  · rw [dif_neg h]
    refine (concatenate_pair_apply_left (t := S48x48x48) (s₁ := S48x48x1) (s₂ := S48x48x47) 2 _ _
      concatenates_S48x48x1_S48x48x47_S48x48x48_d2 (ix3 i j k) rfl
      (ix3 i j (0 : Fin 1)) (fun b => ?_)).trans ?_
    · match b with
      | ⟨0, _⟩ => rfl
      | ⟨1, _⟩ => rfl
      | ⟨2, _⟩ => show 0 = k.val; omega
    · rfl

/-- The block as the sum reads it: the change of format is the identity on extended reals, and so is the cast of a
    shape to itself. -/
theorem pay4_eq (u : S48x48x48.Idx → EReal) : k0_pay4 (F := Ideal) u = u := by
  unfold k0_pay4
  funext x
  exact congrFun (shapeCast_self (s := S48x48x48) (α := EReal) u shapeCasts_S48x48x48_S48x48x48) x

/-- `core` at the point (i, j, k): each of the six shifted copies reads the neighbour inside the block, or the
    zero plane beyond the block's face; the sum is grouped as the program groups it. -/
theorem core_at (u : S48x48x48.Idx → EReal) (i j k : Fin 48) :
    core (F := Ideal) u (ix3 i j k)
      = (if h : i.val + 1 < 48 then u (ix3 (⟨i.val + 1, h⟩ : Fin 48) j k) else 0)
        + (if h : 0 < i.val then u (ix3 (⟨i.val - 1, by omega⟩ : Fin 48) j k) else 0)
        + (if h : j.val + 1 < 48 then u (ix3 i (⟨j.val + 1, h⟩ : Fin 48) k) else 0)
        + (if h : 0 < j.val then u (ix3 i (⟨j.val - 1, by omega⟩ : Fin 48) k) else 0)
        + (if h : k.val + 1 < 48 then u (ix3 i j (⟨k.val + 1, h⟩ : Fin 48)) else 0)
        + (if h : 0 < k.val then u (ix3 i j (⟨k.val - 1, by omega⟩ : Fin 48)) else 0)
        - 6 * u (ix3 i j k) := by
  unfold core
  rw [pay4_eq]
  unfold k0_pay5
  simp only [subf_apply, addf_apply, mulf_apply, broadcast_apply]
  rw [up0_at, down0_at, up1_at, down1_at, up2_at, down2_at, six_eq, zero_eq]

end Cert.KernelIdeal.HaloValue

end
-- ==== Proof.KValueB.lean ====
/-
  The device's mesh coordinates as words, and the four masks of the halo exchange read at one point.

  A device c of the 2 x 2 x 2 mesh has coordinates (c / 4, c / 2 % 2, c % 2). Comparing a coordinate word with 0 or 1
  gives the one-bit word of the proposition "the coordinate is 0" (resp. "is not 0"). At a point (i, j, k) of a block:
  the y selector is 1 exactly on the y plane that faces the neighbour (plane 47 when the y coordinate is 0, plane 0
  otherwise) and 0 elsewhere, and likewise the z selector; the boundary mask is set exactly at the points that lie on a
  face of the whole cube (a device's low face on an axis is on the cube's boundary when its coordinate there is 0, its
  high face when the coordinate is 1); and the mask of an x plane is set exactly at the points that are on none of the
  cube's y and z faces. Each mask is a disjunction of conjunctions "coordinate bit and (position = 0 or 47)" computed on
  one-bit words; a position below 48 equals 0 or 47 as a 32-bit word exactly when it does as a number.
-/
import proofs.«900535_g7700000000000536_dist_halo3d_v7x_xyz2x2x2_s48_bf16_1_alg».proof.Proof.Contents
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HaloValue

open Cert.KernelIdeal Cert.KernelIdeal.Gen Cert.KernelIdeal.Halo
open Idealize.ShloMosaic Idealize.ShloMosaic.ValueIdx

/-! ## The mesh coordinates as words: each comparison with 0 or 1 is the bit of a proposition about c -/

theorem wx_eq0 : ∀ c : Dev nD, Scalar.cmpi .eq (wx c) 0#32 = if c.val / 4 = 0 then 1#1 else 0#1 := by decide
theorem wx_eq1 : ∀ c : Dev nD, Scalar.cmpi .eq (wx c) 1#32 = if c.val / 4 = 0 then 0#1 else 1#1 := by decide
theorem wy_eq0 : ∀ c : Dev nD, Scalar.cmpi .eq (wy c) 0#32 = if c.val / 2 % 2 = 0 then 1#1 else 0#1 := by decide
theorem wy_eq1 : ∀ c : Dev nD, Scalar.cmpi .eq (wy c) 1#32 = if c.val / 2 % 2 = 0 then 0#1 else 1#1 := by decide
theorem wz_eq0 : ∀ c : Dev nD, Scalar.cmpi .eq (wz c) 0#32 = if c.val % 2 = 0 then 1#1 else 0#1 := by decide
theorem wz_eq1 : ∀ c : Dev nD, Scalar.cmpi .eq (wz c) 1#32 = if c.val % 2 = 0 then 0#1 else 1#1 := by decide

/-! ## Words, bits and positions: the facts the masks are read through -/

namespace MaskAux

/-! ## Words: a position below 48 compared with 47 and with 0 -/

/-- Below 48 a word equals 47 exactly when its number does. -/
theorem word_eq47 (n : ℕ) (hn : n < 48) :
    IntOp.cmpi .eq (BitVec.ofNat 32 n) 47#32 = if n = 47 then 1#1 else 0#1 := by
  interval_cases n <;> rfl
/-- Below 48 a word equals 0 exactly when its number does. -/
theorem word_eq0 (n : ℕ) (hn : n < 48) :
    IntOp.cmpi .eq (BitVec.ofNat 32 n) 0#32 = if n = 0 then 1#1 else 0#1 := by
  interval_cases n <;> rfl

/-! ## The integer vector operations at an index: all pointwise -/

theorem cmpi_apply {s : Shape} {w : ℕ} (p : CmpIPredicate) (a b : IVec s w) (i : s.Idx) :
    cmpi p a b i = IntOp.cmpi p (a i) (b i) := rfl
theorem andi_apply {s : Shape} {w : ℕ} (a b : IVec s w) (i : s.Idx) : andi a b i = a i &&& b i := rfl
theorem ori_apply {s : Shape} {w : ℕ} (a b : IVec s w) (i : s.Idx) : ori a b i = a i ||| b i := rfl
theorem xori_apply {s : Shape} {w : ℕ} (a b : IVec s w) (i : s.Idx) : xori a b i = a i ^^^ b i := rfl

/-! ## The position along one axis, read at a point, is that coordinate as a word -/

theorem iota3_0 (i j k : Fin 48) : iota .tc S48x48x48 32 [0] iota_S48x48x48_d0_w32 (ix3 i j k) = BitVec.ofNat 32 i.val :=
  iota_single_apply _ _ _ _ _ _
theorem iota3_1 (i j k : Fin 48) : iota .tc S48x48x48 32 [1] iota_S48x48x48_d1_w32 (ix3 i j k) = BitVec.ofNat 32 j.val :=
  iota_single_apply _ _ _ _ _ _
theorem iota3_2 (i j k : Fin 48) : iota .tc S48x48x48 32 [2] iota_S48x48x48_d2_w32 (ix3 i j k) = BitVec.ofNat 32 k.val :=
  iota_single_apply _ _ _ _ _ _
theorem iota2_0 (j k : Fin 48) : iota .tc S48x48 32 [0] iota_S48x48_d0_w32 (ix2 j k) = BitVec.ofNat 32 j.val :=
  iota_single_apply _ _ _ _ _ _
theorem iota2_1 (j k : Fin 48) : iota .tc S48x48 32 [1] iota_S48x48_d1_w32 (ix2 j k) = BitVec.ofNat 32 k.val :=
  iota_single_apply _ _ _ _ _ _

/-! ## A bit, widened to a word and converted, is the extended real 0 or 1 -/

/-- A set bit, widened to a word and read as a signed integer, is the extended real 1 … -/
theorem sitofp_bit_one : FloatOps.sitofp (F := Ideal) .f32 (BitVec.setWidth 32 1#1) = (1 : EReal) := by
  show (((BitVec.setWidth 32 1#1).toInt : ℝ) : EReal) = 1
  have h : (BitVec.setWidth 32 1#1).toInt = 1 := by decide
  rw [h]; simp
/-- … and a clear bit is 0. -/
theorem sitofp_bit_zero : FloatOps.sitofp (F := Ideal) .f32 (BitVec.setWidth 32 0#1) = (0 : EReal) := by
  show (((BitVec.setWidth 32 0#1).toInt : ℝ) : EReal) = 0
  have h : (BitVec.setWidth 32 0#1).toInt = 0 := by decide
  rw [h]; simp

/-! ## One-bit words that encode a decidable proposition: conjunction, disjunction, complement -/
theorem bit_and (p q : Prop) [Decidable p] [Decidable q] :
    (if p then 1#1 else 0#1) &&& (if q then 1#1 else 0#1) = if p ∧ q then 1#1 else 0#1 := by
  by_cases hp : p <;> by_cases hq : q <;> simp [hp, hq]
theorem bit_or (p q : Prop) [Decidable p] [Decidable q] :
    (if p then 1#1 else 0#1) ||| (if q then 1#1 else 0#1) = if p ∨ q then 1#1 else 0#1 := by
  by_cases hp : p <;> by_cases hq : q <;> simp [hp, hq]
theorem bit_not (p : Prop) [Decidable p] :
    (if p then 1#1 else 0#1) ^^^ 1#1 = if ¬ p then 1#1 else 0#1 := by
  by_cases hp : p <;> simp [hp]
theorem bit_flip (p : Prop) [Decidable p] :
    (if p then 0#1 else 1#1) = if ¬ p then 1#1 else 0#1 := by
  by_cases hp : p <;> simp [hp]

end MaskAux

open MaskAux

/-! ## The two selectors -/

/-- The 0/1 selector of the y plane that faces the neighbour. -/
theorem selY_at (c : Dev nD) (i j k : Fin 48) :
    k0_pay6 (F := Ideal) (wy c) (ix3 i j k) = if j.val = (if c.val / 2 % 2 = 0 then 47 else 0) then (1 : EReal) else 0 := by
  unfold k0_pay6
  simp only [truncf_apply, sitofp_apply, extui_apply, cmpi_apply, broadcast_apply]
  rw [iota3_1, wy_eq0]
  by_cases hc : c.val / 2 % 2 = 0
  · simp only [if_pos hc, select_one]
    rw [word_eq47 _ j.isLt]
    by_cases hj : j.val = 47
    · simp only [if_pos hj, sitofp_bit_one]
    · simp only [if_neg hj, sitofp_bit_zero]
  · simp only [if_neg hc, select_zero]
    rw [word_eq0 _ j.isLt]
    by_cases hj : j.val = 0
    · simp only [if_pos hj, sitofp_bit_one]
    · simp only [if_neg hj, sitofp_bit_zero]
/-- The 0/1 selector of the z plane that faces the neighbour. -/
theorem selZ_at (c : Dev nD) (i j k : Fin 48) :
    k0_pay7 (F := Ideal) (wz c) (ix3 i j k) = if k.val = (if c.val % 2 = 0 then 47 else 0) then (1 : EReal) else 0 := by
  unfold k0_pay7
  simp only [truncf_apply, sitofp_apply, extui_apply, cmpi_apply, broadcast_apply]
  rw [iota3_2, wz_eq0]
  by_cases hc : c.val % 2 = 0
  · simp only [if_pos hc, select_one]
    rw [word_eq47 _ k.isLt]
    by_cases hk : k.val = 47
    · simp only [if_pos hk, sitofp_bit_one]
    · simp only [if_neg hk, sitofp_bit_zero]
  · simp only [if_neg hc, select_zero]
    rw [word_eq0 _ k.isLt]
    by_cases hk : k.val = 0
    · simp only [if_pos hk, sitofp_bit_one]
    · simp only [if_neg hk, sitofp_bit_zero]

/-! ## The boundary mask of a block and the mask of an x plane -/

/-- Local point (i, j, k) of device c lies on the boundary of the whole cube. -/
def OnBd (c : Dev nD) (i j k : ℕ) : Prop :=
  (c.val / 4 = 0 ∧ i = 0) ∨ (c.val / 4 = 1 ∧ i = 47) ∨ (c.val / 2 % 2 = 0 ∧ j = 0) ∨ (c.val / 2 % 2 = 1 ∧ j = 47)
    ∨ (c.val % 2 = 0 ∧ k = 0) ∨ (c.val % 2 = 1 ∧ k = 47)
instance (c : Dev nD) (i j k : ℕ) : Decidable (OnBd c i j k) := by unfold OnBd; infer_instance

theorem onBoundary_at (c : Dev nD) (i j k : Fin 48) :
    onBoundary c (ix3 i j k) = if OnBd c i.val j.val k.val then 1#1 else 0#1 := by
  unfold onBoundary k0_pay10 k0_pay8 k0_pay9
  simp only [ori_apply, andi_apply, cmpi_apply, broadcast_apply]
  rw [iota3_0, iota3_1, iota3_2, wx_eq0, wx_eq1, wy_eq0, wy_eq1, wz_eq0, wz_eq1,
    word_eq0 _ i.isLt, word_eq47 _ i.isLt, word_eq0 _ j.isLt, word_eq47 _ j.isLt, word_eq0 _ k.isLt, word_eq47 _ k.isLt]
  simp only [bit_flip, bit_and, bit_or]
  have hc : c.val < 8 := c.isLt
  refine if_congr ?_ rfl rfl
  unfold OnBd
  omega

/-- Point (j, k) of an x plane of device c is NOT on the cube's y or z boundary. -/
def OffEdge (c : Dev nD) (j k : ℕ) : Prop :=
  ¬ ((c.val / 2 % 2 = 0 ∧ j = 0) ∨ (c.val / 2 % 2 = 1 ∧ j = 47) ∨ (c.val % 2 = 0 ∧ k = 0) ∨ (c.val % 2 = 1 ∧ k = 47))
instance (c : Dev nD) (j k : ℕ) : Decidable (OffEdge c j k) := by unfold OffEdge; infer_instance
theorem offEdge_at (c : Dev nD) (j k : Fin 48) :
    offEdge c (ix2 j k) = if OffEdge c j.val k.val then 1#1 else 0#1 := by
  unfold offEdge k0_pay12 k0_pay11
  simp only [xori_apply, ori_apply, andi_apply, cmpi_apply, broadcast_apply, constantI_apply]
  rw [iota2_0, iota2_1, wy_eq0, wy_eq1, wz_eq0, wz_eq1,
    word_eq0 _ j.isLt, word_eq47 _ j.isLt, word_eq0 _ k.isLt, word_eq47 _ k.isLt]
  simp only [bit_flip, bit_and, bit_or, bit_not]
  have hc : c.val < 8 := c.isLt
  refine if_congr ?_ rfl rfl
  unfold OffEdge
  omega

end Cert.KernelIdeal.HaloValue

end
-- ==== Proof.KValue.lean ====
/-
  What one device's result block holds, index by index, is its block of the stencil of the whole array.

  The 96 x 96 x 96 array is cut in two along each axis; device `c`, at mesh coordinates `(c / 4, c / 2 % 2, c % 2)`,
  holds the block that starts 48 times its coordinate along each axis, so its local point `(i, j, k)` is the global
  point `(48 (c / 4) + i, 48 (c / 2 % 2) + j, 48 (c % 2) + k)`. Read at a local point:

  * the plane a device sends along an axis is the plane of its block that faces the neighbour, and the plane it
    receives is the neighbour's: at global coordinate 48 on that axis for a device whose coordinate there is 0, at 47
    for a device whose coordinate is 1;
  * the Laplacian of the block alone reads each of the six neighbours inside the block and zero beyond a face; the two
    0/1 selectors add the received y and z planes on the facing planes (`0 * x = 0` and `1 * x = x` for every extended
    real); the boundary mask zeroes exactly the points on the boundary of the whole cube; the last write adds the
    received x plane on the facing x plane, masked off the cube's y and z boundary, and changes no other plane.

  At a point on the cube's boundary both sides are zero. At any other point, along each axis the two neighbours are the
  in-block term(s) together with the received plane where the neighbour lies across the block's face (`axis_sum`), and
  what remains is the order and grouping of one sum in a commutative additive monoid, with `a - b = a + -b`
  (`regroup`). No entry of the array needs to be finite.
-/
import proofs.«900535_g7700000000000536_dist_halo3d_v7x_xyz2x2x2_s48_bf16_1_alg».proof.Proof.Spec
import proofs.«900535_g7700000000000536_dist_halo3d_v7x_xyz2x2x2_s48_bf16_1_alg».proof.Proof.Contents
import proofs.«900535_g7700000000000536_dist_halo3d_v7x_xyz2x2x2_s48_bf16_1_alg».proof.Proof.KValueA
import proofs.«900535_g7700000000000536_dist_halo3d_v7x_xyz2x2x2_s48_bf16_1_alg».proof.Proof.KValueB
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HaloValue

open Cert.KernelIdeal Cert.KernelIdeal.Gen Cert.KernelIdeal.Halo Cert.HaloSpec
open Idealize.ShloMosaic Idealize.ShloMosaic.ValueIdx

/-! ## The planes a device sends, read at an index

A load through a unit-stride rectangle of the whole block reads the block at offset plus coordinate; the
reshape that drops the unit axis keeps the row-major position. So the plane facing the x neighbour is the
block's plane `i = 47` on a device whose x coordinate is 0 and its plane `i = 0` otherwise, and likewise
along y and z. -/

theorem faceX_at (c : Dev nD) (u : UBlk Ideal) (j k : Fin 48) :
    faceX (F := Ideal) c u (ix2 j k) = u (ix3 (if c.val / 4 = 0 then (47 : Fin 48) else 0) j k) := by
  unfold faceX k0_pay1
  rw [shapeCast_self, truncf_apply, wx_eq0]
  by_cases h : c.val / 4 = 0
  · rw [if_pos h, if_pos h, select_one]
    refine (shapeCast_apply _ _ (ix2 j k) (ix3 (0 : Fin 1) j k) ?_).trans ?_
    · rw [Shape.rowMajor_val_two, Shape.rowMajor_val_three]
      show (0 * 48 + j.val) * 48 + k.val = j.val * 48 + k.val; omega
    rw [View.readAt_apply]
    show u _ = u _
    congr 1
    funext a
    match a with
    | ⟨0, _⟩ => apply Fin.ext; show 47 + 1 * 0 = 47; omega
    | ⟨1, _⟩ => apply Fin.ext; show 0 + 1 * j.val = j.val; omega
    | ⟨2, _⟩ => apply Fin.ext; show 0 + 1 * k.val = k.val; omega
  · rw [if_neg h, if_neg h, select_zero]
    refine (shapeCast_apply _ _ (ix2 j k) (ix3 (0 : Fin 1) j k) ?_).trans ?_
    · rw [Shape.rowMajor_val_two, Shape.rowMajor_val_three]
      show (0 * 48 + j.val) * 48 + k.val = j.val * 48 + k.val; omega
    rw [View.readAt_apply]
    show u _ = u _
    congr 1
    funext a
    match a with
    | ⟨0, _⟩ => apply Fin.ext; show 0 + 1 * 0 = 0; omega
    | ⟨1, _⟩ => apply Fin.ext; show 0 + 1 * j.val = j.val; omega
    | ⟨2, _⟩ => apply Fin.ext; show 0 + 1 * k.val = k.val; omega

theorem faceY_at (c : Dev nD) (u : UBlk Ideal) (j k : Fin 48) :
    faceY (F := Ideal) c u (ix2 j k) = u (ix3 j (if c.val / 2 % 2 = 0 then (47 : Fin 48) else 0) k) := by
  unfold faceY k0_pay2
  rw [shapeCast_self, truncf_apply, wy_eq0]
  by_cases h : c.val / 2 % 2 = 0
  · rw [if_pos h, if_pos h, select_one]
    refine (shapeCast_apply _ _ (ix2 j k) (ix3 j (0 : Fin 1) k) ?_).trans ?_
    · rw [Shape.rowMajor_val_two, Shape.rowMajor_val_three]
      show (j.val * 1 + 0) * 48 + k.val = j.val * 48 + k.val; omega
    rw [View.readAt_apply]
    show u _ = u _
    congr 1
    funext a
    match a with
    | ⟨0, _⟩ => apply Fin.ext; show 0 + 1 * j.val = j.val; omega
    | ⟨1, _⟩ => apply Fin.ext; show 47 + 1 * 0 = 47; omega
    | ⟨2, _⟩ => apply Fin.ext; show 0 + 1 * k.val = k.val; omega
  · rw [if_neg h, if_neg h, select_zero]
    refine (shapeCast_apply _ _ (ix2 j k) (ix3 j (0 : Fin 1) k) ?_).trans ?_
    · rw [Shape.rowMajor_val_two, Shape.rowMajor_val_three]
      show (j.val * 1 + 0) * 48 + k.val = j.val * 48 + k.val; omega
    rw [View.readAt_apply]
    show u _ = u _
    congr 1
    funext a
    match a with
    | ⟨0, _⟩ => apply Fin.ext; show 0 + 1 * j.val = j.val; omega
    | ⟨1, _⟩ => apply Fin.ext; show 0 + 1 * 0 = 0; omega
    | ⟨2, _⟩ => apply Fin.ext; show 0 + 1 * k.val = k.val; omega

theorem faceZ_at (c : Dev nD) (u : UBlk Ideal) (j k : Fin 48) :
    faceZ (F := Ideal) c u (ix2 j k) = u (ix3 j k (if c.val % 2 = 0 then (47 : Fin 48) else 0)) := by
  unfold faceZ k0_pay3
  rw [shapeCast_self, truncf_apply, wz_eq0]
  by_cases h : c.val % 2 = 0
  · rw [if_pos h, if_pos h, select_one]
    refine (shapeCast_apply _ _ (ix2 j k) (ix3 j k (0 : Fin 1)) ?_).trans ?_
    · rw [Shape.rowMajor_val_two, Shape.rowMajor_val_three]
      show (j.val * 48 + k.val) * 1 + 0 = j.val * 48 + k.val; omega
    rw [View.readAt_apply]
    show u _ = u _
    congr 1
    funext a
    match a with
    | ⟨0, _⟩ => apply Fin.ext; show 0 + 1 * j.val = j.val; omega
    | ⟨1, _⟩ => apply Fin.ext; show 0 + 1 * k.val = k.val; omega
    | ⟨2, _⟩ => apply Fin.ext; show 47 + 1 * 0 = 47; omega
  · rw [if_neg h, if_neg h, select_zero]
    refine (shapeCast_apply _ _ (ix2 j k) (ix3 j k (0 : Fin 1)) ?_).trans ?_
    · rw [Shape.rowMajor_val_two, Shape.rowMajor_val_three]
      show (j.val * 48 + k.val) * 1 + 0 = j.val * 48 + k.val; omega
    rw [View.readAt_apply]
    show u _ = u _
    congr 1
    funext a
    match a with
    | ⟨0, _⟩ => apply Fin.ext; show 0 + 1 * j.val = j.val; omega
    | ⟨1, _⟩ => apply Fin.ext; show 0 + 1 * k.val = k.val; omega
    | ⟨2, _⟩ => apply Fin.ext; show 0 + 1 * 0 = 0; omega

/-- Device c's block of a whole array. -/
def blk (U : W.Idx → EReal) (c : Dev nD) : UBlk Ideal :=
  Layout.blockN ⟨3, ![48, 48, 48]⟩ ⟨3, ![96, 96, 96]⟩ (Layout.meshBlock [2, 2, 2] ![[0], [1], [2]] c) U

/-! ## A block at a local index is the whole array at global coordinates

Device `c` sits at mesh coordinates `(c / 4, c / 2 % 2, c % 2)`; its block starts 48 times that far along each axis. -/

theorem mesh0 : ∀ c : Dev nD, ((Layout.meshBlock [2, 2, 2] ![[0], [1], [2]] c) 0).val = c.val / 4 := by decide
theorem mesh1 : ∀ c : Dev nD, ((Layout.meshBlock [2, 2, 2] ![[0], [1], [2]] c) 1).val = c.val / 2 % 2 := by decide
theorem mesh2 : ∀ c : Dev nD, ((Layout.meshBlock [2, 2, 2] ![[0], [1], [2]] c) 2).val = c.val % 2 := by decide

theorem at3_of_lt (U : W.Idx → EReal) (x y z : ℕ) (hx : x < 96) (hy : y < 96) (hz : z < 96) :
    at3 U x y z = U (ix3 (⟨x, hx⟩ : Fin 96) (⟨y, hy⟩ : Fin 96) (⟨z, hz⟩ : Fin 96)) := by
  unfold at3; rw [dif_pos ⟨hx, hy, hz⟩]

/-- Where a block's local index lands in the whole array, coordinate by coordinate. -/
theorem gidx0 (c : Dev nD) (x : (⟨3, ![48, 48, 48]⟩ : Shape).Idx) (h : Layout.TilesN ⟨3, ![48, 48, 48]⟩ ⟨3, ![96, 96, 96]⟩ _) :
    ((h.idx (Layout.meshBlock [2, 2, 2] ![[0], [1], [2]] c) x) 0).val = 48 * (c.val / 4) + (x 0).val := by
  show ((Layout.meshBlock [2, 2, 2] ![[0], [1], [2]] c) 0).val * 48 + (x 0).val = _; rw [mesh0]; omega
theorem gidx1 (c : Dev nD) (x : (⟨3, ![48, 48, 48]⟩ : Shape).Idx) (h : Layout.TilesN ⟨3, ![48, 48, 48]⟩ ⟨3, ![96, 96, 96]⟩ _) :
    ((h.idx (Layout.meshBlock [2, 2, 2] ![[0], [1], [2]] c) x) 1).val = 48 * (c.val / 2 % 2) + (x 1).val := by
  show ((Layout.meshBlock [2, 2, 2] ![[0], [1], [2]] c) 1).val * 48 + (x 1).val = _; rw [mesh1]; omega
theorem gidx2 (c : Dev nD) (x : (⟨3, ![48, 48, 48]⟩ : Shape).Idx) (h : Layout.TilesN ⟨3, ![48, 48, 48]⟩ ⟨3, ![96, 96, 96]⟩ _) :
    ((h.idx (Layout.meshBlock [2, 2, 2] ![[0], [1], [2]] c) x) 2).val = 48 * (c.val % 2) + (x 2).val := by
  show ((Layout.meshBlock [2, 2, 2] ![[0], [1], [2]] c) 2).val * 48 + (x 2).val = _; rw [mesh2]; omega

theorem blk_at (U : W.Idx → EReal) (c : Dev nD) (i j k : Fin 48) :
    blk U c (ix3 i j k) = at3 U (48 * (c.val / 4) + i.val) (48 * (c.val / 2 % 2) + j.val) (48 * (c.val % 2) + k.val) := by
  have hc := c.isLt; simp only [nD] at hc
  rw [at3_of_lt U _ _ _ (by omega) (by omega) (by omega)]
  unfold blk
  rw [Layout.blockN_apply]
  congr 1
  funext a
  match a with
  | ⟨0, _⟩ => exact Fin.ext (gidx0 c (ix3 i j k) _)
  | ⟨1, _⟩ => exact Fin.ext (gidx1 c (ix3 i j k) _)
  | ⟨2, _⟩ => exact Fin.ext (gidx2 c (ix3 i j k) _)

/-- The whole result array's block at a local index. -/
theorem blkG_at (U : W.Idx → EReal) (c : Dev nD) (i j k : Fin 48) :
    (Layout.blockN ⟨3, ![48, 48, 48]⟩ ⟨3, ![96, 96, 96]⟩ (Layout.meshBlock [2, 2, 2] ![[0], [1], [2]] c) (G U)) (ix3 i j k)
      = if Interior (48 * (c.val / 4) + i.val) (48 * (c.val / 2 % 2) + j.val) (48 * (c.val % 2) + k.val)
        then lap U (48 * (c.val / 4) + i.val) (48 * (c.val / 2 % 2) + j.val) (48 * (c.val % 2) + k.val) else 0 := by
  rw [Layout.blockN_apply]
  unfold G
  simp only [gidx0, gidx1, gidx2]

/-! ## The result block, index by index -/

theorem zero_bf16 : Scalar.ofBits (F := Ideal) .bf16 0x0000#16 = (0 : EReal) := by
  show Ideal.ofBits .bf16 0x0000#16 = 0
  simp [Ideal.ofBits, Ideal.ieee]

/-- `core` with the received y plane added where the y selector is 1. -/
theorem withY_at (c : Dev nD) (u : S48x48x48.Idx → EReal) (ry : S48x48.Idx → EReal) (i j k : Fin 48) :
    withY (F := Ideal) c u ry (ix3 i j k)
      = core (F := Ideal) u (ix3 i j k) + k0_pay6 (F := Ideal) (wy c) (ix3 i j k) * ry (ix2 i k) := by
  unfold withY k0_pay13
  rw [addf_apply, mulf_apply]
  congr 2
  refine (broadcastTo_apply _ _ (ix3 i j k) (ix3 i (0 : Fin 1) k) ?_).trans ?_
  · intro a
    match a with
    | ⟨0, _⟩ => rfl
    | ⟨1, _⟩ => rfl
    | ⟨2, _⟩ => rfl
  · refine shapeCast_apply _ _ (ix3 i (0 : Fin 1) k) (ix2 i k) ?_
    rw [Shape.rowMajor_val_two, Shape.rowMajor_val_three]
    show i.val * 48 + k.val = (i.val * 1 + 0) * 48 + k.val; omega

/-- The first version of the result: zero on the cube's boundary, else `withY` plus the received z plane where the
    z selector is 1. -/
theorem out1_at (c : Dev nD) (u : S48x48x48.Idx → EReal) (ry rz : S48x48.Idx → EReal) (i j k : Fin 48) :
    out1 (F := Ideal) c u ry rz (ix3 i j k)
      = if OnBd c i.val j.val k.val then (0 : EReal)
        else withY (F := Ideal) c u ry (ix3 i j k) + k0_pay7 (F := Ideal) (wz c) (ix3 i j k) * rz (ix2 i j) := by
  unfold out1 k0_pay14
  rw [select_apply, onBoundary_at, broadcast_apply, zero_bf16, addf_apply, mulf_apply]
  have hb : broadcastTo S48x48x48 (shapeCast S48x48x1 rz shapeCasts_S48x48_S48x48x1) broadcasts_S48x48x1_S48x48x48 (ix3 i j k)
      = rz (ix2 i j) := by
    refine (broadcastTo_apply _ _ (ix3 i j k) (ix3 i j (0 : Fin 1)) ?_).trans ?_
    · intro a
      match a with
      | ⟨0, _⟩ => rfl
      | ⟨1, _⟩ => rfl
      | ⟨2, _⟩ => rfl
    · refine shapeCast_apply _ _ (ix3 i j (0 : Fin 1)) (ix2 i j) ?_
      rw [Shape.rowMajor_val_two, Shape.rowMajor_val_three]
      show i.val * 48 + j.val = (i.val * 48 + j.val) * 1 + 0; omega
  rw [hb]
  by_cases h : OnBd c i.val j.val k.val
  · rw [if_pos h, if_pos h, select_one]
  · rw [if_neg h, if_neg h, select_zero]

/-- The local x coordinate of the plane that faces the x neighbour. -/
def ifx (c : Dev nD) : Fin 48 := if c.val / 4 = 0 then 47 else 0

theorem off1_0 (c : Dev nD) : k0_off1 c 0 = (ifx c).val := by
  rw [k0_off1_eq]; unfold ifx
  by_cases h : c.val / 4 = 0
  · rw [if_pos h, if_pos h]; rfl
  · rw [if_neg h, if_neg h]; rfl
theorem off1_1 (c : Dev nD) : k0_off1 c 1 = 0 := by rw [k0_off1_eq]; rfl
theorem off1_2 (c : Dev nD) : k0_off1 c 2 = 0 := by rw [k0_off1_eq]; rfl

/-- The facing x plane after the received x plane, zeroed on the cube's y and z boundary, is added to it. -/
theorem slabNew_at (c : Dev nD) (u : S48x48x48.Idx → EReal) (rx ry rz : S48x48.Idx → EReal) (j k : Fin 48) :
    slabNew (F := Ideal) c u rx ry rz (ix3 (0 : Fin 1) j k)
      = @HAdd.hAdd EReal EReal EReal _ (out1 (F := Ideal) c u ry rz (ix3 (ifx c) j k)) (if OffEdge c j.val k.val then rx (ix2 j k) else 0) := by
  unfold slabNew k0_pay15
  refine congrArg₂ (fun a b : EReal => a + b) ?_ ?_
  · refine (congrFun (shapeCast_self _ _) _).trans ?_
    rw [View.readAt_apply]
    show out1 (F := Ideal) c u ry rz _ = out1 (F := Ideal) c u ry rz _
    congr 1
    funext a
    match a with
    | ⟨0, _⟩ => apply Fin.ext; show k0_off1 c 0 + 1 * 0 = (ifx c).val; rw [off1_0]; omega
    | ⟨1, _⟩ => apply Fin.ext; show k0_off1 c 1 + 1 * j.val = j.val; rw [off1_1]; omega
    | ⟨2, _⟩ => apply Fin.ext; show k0_off1 c 2 + 1 * k.val = k.val; rw [off1_2]; omega
  · refine (shapeCast_apply _ _ (ix3 (0 : Fin 1) j k) (ix2 j k) ?_).trans ?_
    · rw [Shape.rowMajor_val_two, Shape.rowMajor_val_three]
      show j.val * 48 + k.val = (0 * 48 + j.val) * 48 + k.val; omega
    rw [select_apply, offEdge_at, broadcast_apply, zero_bf16]
    by_cases h : OffEdge c j.val k.val
    · rw [if_pos h, if_pos h, select_one]
    · rw [if_neg h, if_neg h, select_zero]

/-- The write of the new plane changes exactly the plane that faces the x neighbour. -/
theorem outFinal_at (c : Dev nD) (u : S48x48x48.Idx → EReal) (rx ry rz : S48x48.Idx → EReal) (i j k : Fin 48) :
    outFinal (F := Ideal) c u rx ry rz (ix3 i j k)
      = if i.val = (ifx c).val then slabNew (F := Ideal) c u rx ry rz (ix3 (0 : Fin 1) j k)
        else out1 (F := Ideal) c u ry rz (ix3 i j k) := by
  unfold outFinal
  have hw := View.write_whole_slice_unit (Val := Elt Ideal) cc0_stg1_0 (k0_off1 c) S1x48x48.size (k0_off1_inb c)
    (out1 (F := Ideal) c u ry rz) (slabNew (F := Ideal) c u rx ry rz)
  rw [show (oM.access (rOff c) : View sig .tc _ _ _).write (Elt Ideal) (out1 (F := Ideal) c u ry rz) (slabNew (F := Ideal) c u rx ry rz) Finset.univ = _ from hw]
  unfold updateSlice
  by_cases hi : i.val = (ifx c).val
  · rw [if_pos hi, dif_pos ?hin]
    case hin =>
      intro a
      match a with
      | ⟨0, _⟩ => show k0_off1 c 0 ≤ i.val ∧ i.val < k0_off1 c 0 + 1; rw [off1_0]; omega
      | ⟨1, _⟩ => show k0_off1 c 1 ≤ j.val ∧ j.val < k0_off1 c 1 + 48; rw [off1_1]; omega
      | ⟨2, _⟩ => show k0_off1 c 2 ≤ k.val ∧ k.val < k0_off1 c 2 + 48; rw [off1_2]; omega
    congr 1
    funext b
    match b with
    | ⟨0, _⟩ => apply Fin.ext; show i.val - k0_off1 c 0 = 0; rw [off1_0]; omega
    | ⟨1, _⟩ => apply Fin.ext; show j.val - k0_off1 c 1 = j.val; rw [off1_1]; omega
    | ⟨2, _⟩ => apply Fin.ext; show k.val - k0_off1 c 2 = k.val; rw [off1_2]; omega
  · rw [if_neg hi, dif_neg]
    intro hin
    have h0 := hin ⟨0, by decide⟩
    change k0_off1 c 0 ≤ i.val ∧ i.val < k0_off1 c 0 + 1 at h0
    rw [off1_0] at h0
    omega

/-! ## The join: order and grouping of one sum

Along one axis, with mesh coordinate `b` and local coordinate `n`, the point's global coordinate is `48 b + n`. The
neighbour one step up is inside the block unless `n = 47`, the neighbour one step down unless `n = 0`; on a device
with `b = 0` the plane `n = 47` receives the neighbour's plane at global coordinate 48, on a device with `b = 1`
the plane `n = 0` receives the one at 47. At a point that is not on the cube's boundary along this axis the three
terms add up to the two neighbours' values: only `0 + x = x` and commutativity are used. -/

theorem axis_sum (f : ℕ → EReal) (b n : ℕ) (hb : b < 2) (hn : n < 48) (h1 : 1 ≤ 48 * b + n) (h2 : 48 * b + n ≤ 94) :
    (if n + 1 < 48 then f (48 * b + (n + 1)) else 0) + (if 0 < n then f (48 * b + (n - 1)) else 0)
        + (if n = (if b = 0 then 47 else 0) then f (if b = 0 then 48 else 47) else 0)
      = f (48 * b + n - 1) + f (48 * b + n + 1) := by
  have hb' : b = 0 ∨ b = 1 := by omega
  rcases hb' with rfl | rfl
  · by_cases h47 : n = 47
    · subst h47
      simp only [show ¬ (47 + 1 < 48) by omega, show (0 : ℕ) < 47 by omega, if_true, if_false, zero_add]
    · rw [if_pos (show n + 1 < 48 by omega), if_pos (show 0 < n by omega), if_neg (by simpa using h47), add_zero,
        show 48 * 0 + (n + 1) = 48 * 0 + n + 1 by omega, show 48 * 0 + (n - 1) = 48 * 0 + n - 1 by omega, add_comm]
  · by_cases h0 : n = 0
    · subst h0
      simp only [show (0 + 1 < 48) by omega, show ¬ ((0 : ℕ) < 0) by omega, show ¬ ((1 : ℕ) = 0) by omega, if_true, if_false, add_zero]
      rw [add_comm]
    · rw [if_pos (show n + 1 < 48 by omega), if_pos (show 0 < n by omega), if_neg (by simpa using h0), add_zero,
        show 48 * 1 + (n + 1) = 48 * 1 + n + 1 by omega, show 48 * 1 + (n - 1) = 48 * 1 + n - 1 by omega, add_comm]

/-- The program's grouping of the nine terms against the stencil's grouping of the six neighbours. -/
theorem regroup (Ap Am Rx Bp Bm Ry Cp Cm Rz a0 a1 b0 b1 c0 c1 m : EReal)
    (hx : Ap + Am + Rx = a0 + a1) (hy : Bp + Bm + Ry = b0 + b1) (hz : Cp + Cm + Rz = c0 + c1) :
    ((((((Ap + Am) + Bp) + Bm) + Cp) + Cm) - m + Ry + Rz) + Rx = (((((a0 + a1) + b0) + b1) + c0) + c1) - m := by
  rw [sub_eq_add_neg, sub_eq_add_neg]
  have e : ((((((Ap + Am) + Bp) + Bm) + Cp) + Cm) + -m + Ry + Rz) + Rx
      = (Ap + Am + Rx) + (Bp + Bm + Ry) + (Cp + Cm + Rz) + -m := by ac_rfl
  rw [e, hx, hy, hz]
  ac_rfl

/-- The same at a point off the plane that receives the x neighbour's values: nothing is added there. -/
theorem regroup0 (Ap Am Bp Bm Ry Cp Cm Rz a0 a1 b0 b1 c0 c1 m : EReal)
    (hx : Ap + Am + 0 = a0 + a1) (hy : Bp + Bm + Ry = b0 + b1) (hz : Cp + Cm + Rz = c0 + c1) :
    (((((Ap + Am) + Bp) + Bm) + Cp) + Cm) - m + Ry + Rz = (((((a0 + a1) + b0) + b1) + c0) + c1) - m := by
  have h := regroup Ap Am 0 Bp Bm Ry Cp Cm Rz a0 a1 b0 b1 c0 c1 m hx hy hz
  rwa [add_zero] at h

/-! ## The received planes are the neighbours' facing planes, at global coordinates

The x neighbour differs in the x mesh coordinate only, and its facing plane is its last plane when that coordinate is 0
and its first when it is 1: the plane at global x coordinate 48 for a device with x coordinate 0, at 47 otherwise. -/

theorem fin47_val (p : Prop) [Decidable p] : ((if p then (47 : Fin 48) else 0 : Fin 48) : ℕ) = if p then 47 else 0 := by
  split_ifs <;> rfl

theorem rx_at (U : W.Idx → EReal) (c : Dev nD) (j k : Fin 48) :
    faceX (F := Ideal) (nbX c) (blk U (nbX c)) (ix2 j k)
      = at3 U (if c.val / 4 = 0 then 48 else 47) (48 * (c.val / 2 % 2) + j.val) (48 * (c.val % 2) + k.val) := by
  have hc := c.isLt; simp only [nD] at hc
  have hn := nbX_val c
  rw [faceX_at, blk_at]
  have e0 : 48 * ((nbX c).val / 4) + ((if (nbX c).val / 4 = 0 then (47 : Fin 48) else 0 : Fin 48) : ℕ)
      = if c.val / 4 = 0 then 48 else 47 := by
    rw [fin47_val]; split_ifs <;> omega
  have e1 : 48 * ((nbX c).val / 2 % 2) + j.val = 48 * (c.val / 2 % 2) + j.val := by omega
  have e2 : 48 * ((nbX c).val % 2) + k.val = 48 * (c.val % 2) + k.val := by omega
  rw [e0, e1, e2]

theorem ry_at (U : W.Idx → EReal) (c : Dev nD) (i k : Fin 48) :
    faceY (F := Ideal) (nbY c) (blk U (nbY c)) (ix2 i k)
      = at3 U (48 * (c.val / 4) + i.val) (if c.val / 2 % 2 = 0 then 48 else 47) (48 * (c.val % 2) + k.val) := by
  have hc := c.isLt; simp only [nD] at hc
  have hn := nbY_val c
  rw [faceY_at, blk_at]
  have e0 : 48 * ((nbY c).val / 4) + i.val = 48 * (c.val / 4) + i.val := by omega
  have e1 : 48 * ((nbY c).val / 2 % 2) + ((if (nbY c).val / 2 % 2 = 0 then (47 : Fin 48) else 0 : Fin 48) : ℕ)
      = if c.val / 2 % 2 = 0 then 48 else 47 := by
    rw [fin47_val]; split_ifs <;> omega
  have e2 : 48 * ((nbY c).val % 2) + k.val = 48 * (c.val % 2) + k.val := by omega
  rw [e0, e1, e2]

theorem rz_at (U : W.Idx → EReal) (c : Dev nD) (i j : Fin 48) :
    faceZ (F := Ideal) (nbZ c) (blk U (nbZ c)) (ix2 i j)
      = at3 U (48 * (c.val / 4) + i.val) (48 * (c.val / 2 % 2) + j.val) (if c.val % 2 = 0 then 48 else 47) := by
  have hc := c.isLt; simp only [nD] at hc
  have hn := nbZ_val c
  rw [faceZ_at, blk_at]
  have e0 : 48 * ((nbZ c).val / 4) + i.val = 48 * (c.val / 4) + i.val := by omega
  have e1 : 48 * ((nbZ c).val / 2 % 2) + j.val = 48 * (c.val / 2 % 2) + j.val := by omega
  have e2 : 48 * ((nbZ c).val % 2) + ((if (nbZ c).val % 2 = 0 then (47 : Fin 48) else 0 : Fin 48) : ℕ)
      = if c.val % 2 = 0 then 48 else 47 := by
    rw [fin47_val]; split_ifs <;> omega
  rw [e0, e1, e2]

/-- A 0/1 selector times a value is the value where the selector is 1 and zero elsewhere (`0 * x = 0` for every
    extended real). -/
theorem sel_mul (p : Prop) [Decidable p] (r : EReal) : (if p then (1 : EReal) else 0) * r = if p then r else 0 := by
  split_ifs
  · exact one_mul r
  · exact zero_mul r

/-- The result block at a local point is the stencil of the whole array at the point's global coordinates. -/
theorem point_eq (U : W.Idx → EReal) (c : Dev nD) (i j k : Fin 48) :
    outFinal (F := Ideal) c (blk U c) (faceX (F := Ideal) (nbX c) (blk U (nbX c)))
        (faceY (F := Ideal) (nbY c) (blk U (nbY c))) (faceZ (F := Ideal) (nbZ c) (blk U (nbZ c))) (ix3 i j k)
      = if Interior (48 * (c.val / 4) + i.val) (48 * (c.val / 2 % 2) + j.val) (48 * (c.val % 2) + k.val)
        then lap U (48 * (c.val / 4) + i.val) (48 * (c.val / 2 % 2) + j.val) (48 * (c.val % 2) + k.val) else 0 := by
  have hc := c.isLt; simp only [nD] at hc
  have hi := i.isLt; have hj := j.isLt; have hk := k.isLt
  have hfx : (ifx c).val = if c.val / 4 = 0 then 47 else 0 := by unfold ifx; exact fin47_val _
  rw [outFinal_at]
  by_cases hI : Interior (48 * (c.val / 4) + i.val) (48 * (c.val / 2 % 2) + j.val) (48 * (c.val % 2) + k.val)
  · rw [if_pos hI]
    have hI' := hI
    unfold Interior at hI'
    have hB : ¬ OnBd c i.val j.val k.val := by unfold OnBd; omega
    have hE : OffEdge c j.val k.val := by unfold OffEdge; omega
    have hyA := axis_sum (fun t => at3 U (48 * (c.val / 4) + i.val) t (48 * (c.val % 2) + k.val)) (c.val / 2 % 2) j.val
      (by omega) hj (by omega) (by omega)
    have hzA := axis_sum (fun t => at3 U (48 * (c.val / 4) + i.val) (48 * (c.val / 2 % 2) + j.val) t) (c.val % 2) k.val
      (by omega) hk (by omega) (by omega)
    have hxA := axis_sum (fun t => at3 U t (48 * (c.val / 2 % 2) + j.val) (48 * (c.val % 2) + k.val)) (c.val / 4) i.val
      (by omega) hi (by omega) (by omega)
    by_cases hx : i.val = (ifx c).val
    · have hx' : ifx c = i := Fin.ext hx.symm
      have hx2 : i.val = if c.val / 4 = 0 then 47 else 0 := hx.trans hfx
      rw [if_pos hx, slabNew_at, hx', if_pos hE, out1_at, if_neg hB, withY_at, core_at, selY_at, selZ_at, rx_at, ry_at, rz_at]
      simp only [blk_at, Fin.val_mk, dite_eq_ite]
      rw [sel_mul, sel_mul]
      unfold lap
      rw [if_pos hx2] at hxA
      exact regroup _ _ _ _ _ _ _ _ _ _ _ _ _ _ _ _ hxA hyA hzA
    · have hx2 : ¬ i.val = if c.val / 4 = 0 then 47 else 0 := fun h => hx (h.trans hfx.symm)
      rw [if_neg hx, out1_at, if_neg hB, withY_at, core_at, selY_at, selZ_at, ry_at, rz_at]
      simp only [blk_at, Fin.val_mk, dite_eq_ite]
      rw [sel_mul, sel_mul]
      unfold lap
      rw [if_neg hx2] at hxA
      exact regroup0 _ _ _ _ _ _ _ _ _ _ _ _ _ _ _ hxA hyA hzA
  · rw [if_neg hI]
    have hB : OnBd c i.val j.val k.val := by unfold OnBd; unfold Interior at hI; omega
    by_cases hx : i.val = (ifx c).val
    · have hx' : ifx c = i := Fin.ext hx.symm
      have hE : ¬ OffEdge c j.val k.val := by
        unfold OffEdge; unfold OnBd at hB; rw [hfx] at hx; split_ifs at hx <;> omega
      rw [if_pos hx, slabNew_at, hx', if_neg hE, out1_at, if_pos hB, add_zero]
    · rw [if_neg hx, out1_at, if_pos hB]

/-- What one device's result block holds is its block of the stencil of the whole array. -/
theorem outFinal_eq (U : W.Idx → EReal) (c : Dev nD) :
    outFinal (F := Ideal) c (blk U c) (faceX (nbX c) (blk U (nbX c))) (faceY (nbY c) (blk U (nbY c))) (faceZ (nbZ c) (blk U (nbZ c)))
      = Layout.blockN ⟨3, ![48, 48, 48]⟩ ⟨3, ![96, 96, 96]⟩ (Layout.meshBlock [2, 2, 2] ![[0], [1], [2]] c) (G U) := by
  funext idx
  obtain ⟨i, j, k, rfl⟩ : ∃ (i j k : Fin 48), idx = ix3 i j k := ⟨idx 0, idx 1, idx 2, eq_ix3 (n0 := 48) (n1 := 48) (n2 := 48) idx⟩
  rw [blkG_at]
  exact point_eq U c i j k

end Cert.KernelIdeal.HaloValue

end
-- ==== Proof.RefValue.lean ====
/-
  The one-device program's run, read back: its result array is the stencil `Cert.HaloSpec.G` of its argument.

  The program adds six shifted 94 x 94 x 94 slices of its 96 x 96 x 96 argument left to right, subtracts six times the
  centre slice, and writes the 94 x 94 x 94 difference over a zero 96 x 96 x 96 array at offset (1, 1, 1). The write is a
  left fold of single-element overwrites; its updates land at pairwise distinct places, all inside the array, so a
  point of [1, 94]^3 holds its update and every other point keeps the zero. At a point of [1, 94]^3 the update is the
  seven-point sum of the specification, grouped the same way; on the boundary both sides are zero.
-/
import proofs.«900535_g7700000000000536_dist_halo3d_v7x_xyz2x2x2_s48_bf16_1_alg».proof.Proof.Spec
import proofs.«900535_g7700000000000536_dist_halo3d_v7x_xyz2x2x2_s48_bf16_1_alg».proof.Proof.Gen.ReferenceIdeal.Run
import proofs.«900535_g7700000000000536_dist_halo3d_v7x_xyz2x2x2_s48_bf16_1_alg».proof.Proof.Gen.ReferenceIdeal.Read
import proofs.«900535_g7700000000000536_dist_halo3d_v7x_xyz2x2x2_s48_bf16_1_alg».proof.Defs
import proofs.«900535_g7700000000000536_dist_halo3d_v7x_xyz2x2x2_s48_bf16_1_alg».proof.Proof.Gen.Pre_finite_inputs_ReferenceIdeal
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## A fold of pointwise overwrites, read at one index -/

section Fold
variable {ι κ α : Type}

/-- A fold of steps each of which changes only the one index it names leaves an index no step names as it was. -/
theorem foldl_miss (step : (κ → α) → ι → κ → α) (g : ι → κ)
    (hmiss : ∀ r n i', i' ≠ g n → step r n i' = r i') (l : List ι) (x : κ → α) (i : κ) (h : ∀ n ∈ l, g n ≠ i) :
    l.foldl step x i = x i := by
  induction l generalizing x with
  | nil => rfl
  | cons a t ih =>
    rw [List.foldl_cons, ih _ (fun n hn => h n (List.mem_cons_of_mem _ hn))]
    exact hmiss x a i (fun e => h a (List.mem_cons_self ..) e.symm)

/-- When the steps name pairwise distinct indices, the index step `n0` names holds what that step wrote. -/
theorem foldl_hit (step : (κ → α) → ι → κ → α) (g : ι → κ) (upd : ι → α)
    (hhit : ∀ r n, step r n (g n) = upd n) (hmiss : ∀ r n i', i' ≠ g n → step r n i' = r i')
    (hinj : Function.Injective g) (l : List ι) (x : κ → α) (n0 : ι) (hn0 : n0 ∈ l) :
    l.foldl step x (g n0) = upd n0 := by
  induction l generalizing x with
  | nil => cases hn0
  | cons a t ih =>
    rw [List.foldl_cons]
    by_cases ht : n0 ∈ t
    · exact ih _ ht
    · have ha : n0 = a := by
        rcases List.mem_cons.1 hn0 with h | h
        · exact h
        · exact absurd h ht
      subst ha
      rw [foldl_miss step g hmiss t _ (g n0) (fun n hn e => ht (hinj e ▸ hn))]
      exact hhit x n0

end Fold

/-! ## An overwriting scatter whose every update lands inside the operand, at pairwise distinct places -/

section Scatter
variable {s si u : Shape} {w : ℕ} {α : Type}

/-- The place update `j` lands at holds update `j`. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  obtain ⟨n0, rfl⟩ : ∃ n0, j = u.rowMajor.symm n0 := ⟨u.rowMajor j, (Equiv.symm_apply_apply _ _).symm⟩
  unfold Host.scatter
  simp only [hg]
  exact foldl_hit _ (fun n => g (u.rowMajor.symm n)) (fun n => upd (u.rowMajor.symm n)) (fun r n => if_pos rfl)
    (fun r n i' h => if_neg h) (hinj.comp u.rowMajor.symm.injective) _ x n0 (List.mem_finRange _)

/-- A place no update lands at holds the operand. -/
theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  unfold Host.scatter
  simp only [hg]
  exact foldl_miss _ (fun n => g (u.rowMajor.symm n)) (fun r n i' h => if_neg h) _ x i (fun n _ => hi _)

end Scatter

/-! ## The scatter of this program: one index vector `[1, 1, 1]`, the whole update one window -/

section Dims
variable {F : FTy → Type} [FloatOps F]

/-- A concatenation of vectors that all hold one word everywhere holds that word everywhere. -/
theorem concatenate_const {α : Type} (t : Shape) (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

/-- The index vector holds the word `1` at each of its three places. -/
theorem idx_one (k : S3.Idx) : val_main_v19 (F := F) k = 1#32 := by
  unfold val_main_v19
  refine concatenate_const _ _ _ _ _ ?_ k
  intro p hp i
  simp only [List.mem_cons, List.not_mem_nil, or_false] at hp
  rcases hp with rfl | rfl | rfl <;> rfl

/-- The start of every window is `1` on each axis. -/
theorem start_eq (j : S94x94x94.Idx) (a : Fin S96x96x96.rank) :
    scatter_S96x96x96_S3_S94x94x94_012_n_012_0.start j (val_main_v19 (F := F)) a = 1 := by
  unfold ScatterDims.start
  have ha : a ∈ scatter_S96x96x96_S3_S94x94x94_012_n_012_0.scatterDimsToOperandDims := by
    show a ∈ ([0, 1, 2] : List (Fin 3))
    fin_cases a <;> simp
  rw [dif_pos ha, idx_one]
  rfl

/-- The window coordinate of update `j` on an axis is `j`'s coordinate on that axis. -/
theorem window_eq (j : S94x94x94.Idx) (a : Fin S96x96x96.rank) :
    scatter_S96x96x96_S3_S94x94x94_012_n_012_0.window j a = (j a).val := by
  unfold ScatterDims.window
  have ha : a ∈ scatter_S96x96x96_S3_S94x94x94_012_n_012_0.sKept := by
    show a ∈ (List.finRange 3).filter (· ∉ ([] : List (Fin 3)))
    fin_cases a <;> simp
  rw [dif_pos ha]
  fin_cases a <;> rfl

/-- Update `j` lands at `j` moved by one along each axis, which is inside the operand. -/
theorem resultIdx_eq (j : S94x94x94.Idx) :
    scatter_S96x96x96_S3_S94x94x94_012_n_012_0.resultIdx? j (val_main_v19 (F := F)) = some (idx_main_v12 j) := by
  unfold ScatterDims.resultIdx?
  have hj : ∀ a : Fin S96x96x96.rank, (j a).val < 94 := fun a => by fin_cases a <;> exact (j _).isLt
  have hs : ∀ a : Fin S96x96x96.rank, S96x96x96.size a = 96 := fun a => by fin_cases a <;> rfl
  have h : ∀ a, 0 ≤ scatter_S96x96x96_S3_S94x94x94_012_n_012_0.start j (val_main_v19 (F := F)) a
        + scatter_S96x96x96_S3_S94x94x94_012_n_012_0.window j a
      ∧ scatter_S96x96x96_S3_S94x94x94_012_n_012_0.start j (val_main_v19 (F := F)) a
        + scatter_S96x96x96_S3_S94x94x94_012_n_012_0.window j a < S96x96x96.size a := by
    intro a
    rw [start_eq, window_eq, hs]
    have := hj a
    omega
  rw [dif_pos h]
  congr 1
  funext a
  refine Fin.ext ?_
  show (scatter_S96x96x96_S3_S94x94x94_012_n_012_0.start j (val_main_v19 (F := F)) a
        + scatter_S96x96x96_S3_S94x94x94_012_n_012_0.window j a).toNat = (idx_main_v12 j a).val
  rw [start_eq, window_eq]
  fin_cases a
  · show (1 + ((j 0).val : Int)).toNat = 1 + (j 0).val; omega
  · show (1 + ((j 1).val : Int)).toNat = 1 + (j 1).val; omega
  · show (1 + ((j 2).val : Int)).toNat = 1 + (j 2).val; omega

/-- Distinct updates land at distinct places. -/
theorem idx_main_v12_injective : Function.Injective idx_main_v12 := by
  intro j j' h
  funext a
  refine Fin.ext ?_
  fin_cases a
  · have := congrArg (fun i : S96x96x96.Idx => (i 0).val) h
    show (j 0).val = (j' 0).val
    have h' : 1 + (j 0).val = 1 + (j' 0).val := this
    omega
  · have := congrArg (fun i : S96x96x96.Idx => (i 1).val) h
    show (j 1).val = (j' 1).val
    have h' : 1 + (j 1).val = 1 + (j' 1).val := this
    omega
  · have := congrArg (fun i : S96x96x96.Idx => (i 2).val) h
    show (j 2).val = (j' 2).val
    have h' : 1 + (j 2).val = 1 + (j' 2).val := this
    omega

end Dims

/-! ## The result read at an index -/

/-- The pattern `0x40C00000` denotes the real number six. -/
theorem ofBits_six : Ideal.ofBits .f32 0x40C00000#32 = 6 := by
  simp [Ideal.ofBits, Ideal.ieee, -EReal.coe_mul]; norm_num
  rfl

/-- An index of a rank-3 array is the one built from its three coordinates. -/
theorem ix3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d
  refine Fin.ext ?_
  match d with
  | ⟨0, _⟩ => exact h0
  | ⟨1, _⟩ => exact h1
  | ⟨2, _⟩ => exact h2

/-- Inside the cube `at3` reads the array. -/
theorem at3_eq (u : Cert.HaloSpec.W.Idx → EReal) (x y z : ℕ) (hx : x < 96) (hy : y < 96) (hz : z < 96) :
    Cert.HaloSpec.at3 u x y z = u (ix3 (⟨x, hx⟩ : Fin 96) (⟨y, hy⟩ : Fin 96) (⟨z, hz⟩ : Fin 96)) :=
  dif_pos ⟨hx, hy, hz⟩

/-- The update at `(a, b, c)`: the six axis neighbours of the point `(1 + a, 1 + b, 1 + c)`, added left to right,
    minus six times the point itself. -/
theorem update_apply (x0 : (⟨S96x96x96, .f32⟩ : BufTy).Contents (Elt Ideal)) (a b c : Fin 94) :
    val_main_v15 (F := Ideal) x0 (ix3 a b c)
      = x0 (ix3 (⟨a.val, by have := a.isLt; omega⟩ : Fin 96) (⟨1 + b.val, by have := b.isLt; omega⟩ : Fin 96) (⟨1 + c.val, by have := c.isLt; omega⟩ : Fin 96))
        + x0 (ix3 (⟨1 + a.val + 1, by have := a.isLt; omega⟩ : Fin 96) (⟨1 + b.val, by have := b.isLt; omega⟩ : Fin 96) (⟨1 + c.val, by have := c.isLt; omega⟩ : Fin 96))
        + x0 (ix3 (⟨1 + a.val, by have := a.isLt; omega⟩ : Fin 96) (⟨b.val, by have := b.isLt; omega⟩ : Fin 96) (⟨1 + c.val, by have := c.isLt; omega⟩ : Fin 96))
        + x0 (ix3 (⟨1 + a.val, by have := a.isLt; omega⟩ : Fin 96) (⟨1 + b.val + 1, by have := b.isLt; omega⟩ : Fin 96) (⟨1 + c.val, by have := c.isLt; omega⟩ : Fin 96))
        + x0 (ix3 (⟨1 + a.val, by have := a.isLt; omega⟩ : Fin 96) (⟨1 + b.val, by have := b.isLt; omega⟩ : Fin 96) (⟨c.val, by have := c.isLt; omega⟩ : Fin 96))
        + x0 (ix3 (⟨1 + a.val, by have := a.isLt; omega⟩ : Fin 96) (⟨1 + b.val, by have := b.isLt; omega⟩ : Fin 96) (⟨1 + c.val + 1, by have := c.isLt; omega⟩ : Fin 96))
        - 6 * x0 (ix3 (⟨1 + a.val, by have := a.isLt; omega⟩ : Fin 96) (⟨1 + b.val, by have := b.isLt; omega⟩ : Fin 96) (⟨1 + c.val, by have := c.isLt; omega⟩ : Fin 96)) := by
  rw [val_main_v15_apply, val_main_v11_apply, val_main_v9_apply, val_main_v7_apply, val_main_v5_apply, val_main_v3_apply,
    val_main_v14_apply, val_main_v13_apply, val_main_cst_0_apply,
    val_main_v1_apply, val_main_v2_apply, val_main_v4_apply, val_main_v6_apply, val_main_v8_apply, val_main_v10_apply,
    val_main_v12_apply]
  simp only [Ideal.addf_def, Ideal.subf_def, Ideal.mulf_def, Ideal.ofBits_def]
  rw [ofBits_six]
  rw [ix3_ext (idx_main_v1 (ix3 a b c)) ⟨a.val, by have := a.isLt; omega⟩ ⟨1 + b.val, by have := b.isLt; omega⟩ ⟨1 + c.val, by have := c.isLt; omega⟩ rfl rfl rfl,
    ix3_ext (idx_main_v2 (ix3 a b c)) ⟨1 + a.val + 1, by have := a.isLt; omega⟩ ⟨1 + b.val, by have := b.isLt; omega⟩ ⟨1 + c.val, by have := c.isLt; omega⟩
      (by show 2 + a.val = 1 + a.val + 1; omega) rfl rfl,
    ix3_ext (idx_main_v4 (ix3 a b c)) ⟨1 + a.val, by have := a.isLt; omega⟩ ⟨b.val, by have := b.isLt; omega⟩ ⟨1 + c.val, by have := c.isLt; omega⟩ rfl rfl rfl,
    ix3_ext (idx_main_v6 (ix3 a b c)) ⟨1 + a.val, by have := a.isLt; omega⟩ ⟨1 + b.val + 1, by have := b.isLt; omega⟩ ⟨1 + c.val, by have := c.isLt; omega⟩
      rfl (by show 2 + b.val = 1 + b.val + 1; omega) rfl,
    ix3_ext (idx_main_v8 (ix3 a b c)) ⟨1 + a.val, by have := a.isLt; omega⟩ ⟨1 + b.val, by have := b.isLt; omega⟩ ⟨c.val, by have := c.isLt; omega⟩ rfl rfl rfl,
    ix3_ext (idx_main_v10 (ix3 a b c)) ⟨1 + a.val, by have := a.isLt; omega⟩ ⟨1 + b.val, by have := b.isLt; omega⟩ ⟨1 + c.val + 1, by have := c.isLt; omega⟩
      rfl rfl (by show 2 + c.val = 1 + c.val + 1; omega),
    ix3_ext (idx_main_v12 (ix3 a b c)) ⟨1 + a.val, by have := a.isLt; omega⟩ ⟨1 + b.val, by have := b.isLt; omega⟩ ⟨1 + c.val, by have := c.isLt; omega⟩ rfl rfl rfl]

/-- Inside the cube the scatter holds the update, which is the stencil there. -/
theorem interior_apply (x0 : (⟨S96x96x96, .f32⟩ : BufTy).Contents (Elt Ideal)) (a b c : Fin 94) :
    val_main_v20 (F := Ideal) x0 (idx_main_v12 (ix3 a b c)) = Cert.HaloSpec.G x0 (idx_main_v12 (ix3 a b c)) := by
  have ha := a.isLt
  have hb := b.isLt
  have hc := c.isLt
  unfold val_main_v20
  rw [scatter_set_hit _ _ _ _ idx_main_v12 resultIdx_eq idx_main_v12_injective, update_apply]
  show _ = if Cert.HaloSpec.Interior (1 + a.val) (1 + b.val) (1 + c.val)
    then Cert.HaloSpec.lap x0 (1 + a.val) (1 + b.val) (1 + c.val) else 0
  rw [if_pos ⟨by omega, by omega, by omega, by omega, by omega, by omega⟩]
  unfold Cert.HaloSpec.lap
  simp only [Nat.add_sub_cancel_left]
  rw [at3_eq x0 a.val (1 + b.val) (1 + c.val) (by omega) (by omega) (by omega),
    at3_eq x0 (1 + a.val + 1) (1 + b.val) (1 + c.val) (by omega) (by omega) (by omega),
    at3_eq x0 (1 + a.val) b.val (1 + c.val) (by omega) (by omega) (by omega),
    at3_eq x0 (1 + a.val) (1 + b.val + 1) (1 + c.val) (by omega) (by omega) (by omega),
    at3_eq x0 (1 + a.val) (1 + b.val) c.val (by omega) (by omega) (by omega),
    at3_eq x0 (1 + a.val) (1 + b.val) (1 + c.val + 1) (by omega) (by omega) (by omega),
    at3_eq x0 (1 + a.val) (1 + b.val) (1 + c.val) (by omega) (by omega) (by omega)]

/-- On the cube's boundary no update lands, the zero operand stays, and the stencil is zero there. -/
theorem boundary_apply (x0 : (⟨S96x96x96, .f32⟩ : BufTy).Contents (Elt Ideal)) (i : S96x96x96.Idx)
    (h : ¬ Cert.HaloSpec.Interior (i 0).val (i 1).val (i 2).val) :
    val_main_v20 (F := Ideal) x0 i = Cert.HaloSpec.G x0 i := by
  have hmiss : ∀ j : S94x94x94.Idx, idx_main_v12 j ≠ i := by
    intro j e
    apply h
    subst e
    have h0 : (j 0).val < 94 := (j 0).isLt
    have h1 : (j 1).val < 94 := (j 1).isLt
    have h2 : (j 2).val < 94 := (j 2).isLt
    show 1 ≤ 1 + (j 0).val ∧ 1 + (j 0).val ≤ 94 ∧ 1 ≤ 1 + (j 1).val ∧ 1 + (j 1).val ≤ 94 ∧ 1 ≤ 1 + (j 2).val ∧ 1 + (j 2).val ≤ 94
    omega
  unfold val_main_v20
  rw [scatter_set_miss _ _ _ _ idx_main_v12 resultIdx_eq i hmiss, val_main_v0_apply, val_main_cst_apply]
  unfold Cert.HaloSpec.G
  rw [if_neg h]
  simp only [Ideal.ofBits_def]
  exact Ideal.ofBits_zero_f32

/-- The program's result array is the stencil of its argument. -/
theorem result_eq (x0 : (⟨S96x96x96, .f32⟩ : BufTy).Contents (Elt Ideal)) :
    Cert.ReferenceIdeal.Read.val_main_v21 (F := Ideal) x0 = Cert.HaloSpec.G x0 := by
  funext i
  rw [val_main_v21_apply]
  simp only [Ideal.truncf_def]
  by_cases hI : Cert.HaloSpec.Interior (i 0).val (i 1).val (i 2).val
  · obtain ⟨h0, h0', h1, h1', h2, h2'⟩ := hI
    have hi : i = idx_main_v12 (ix3 (⟨(i 0).val - 1, by omega⟩ : Fin 94) (⟨(i 1).val - 1, by omega⟩ : Fin 94) (⟨(i 2).val - 1, by omega⟩ : Fin 94)) := by
      funext d
      refine Fin.ext ?_
      match d with
      | ⟨0, _⟩ => show (i 0).val = 1 + ((i 0).val - 1); omega
      | ⟨1, _⟩ => show (i 1).val = 1 + ((i 1).val - 1); omega
      | ⟨2, _⟩ => show (i 2).val = 1 + ((i 2).val - 1); omega
    rw [hi]
    exact interior_apply x0 _ _ _
  · exact boundary_apply x0 i hI

/-! ## The run -/

section Run
open Idealize.SL.Sem Idealize.ShloMosaic.TcCoe Idealize.ShloMosaic.StableHlo

/-- Every weakly fair execution of the program terminates with the result array holding the stencil of the argument
    array, the argument unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = Cert.HaloSpec.G (m ((c.tc : Thread nD τ).loc main_arg0))
      ∧ r.2.mem ((c.tc : Thread nD τ).loc main_arg0) = m ((c.tc : Thread nD τ).loc main_arg0) :=
  (θ_run defs _ _).mono
    (fun _ h c => ⟨((h c).1.trans (val_main_v21_eq _)).trans (result_eq _), (h c).2⟩)
    (Cert.ReferenceIdeal.Value.run (F := Ideal) m ρ)

/-- The program runs and leaves its argument array unchanged. -/
theorem frame_ri : Cert.frame_ReferenceIdeal :=
  fun m ρ _ => (θ_run (Cert.ReferenceIdeal.defs (F := Ideal)) _ _).mono (fun _ h c => (h c).2)
    (Cert.ReferenceIdeal.Value.run (F := Ideal) m ρ)

end Run

end Cert.ReferenceIdeal.RefValue

end
-- ==== Proof.Claims.lean ====
/-
  The five claims.

  Both printed kernels run to the end with their argument arrays unchanged: that is the launch's run with the result
  dropped. The idealization rewrote nothing, so the preserved-idealization claim is empty. For the equivalence, every
  device's result block ends as `outFinal` of its own block and its three neighbours' facing planes; the devices'
  blocks are the blocks of the one-device program's argument array, so by the index-by-index value lemma that is the
  device's block of the stencil of the whole array, which is what the one-device program's result array ends holding.
-/
import proofs.«900535_g7700000000000536_dist_halo3d_v7x_xyz2x2x2_s48_bf16_1_alg».proof.Defs
import proofs.«900535_g7700000000000536_dist_halo3d_v7x_xyz2x2x2_s48_bf16_1_alg».proof.Proof.Launch
import proofs.«900535_g7700000000000536_dist_halo3d_v7x_xyz2x2x2_s48_bf16_1_alg».proof.Proof.Bits.Launch
import proofs.«900535_g7700000000000536_dist_halo3d_v7x_xyz2x2x2_s48_bf16_1_alg».proof.Proof.KValue
import proofs.«900535_g7700000000000536_dist_halo3d_v7x_xyz2x2x2_s48_bf16_1_alg».proof.Proof.RefValue
import proofs.«900535_g7700000000000536_dist_halo3d_v7x_xyz2x2x2_s48_bf16_1_alg».proof.Proof.Gen.Kernel
import proofs.«900535_g7700000000000536_dist_halo3d_v7x_xyz2x2x2_s48_bf16_1_alg».proof.Proof.Gen.KernelIdeal
import proofs.«900535_g7700000000000536_dist_halo3d_v7x_xyz2x2x2_s48_bf16_1_alg».proof.Proof.Gen.ReferenceIdeal
import proofs.«900535_g7700000000000536_dist_halo3d_v7x_xyz2x2x2_s48_bf16_1_alg».proof.Proof.Gen.Pre_finite_inputs_Kernel
import proofs.«900535_g7700000000000536_dist_halo3d_v7x_xyz2x2x2_s48_bf16_1_alg».proof.Proof.Gen.Pre_finite_inputs_ReferenceIdeal

noncomputable section

namespace Cert.Proof.HaloClaims

open Idealize.ShloMosaic Idealize.ShloMosaic.TcCoe Idealize.SL.Sem

/-- The input window's one block is the whole array: the staged block is the device's argument array. -/
theorem ublk_eq {F : FTy → Type} [FloatOps F] (m : (ℓ : Loc Cert.KernelIdeal.nD Cert.KernelIdeal.τ Cert.KernelIdeal.sig) → Buf (Elt F) ℓ)
    (c : Dev Cert.KernelIdeal.nD) :
    Cert.KernelIdeal.Halo.ublk m c = m ((c : Thread Cert.KernelIdeal.nD Cert.KernelIdeal.τ).loc Cert.KernelIdeal.main_arg0) :=
  Memref.read_access_unit_zero (Elt F) Cert.KernelIdeal.main_arg0 (funext fun a => Nat.zero_mul _) _ _

theorem frame_k : Cert.frame_Kernel := fun m ρ _ =>
  (θ_run (Cert.Kernel.defs (F := Bits)) _ _).mono (fun _ h c => (h c).2) (Cert.Kernel.Halo.run_values (F := Bits) m ρ)

theorem frame_ki : Cert.frame_KernelIdeal := fun m ρ _ =>
  (θ_run (Cert.KernelIdeal.defs (F := Ideal)) _ _).mono (fun _ h c => (h c).2) (Cert.KernelIdeal.Halo.run_values (F := Ideal) m ρ)

theorem preserves : Cert.preserves_Kernel_KernelIdeal := trivial

open Cert.KernelIdeal.Halo Cert.KernelIdeal.HaloValue in
/-- Device `c`'s result block is its block of the stencil of the whole array `U`, when every device's argument array is
    its block of `U`. -/
theorem outAt_eq (m : (ℓ : Loc Cert.KernelIdeal.nD Cert.KernelIdeal.τ Cert.KernelIdeal.sig) → Buf (Elt Ideal) ℓ)
    (U : Cert.HaloSpec.W.Idx → EReal)
    (hU : ∀ c : Dev Cert.KernelIdeal.nD, m ((c : Thread Cert.KernelIdeal.nD Cert.KernelIdeal.τ).loc Cert.KernelIdeal.main_arg0) = blk U c)
    (c : Dev Cert.KernelIdeal.nD) :
    outAt (F := Ideal) m c
      = Layout.blockN ⟨3, ![48, 48, 48]⟩ ⟨3, ![96, 96, 96]⟩ (Layout.meshBlock [2, 2, 2] ![[0], [1], [2]] c) (Cert.HaloSpec.G U) := by
  unfold outAt landX landY landZ sentX sentY sentZ
  rw [ublk_eq, ublk_eq, ublk_eq, ublk_eq, hU c, hU (nbX c), hU (nbY c), hU (nbZ c)]
  exact outFinal_eq U c

theorem algebraic : Cert.algebraic_KernelIdeal_ReferenceIdeal := by
  intro m ρ m' ρ' _ hagree
  refine ⟨Cert.HaloSpec.G (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Halo.run_values (F := Ideal) m ρ)
    exact outAt_eq m _ hagree c
  · exact (θ_run (Cert.ReferenceIdeal.defs (F := Ideal)) _ _).mono (fun _ h => h 0) (Cert.ReferenceIdeal.RefValue.run_G m' ρ')

end Cert.Proof.HaloClaims

end
-- ==== Proof.lean ====
/-
  The certificate's claim, assembled: the facts the programs state, then the five claims of `Proof/Claims.lean` —
  both kernels' frames from the exchange's run on the eight devices, the one-device program's frame from its run, the
  empty idealization claim, and the equivalence of the exchange's result blocks with the blocks of the stencil.
-/
import proofs.«900535_g7700000000000536_dist_halo3d_v7x_xyz2x2x2_s48_bf16_1_alg».proof.Defs
import proofs.«900535_g7700000000000536_dist_halo3d_v7x_xyz2x2x2_s48_bf16_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.HaloClaims.frame_k, Cert.Proof.HaloClaims.frame_ki, Cert.ReferenceIdeal.RefValue.frame_ri, Cert.Proof.HaloClaims.preserves, Cert.Proof.HaloClaims.algebraic⟩

end Cert.Proof

end
